-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v466) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S500000 : Shape := ⟨1, ![500000]⟩
abbrev S8x128x128 : Shape := ⟨3, ![8, 128, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S1x500000 : Shape := ⟨2, ![1, 500000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S2x500000_S1x500000_1_0 : S2x500000.Slices ![1, 0] S1x500000
  shapeCasts_S1x500000_S500000 : S1x500000.ShapeCasts S500000
  bcast_S_S500000 : S_.BroadcastsInDim S500000 (![] : Fin 0 → Fin S500000.rank)
  reducesTo_S500000_S_d0 : S500000.ReducesTo [0] S_

variable [Facts]

def fn_part3 {F : FTy → Type} [FloatOps F] (main_arg2 : IVec S500000 32) (main_v49 : IVec S_ 1) (main_v51 : IVec S500000 32) : IVec S_ 1 :=
  let main_c_18 : IVec S_ 32 := constantI S_ 32 50000#32
  let main_v52 : IVec S500000 32 := broadcastInDim S500000 ![] bcast_S_S500000 main_c_18
  let main_v53 : IVec S500000 1 := cmpi .slt main_v51 main_v52
  let main_c_19 : IVec S_ 1 := constantI S_ 1 1#1
  let main_v54 : IVec S_ 1 := (fun x v => Host.reduce IntOp.andi x v reducesTo_S500000_S_d0 h_S_) main_v53 main_c_19
  let main_v55 : IVec S_ 1 := andi main_v49 main_v54
  let main_c_20 : IVec S_ 32 := constantI S_ 32 0#32
  let main_v56 : IVec S500000 32 := broadcastInDim S500000 ![] bcast_S_S500000 main_c_20
  let main_v57 : IVec S500000 1 := cmpi .sge main_arg2 main_v56
  let main_c_21 : IVec S_ 1 := constantI S_ 1 1#1
  let main_v58 : IVec S_ 1 := (fun x v => Host.reduce IntOp.andi x v reducesTo_S500000_S_d0 h_S_) main_v57 main_c_21
  let main_v59 : IVec S_ 1 := andi main_v55 main_v58
  let main_c_22 : IVec S_ 32 := constantI S_ 32 8#32
  let main_v60 : IVec S500000 32 := broadcastInDim S500000 ![] bcast_S_S500000 main_c_22
  let main_v61 : IVec S500000 1 := cmpi .slt main_arg2 main_v60
  let main_c_23 : IVec S_ 1 := constantI S_ 1 1#1
  let main_v62 : IVec S_ 1 := (fun x v => Host.reduce IntOp.andi x v reducesTo_S500000_S_d0 h_S_) main_v61 main_c_23
  let main_v63 : IVec S_ 1 := andi main_v59 main_v62
  main_v63

def fn_part2 {F : FTy → Type} [FloatOps F] (main_arg1 : IVec S2x500000 32) (main_arg2 : IVec S500000 32) (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : IVec S1x500000 32 := (extractStridedSlice S1x500000 ![1, 0] · slices_S2x500000_S1x500000_1_0) main_arg1
  let main_v45 : IVec S500000 32 := shapeCast S500000 main_v44 shapeCasts_S1x500000_S500000
  let main_c_16 : IVec S_ 32 := constantI S_ 32 0#32
  let main_v46 : IVec S500000 32 := broadcastInDim S500000 ![] bcast_S_S500000 main_c_16
  let main_v47 : IVec S500000 1 := cmpi .sge main_v45 main_v46
  let main_c_17 : IVec S_ 1 := constantI S_ 1 1#1
  let main_v48 : IVec S_ 1 := (fun x v => Host.reduce IntOp.andi x v reducesTo_S500000_S_d0 h_S_) main_v47 main_c_17
  let main_v49 : IVec S_ 1 := andi main_v43 main_v48
  let main_v50 : IVec S1x500000 32 := (extractStridedSlice S1x500000 ![1, 0] · slices_S2x500000_S1x500000_1_0) main_arg1
  let main_v51 : IVec S500000 32 := shapeCast S500000 main_v50 shapeCasts_S1x500000_S500000
  fn_part3 (F := F) main_arg2 main_v49 main_v51

def fn_part1 {F : FTy → Type} [FloatOps F] (main_arg1 : IVec S2x500000 32) (main_arg2 : IVec S500000 32) (main_arg6 : FVec F S8x128x128 .f32) (main_arg7 : FVec F S128x128 .f32) (main_arg8 : FVec F S128 .f32) (main_arg9 : FVec F S128x1 .f32) (main_arg10 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S8x128x128 .f32 := Host.absf main_arg6
  let main_cst_6 : FVec F S_ .f32 := constant S_ .f32 0x7F800000#32
  let main_v20 : FVec F S8x128x128 .f32 := broadcastInDim S8x128x128 ![] bcast_S_S8x128x128 main_cst_6
  let main_v21 : IVec S8x128x128 1 := cmpf .olt main_v19 main_v20
  let main_c_7 : IVec S_ 1 := constantI S_ 1 1#1
  let main_v22 : IVec S_ 1 := (fun x v => Host.reduce IntOp.andi x v reducesTo_S8x128x128_S_d0_1_2 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg2 main_arg9 main_arg10 main_v33

def fn {F : FTy → Type} [FloatOps F] (main_arg0 : FVec F S50000x128 .f32) (main_arg1 : IVec S2x500000 32) (main_arg2 : IVec S500000 32) (main_arg3 : FVec F S8x128x128 .f32) (main_arg4 : FVec F S128x128 .f32) (main_arg5 : FVec F S128 .f32) (main_arg6 : FVec F S8x128x128 .f32) (main_arg7 : FVec F S128x128 .f32) (main_arg8 : FVec F S128 .f32) (main_arg9 : FVec F S128x1 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S8x128x128 .f32 := Host.absf main_arg3
  let main_cst_0 : FVec F S_ .f32 := constant S_ .f32 0x7F800000#32
  let main_v5 : FVec F S8x128x128 .f32 := broadcastInDim S8x128x128 ![] bcast_S_S8x128x128 main_cst_0
  let main_v6 : IVec S8x128x128 1 := cmpf .olt main_v4 main_v5
  let main_c_1 : IVec S_ 1 := constantI S_ 1 1#1
  let main_v7 : IVec S_ 1 := (fun x v => Host.reduce IntOp.andi x v reducesTo_S8x128x128_S_d0_1_2 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg2 main_arg6 main_arg7 main_arg8 main_arg9 main_arg10 main_v13 main_v16
-- ==== Kernel.lean ====
abbrev S50000x128 : Shape := ⟨2, ![50000, 128]⟩
abbrev S2x500000 : Shape := ⟨2, ![2, 500000]⟩
abbrev S500000 : Shape := ⟨1, ![500000]⟩
abbrev S8x128x128 : Shape := ⟨3, ![8, 128, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x500000 : Shape := ⟨2, ![1, 500000]⟩
abbrev S128x8x128 : Shape := ⟨3, ![128, 8, 128]⟩
abbrev S128x1024 : Shape := ⟨2, ![128, 1024]⟩
abbrev S128x1152 : Shape := ⟨2, ![128, 1152]⟩
abbrev S50000x1152 : Shape := ⟨2, ![50000, 1152]⟩
abbrev S2000x128 : Shape := ⟨2, ![2000, 128]⟩
abbrev S2000x1152 : Shape := ⟨2, ![2000, 1152]⟩
abbrev S1x128 : Shape := ⟨2, ![1, 128]⟩
abbrev S50000x1024 : Shape := ⟨2, ![50000, 1024]⟩
abbrev S50000x8x128 : Shape := ⟨3, ![50000, 8, 128]⟩
abbrev S_ : Shape := ⟨0, ![]⟩
abbrev S500000x1 : Shape := ⟨2, ![500000, 1]⟩
abbrev S500000x2 : Shape := ⟨2, ![500000, 2]⟩
abbrev S500000x128 : Shape := ⟨2, ![500000, 128]⟩
abbrev S400000x128 : Shape := ⟨2, ![400000, 128]⟩
abbrev S400000 : Shape := ⟨1, ![400000]⟩
abbrev S50000x8 : Shape := ⟨2, ![50000, 8]⟩
abbrev S50000x8x1 : Shape := ⟨3, ![50000, 8, 1]⟩
abbrev S50000x1 : Shape := ⟨2, ![50000, 1]⟩
abbrev S50000 : Shape := ⟨1, ![50000]⟩

abbrev nBuf : Space → Nat
  | .hbm => 138
  | .vmem => 15
  | .smem => 0
  | _ => 0

abbrev hbmTy0_0 (i : Nat) : BufTy := match i % 128 with
  | 0 => ⟨S50000x128, .f32⟩
  | 1 => ⟨S2x500000, .i32⟩
  | 2 => ⟨S500000, .i32⟩
  | 3 => ⟨S8x128x128, .f32⟩
  | 4 => ⟨S128x128, .f32⟩
  | 5 => ⟨S128, .f32⟩
  | 6 => ⟨S8x128x128, .f32⟩
  | 7 => ⟨S128x128, .f32⟩
  | 8 => ⟨S128, .f32⟩
  | 9 => ⟨S128x1, .f32⟩
  | 10 => ⟨S1, .f32⟩
  | 11 => ⟨S1x500000, .i32⟩
  | 12 => ⟨S500000, .i32⟩
  | 13 => ⟨S1x500000, .i32⟩
  | 14 => ⟨S500000, .i32⟩
  | 15 => ⟨S128x8x128, .f32⟩
  | 16 => ⟨S128x1024, .f32⟩
  | 17 => ⟨S128x1152, .f32⟩
  | 18 => ⟨S50000x1152, .f32⟩
  | 19 => ⟨S50000x128, .f32⟩
  | 20 => ⟨S1x128, .f32⟩
  | 21 => ⟨S50000x128, .f32⟩
  | 22 => ⟨S50000x128, .f32⟩
  | 23 => ⟨S50000x1024, .f32⟩
  | 24 => ⟨S50000x8x128, .f32⟩
  | 25 => ⟨S_, .i32⟩
  | 26 => ⟨S500000, .i32⟩
  | 27 => ⟨S500000, .i32⟩
  | 28 => ⟨S500000, .i32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S_, .i32⟩
  | 37 => ⟨S500000, .i32⟩
  | 38 => ⟨S500000, .i1⟩
  | 39 => ⟨S_, .i32⟩
  | 40 => ⟨S500000, .i32⟩
  | 41 => ⟨S500000, .i32⟩
  | 42 => ⟨S500000, .i32⟩
  | 43 => ⟨S500000x1, .i32⟩
  | 44 => ⟨S500000x1, .i32⟩
  | 45 => ⟨S500000x2, .i32⟩
  | 46 => ⟨S500000x128, .f32⟩
  | 47 => ⟨S_, .f32⟩
  | 48 => ⟨S400000x128, .f32⟩
  | 49 => ⟨S500000x1, .i32⟩
  | 50 => ⟨S400000x128, .f32⟩
  | 51 => ⟨S_, .f32⟩
  | 52 => ⟨S500000, .f32⟩
  | 53 => ⟨S_, .f32⟩
  | 54 => ⟨S400000, .f32⟩
  | 55 => ⟨S500000x1, .i32⟩
  | 56 => ⟨S400000, .f32⟩
  | 57 => ⟨S50000x8x128, .f32⟩
  | 58 => ⟨S50000x8, .f32⟩
  | 59 => ⟨S_, .f32⟩
  | 60 => ⟨S50000x8, .f32⟩
  | 61 => ⟨S50000x8, .f32⟩
  | 62 => ⟨S50000x8x1, .f32⟩
  | 63 => ⟨S50000x8x128, .f32⟩
  | 64 => ⟨S50000x8x128, .f32⟩
  | 65 => ⟨S_, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S128x8x128, .f32⟩
  | 72 => ⟨S128x1024, .f32⟩
  | 73 => ⟨S128x1152, .f32⟩
  | 74 => ⟨S50000x1152, .f32⟩
  | 75 => ⟨S50000x128, .f32⟩
  | 76 => ⟨S1x128, .f32⟩
  | 77 => ⟨S50000x128, .f32⟩
  | 78 => ⟨S50000x128, .f32⟩
  | 79 => ⟨S50000x1024, .f32⟩
  | 80 => ⟨S50000x8x128, .f32⟩
  | 81 => ⟨S_, .i32⟩
  | 82 => ⟨S500000, .i32⟩
  | 83 => ⟨S500000, .i32⟩
  | 84 => ⟨S500000, .i32⟩
  | 85 => ⟨S_, .i32⟩
  | 86 => ⟨S500000, .i32⟩
  | 87 => ⟨S500000, .i1⟩
  | 88 => ⟨S_, .i32⟩
  | 89 => ⟨S500000, .i32⟩
  | 90 => ⟨S500000, .i32⟩
  | 91 => ⟨S500000, .i32⟩
  | 92 => ⟨S_, .i32⟩
  | 93 => ⟨S500000, .i32⟩
  | 94 => ⟨S500000, .i1⟩
  | 95 => ⟨S_, .i32⟩
  | 96 => ⟨S500000, .i32⟩
  | 97 => ⟨S500000, .i32⟩
  | 98 => ⟨S500000, .i32⟩
  | 99 => ⟨S500000x1, .i32⟩
  | 100 => ⟨S500000x1, .i32⟩
  | 101 => ⟨S500000x2, .i32⟩
  | 102 => ⟨S500000x128, .f32⟩
  | 103 => ⟨S_, .f32⟩
  | 104 => ⟨S400000x128, .f32⟩
  | 105 => ⟨S500000x1, .i32⟩
  | 106 => ⟨S400000x128, .f32⟩
  | 107 => ⟨S_, .f32⟩
  | 108 => ⟨S500000, .f32⟩
  | 109 => ⟨S_, .f32⟩
  | 110 => ⟨S400000, .f32⟩
  | 111 => ⟨S500000x1, .i32⟩
  | 112 => ⟨S400000, .f32⟩
  | 113 => ⟨S50000x8x128, .f32⟩
  | 114 => ⟨S50000x8, .f32⟩
  | 115 => ⟨S_, .f32⟩
  | 116 => ⟨S50000x8, .f32⟩
  | 117 => ⟨S50000x8, .f32⟩
  | 118 => ⟨S50000x8x1, .f32⟩
  | 119 => ⟨S50000x8x128, .f32⟩
  | 120 => ⟨S50000x8x128, .f32⟩
  | 121 => ⟨S_, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S128x128, .f32⟩
  | 1 => ⟨S_, .i32⟩
  | 2 => ⟨S1, .i32⟩
  | 3 => ⟨S128x128, .f32⟩
  | 4 => ⟨S50000x128, .f32⟩
  | 5 => ⟨S50000x1, .f32⟩
  | 6 => ⟨S50000, .f32⟩
  | 7 => ⟨S_, .f32⟩
  | 8 => ⟨S50000, .f32⟩
  | 9 => ⟨S50000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x1152, .f32⟩
  | .local _ .vmem, ⟨3, _⟩ => ⟨S2000x1152, .f32⟩
  | .local _ .vmem, ⟨4, _⟩ => ⟨S2000x1152, .f32⟩
  | .local _ .vmem, ⟨5, _⟩ => ⟨S2000x128, .f32⟩
  | .local _ .vmem, ⟨6, _⟩ => ⟨S2000x128, .f32⟩
  | .local _ .vmem, ⟨7, _⟩ => ⟨S128x1152, .f32⟩
  | .local _ .vmem, ⟨8, _⟩ => ⟨S2000x1152, .f32⟩
  | .local _ .vmem, ⟨9, _⟩ => ⟨S2000x1152, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_call0_cst : Ref sig .tc := ⟨.hbm, 68, rfl⟩
abbrev main_call0_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_8 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_9 : Ref sig .tc := ⟨.hbm, 85, rfl⟩
abbrev main_v61 : Ref sig .tc := ⟨.hbm, 86, rfl⟩
abbrev main_v62 : Ref sig .tc := ⟨.hbm, 87, rfl⟩
abbrev main_c_10 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_11 : Ref sig .tc := ⟨.hbm, 92, rfl⟩
abbrev main_v66 : Ref sig .tc := ⟨.hbm, 93, rfl⟩
abbrev main_v67 : Ref sig .tc := ⟨.hbm, 94, rfl⟩
abbrev main_c_12 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_13 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_16 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_17 : Ref sig .tc := ⟨.hbm, 121, rfl⟩
abbrev main_v89 : Ref sig .tc := ⟨.hbm, 122, rfl⟩
abbrev main_v90 : Ref sig .tc := ⟨.hbm, 123, rfl⟩
abbrev main_call1_cst : Ref sig .tc := ⟨.hbm, 124, rfl⟩
abbrev main_call1_v0 : Ref sig .tc := ⟨.hbm, 125, rfl⟩
abbrev main_v91 : Ref sig .tc := ⟨.hbm, 126, rfl⟩
abbrev main_cst_18 : Ref sig .tc := ⟨.hbm, 127, rfl⟩
abbrev main_v92 : Ref sig .tc := ⟨.hbm, 128, rfl⟩
abbrev main_c_19 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1152 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1152 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  transposes_S8x128x128_S128x8x128_1_0_2 : S8x128x128.Transposes [1, 0, 2] S128x8x128
  shapeCasts_S128x8x128_S128x1024 : S128x8x128.ShapeCasts S128x1024
  concatenates_S128x128_S128x1024_S128x1152_d1 : Shape.Concatenates [S128x128, S128x1024] S128x1152 1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x1152_S128x1152_0_0 : ∀ a, (![0, 0] : Fin 2 → Nat) a + S128x1152.size a ≤ S128x1152.size a
  h_S128x1152 : 0 < S128x1152.numel
  shapeCasts_S128x1152_S128x1152 : S128x1152.ShapeCasts S128x1152
  inb_S2000x1152_S2000x1152_0_0 : ∀ a, (![0, 0] : Fin 2 → Nat) a + S2000x1152.size a ≤ S2000x1152.size a
  h_S2000x1152 : 0 < S2000x1152.numel
  slices_S50000x1152_S50000x128_0_0 : S50000x1152.Slices ![0, 0] S50000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S50000x1152_S50000x1024_0_128 : S50000x1152.Slices ![0, 128] S50000x1024
  shapeCasts_S50000x1024_S50000x8x128 : S50000x1024.ShapeCasts S50000x8x128
  bcast_S_S500000 : S_.BroadcastsInDim S500000 (![] : Fin 0 → Fin S500000.rank)
  bcast_S500000_S500000x1_0 : S500000.BroadcastsInDim S500000x1 (![0] : Fin 1 → Fin S500000x1.rank)
  concatenates_S500000x1_S500000x1_S500000x2_d1 : Shape.Concatenates [S500000x1, S500000x1] S500000x2 1
  bcast_S_S400000x128 : S_.BroadcastsInDim S400000x128 (![] : Fin 0 → Fin S400000x128.rank)
  bcast_S_S400000 : S_.BroadcastsInDim S400000 (![] : Fin 0 → Fin S400000.rank)
  shapeCasts_S400000x128_S50000x8x128 : S400000x128.ShapeCasts S50000x8x128
  shapeCasts_S400000_S50000x8 : S400000.ShapeCasts S50000x8
  bcast_S_S50000x8 : S_.BroadcastsInDim S50000x8 (![] : Fin 0 → Fin S50000x8.rank)
  bcast_S50000x8_S50000x8x1_0_1 : S50000x8.BroadcastsInDim S50000x8x1 (![0, 1] : Fin 2 → Fin S50000x8x1.rank)
  bcast_S50000x8x1_S50000x8x128_0_1_2 : S50000x8x1.BroadcastsInDim S50000x8x128 (![0, 1, 2] : Fin 3 → Fin S50000x8x128.rank)
  reducesTo_S50000x8x128_S50000x128_d1 : S50000x8x128.ReducesTo [1] S50000x128
  h_S_ : 0 < S_.numel
  bcast_S_S50000x128 : S_.BroadcastsInDim S50000x128 (![] : Fin 0 → Fin S50000x128.rank)
  shapeCasts_S2000x128_S2000x128 : S2000x128.ShapeCasts S2000x128
  bcast_S_S128x128 : S_.BroadcastsInDim S128x128 (![] : Fin 0 → Fin S128x128.rank)
  bcast_S_S1 : S_.BroadcastsInDim S1 (![] : Fin 0 → Fin S1.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S50000x128_S50000x1_0_0 : S50000x128.Slices ![0, 0] S50000x1
  shapeCasts_S50000x1_S50000 : S50000x1.ShapeCasts S50000
  shapeCasts_S1_S_ : S1.ShapeCasts S_
  bcast_S_S50000 : S_.BroadcastsInDim S50000 (![] : Fin 0 → Fin S50000.rank)
  dot_S2000x128_S128x1152_S2000x1152_1_0_0_1_n_n_wf : DotDims.WF S2000x128 S128x1152 S2000x1152 [1] [0] [0] [1] [] []
  gather_S50000x8x128_S500000x2_S500000x128_1_01_n_n_01_1_11128_wf : GatherDims.WF S50000x8x128 S500000x2 S500000x128 [1] [0, 1] [] [0, 1] [] 1 ![1, 1, 128]
  scatter_S400000x128_S500000x1_S500000x128_1_0_0_1_wf : ScatterDims.WF S400000x128 S500000x1 S500000x128 [1] [0] [0] 1
  scatter_S400000_S500000x1_S500000_n_0_0_1_wf : ScatterDims.WF S400000 S500000x1 S500000 [] [0] [0] 1
  scatter_S128x128_S1_S128x1_01_n_1_0_wf : ScatterDims.WF S128x128 S1 S128x1 [0, 1] [] [1] 0
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1152.size a ≤ S128x1152.size a
  hwx0_1 : ∀ i : grid0.Coords, EltTy.bits .f32 = 32 ∨ (Rect.block (s := S128x1152) S128x1152.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1152.size a ≤ S50000x1152.size a
  hwx0_2 : ∀ i : grid0.Coords, EltTy.bits .f32 = 32 ∨ (Rect.block (s := S50000x1152) S2000x1152.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1152.size a ≤ S128x1152.size a
  hwx1_1 : ∀ i : grid1.Coords, EltTy.bits .f32 = 32 ∨ (Rect.block (s := S128x1152) S128x1152.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1152.size a ≤ S50000x1152.size a
  hwx1_2 : ∀ i : grid1.Coords, EltTy.bits .f32 = 32 ∨ (Rect.block (s := S50000x1152) S2000x1152.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)

variable [Facts₀]

def dot_S2000x128_S128x1152_S2000x1152_1_0_0_1_n_n : DotDims S2000x128 S128x1152 S2000x1152 where
  lhsContracting := [1]
  rhsContracting := [0]
  lhsNonContracting := [0]
  rhsNonContracting := [1]
  lhsBatch := []
  rhsBatch := []
  wf := dot_S2000x128_S128x1152_S2000x1152_1_0_0_1_n_n_wf
def gather_S50000x8x128_S500000x2_S500000x128_1_01_n_n_01_1_11128 : GatherDims S50000x8x128 S500000x2 S500000x128 where
  offsetDims := [1]
  collapsedSliceDims := [0, 1]
  operandBatchingDims := []
  startIndicesBatchingDims := []
  startIndexMap := [0, 1]
  indexVectorDim := 1
  sliceSizes := ![1, 1, 128]
  wf := gather_S50000x8x128_S500000x2_S500000x128_1_01_n_n_01_1_11128_wf
def scatter_S400000x128_S500000x1_S500000x128_1_0_0_1 : ScatterDims S400000x128 S500000x1 S500000x128 where
  updateWindowDims := [1]
  insertedWindowDims := [0]
  scatterDimsToOperandDims := [0]
  indexVectorDim := 1
  wf := scatter_S400000x128_S500000x1_S500000x128_1_0_0_1_wf
def scatter_S400000_S500000x1_S500000_n_0_0_1 : ScatterDims S400000 S500000x1 S500000 where
  updateWindowDims := []
  insertedWindowDims := [0]
  scatterDimsToOperandDims := [0]
  indexVectorDim := 1
  wf := scatter_S400000_S500000x1_S500000_n_0_0_1_wf
def scatter_S128x128_S1_S128x1_01_n_1_0 : ScatterDims S128x128 S1 S128x1 where
  updateWindowDims := [0, 1]
  insertedWindowDims := []
  scatterDimsToOperandDims := [1]
  indexVectorDim := 0
  wf := scatter_S128x128_S1_S128x1_01_n_1_0_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x1152.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2000x1152.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S128x1152.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S2000x1152.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v91) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v94) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v95) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S500000 : Shape := ⟨1, ![500000]⟩
abbrev S8x128x128 : Shape := ⟨3, ![8, 128, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x500000 : Shape := ⟨2, ![1, 500000]⟩
abbrev S1x128 : Shape := ⟨2, ![1, 128]⟩
abbrev S_ : Shape := ⟨0, ![]⟩
abbrev S1x128x128 : Shape := ⟨3, ![1, 128, 128]⟩
abbrev S500000x1 : Shape := ⟨2, ![500000, 1]⟩
abbrev S500000x128 : Shape := ⟨2, ![500000, 128]⟩
abbrev S50000 : Shape := ⟨1, ![50000]⟩
abbrev S50000x1 : Shape := ⟨2, ![50000, 1]⟩
abbrev S1x1 : Shape := ⟨2, ![1, 1]⟩

abbrev nBuf : Space → Nat
  | .hbm => 578
  | .vmem => 0
  | .smem => 0
  | _ => 0

abbrev hbmTy0_0 (i : Nat) : BufTy := match i % 128 with
  | 0 => ⟨S50000x128, .f32⟩
  | 1 => ⟨S2x500000, .i32⟩
  | 2 => ⟨S500000, .i32⟩
  | 3 => ⟨S8x128x128, .f32⟩
  | 4 => ⟨S128x128, .f32⟩
  | 5 => ⟨S128, .f32⟩
  | 6 => ⟨S8x128x128, .f32⟩
  | 7 => ⟨S128x128, .f32⟩
  | 8 => ⟨S128, .f32⟩
  | 9 => ⟨S128x1, .f32⟩
  | 10 => ⟨S1, .f32⟩
  | 11 => ⟨S1x500000, .i32⟩
  | 12 => ⟨S500000, .i32⟩
  | 13 => ⟨S1x500000, .i32⟩
  | 14 => ⟨S500000, .i32⟩
  | 15 => ⟨S50000x128, .f32⟩
  | 16 => ⟨S1x128, .f32⟩
  | 17 => ⟨S50000x128, .f32⟩
  | 18 => ⟨S50000x128, .f32⟩
  | 19 => ⟨S_, .i32⟩
  | 20 => ⟨S500000, .i32⟩
  | 21 => ⟨S500000, .i1⟩
  | 22 => ⟨S500000, .f32⟩
  | 23 => ⟨S1x128x128, .f32⟩
  | 24 => ⟨S128x128, .f32⟩
  | 25 => ⟨S50000x128, .f32⟩
  | 26 => ⟨S_, .i32⟩
  | 27 => ⟨S500000, .i32⟩
  | 28 => ⟨S500000, .i1⟩
  | 29 => ⟨S_, .i32⟩
  | 30 => ⟨S500000, .i32⟩
  | 31 => ⟨S500000, .i32⟩
  | 32 => ⟨S500000, .i32⟩
  | 33 => ⟨S500000x1, .i32⟩
  | 34 => ⟨S500000x128, .f32⟩
  | 35 => ⟨S500000x1, .f32⟩
  | 36 => ⟨S500000x128, .f32⟩
  | 37 => ⟨S500000x128, .f32⟩
  | 38 => ⟨S_, .f32⟩
  | 39 => ⟨S50000x128, .f32⟩
  | 40 => ⟨S500000x1, .i32⟩
  | 41 => ⟨S50000x128, .f32⟩
  | 42 => ⟨S_, .f32⟩
  | 43 => ⟨S50000, .f32⟩
  | 44 => ⟨S500000x1, .i32⟩
  | 45 => ⟨S50000, .f32⟩
  | 46 => ⟨S_, .f32⟩
  | 47 => ⟨S50000, .f32⟩
  | 48 => ⟨S50000, .f32⟩
  | 49 => ⟨S50000x1, .f32⟩
  | 50 => ⟨S50000x128, .f32⟩
  | 51 => ⟨S50000x128, .f32⟩
  | 52 => ⟨S50000x128, .f32⟩
  | 53 => ⟨S_, .i32⟩
  | 54 => ⟨S500000, .i32⟩
  | 55 => ⟨S500000, .i1⟩
  | 56 => ⟨S500000, .f32⟩
  | 57 => ⟨S1x128x128, .f32⟩
  | 58 => ⟨S128x128, .f32⟩
  | 59 => ⟨S50000x128, .f32⟩
  | 60 => ⟨S_, .i32⟩
  | 61 => ⟨S500000, .i32⟩
  | 62 => ⟨S500000, .i1⟩
  | 63 => ⟨S_, .i32⟩
  | 64 => ⟨S500000, .i32⟩
  | 65 => ⟨S500000, .i32⟩
  | 66 => ⟨S500000, .i32⟩
  | 67 => ⟨S500000x1, .i32⟩
  | 68 => ⟨S500000x128, .f32⟩
  | 69 => ⟨S500000x1, .f32⟩
  | 70 => ⟨S500000x128, .f32⟩
  | 71 => ⟨S500000x128, .f32⟩
  | 72 => ⟨S_, .f32⟩
  | 73 => ⟨S50000x128, .f32⟩
  | 74 => ⟨S500000x1, .i32⟩
  | 75 => ⟨S50000x128, .f32⟩
  | 76 => ⟨S_, .f32⟩
  | 77 => ⟨S50000, .f32⟩
  | 78 => ⟨S500000x1, .i32⟩
  | 79 => ⟨S50000, .f32⟩
  | 80 => ⟨S_, .f32⟩
  | 81 => ⟨S50000, .f32⟩
  | 82 => ⟨S50000, .f32⟩
  | 83 => ⟨S50000x1, .f32⟩
  | 84 => ⟨S50000x128, .f32⟩
  | 85 => ⟨S50000x128, .f32⟩
  | 86 => ⟨S50000x128, .f32⟩
  | 87 => ⟨S_, .i32⟩
  | 88 => ⟨S500000, .i32⟩
  | 89 => ⟨S500000, .i1⟩
  | 90 => ⟨S500000, .f32⟩
  | 91 => ⟨S1x128x128, .f32⟩
  | 92 => ⟨S128x128, .f32⟩
  | 93 => ⟨S50000x128, .f32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S500000x128, .f32⟩
  | 103 => ⟨S500000x1, .f32⟩
  | 104 => ⟨S500000x128, .f32⟩
  | 105 => ⟨S500000x128, .f32⟩
  | 106 => ⟨S_, .f32⟩
  | 107 => ⟨S50000x128, .f32⟩
  | 108 => ⟨S500000x1, .i32⟩
  | 109 => ⟨S50000x128, .f32⟩
  | 110 => ⟨S_, .f32⟩
  | 111 => ⟨S50000, .f32⟩
  | 112 => ⟨S500000x1, .i32⟩
  | 113 => ⟨S50000, .f32⟩
  | 114 => ⟨S_, .f32⟩
  | 115 => ⟨S50000, .f32⟩
  | 116 => ⟨S50000, .f32⟩
  | 117 => ⟨S50000x1, .f32⟩
  | 118 => ⟨S50000x128, .f32⟩
  | 119 => ⟨S50000x128, .f32⟩
  | 120 => ⟨S50000x128, .f32⟩
  | 121 => ⟨S_, .i32⟩
  | 122 => ⟨S500000, .i32⟩
  | 123 => ⟨S500000, .i1⟩
  | 124 => ⟨S500000, .f32⟩
  | 125 => ⟨S1x128x128, .f32⟩
  | 126 => ⟨S128x128, .f32⟩
  | 127 => ⟨S50000x128, .f32⟩
  | _ => ⟨S50000x128, .f32⟩

abbrev hbmTy0_1 (i : Nat) : BufTy := match i % 128 with
  | 0 => ⟨S_, .i32⟩
  | 1 => ⟨S500000, .i32⟩
  | 2 => ⟨S500000, .i1⟩
  | 3 => ⟨S_, .i32⟩
  | 4 => ⟨S500000, .i32⟩
  | 5 => ⟨S500000, .i32⟩
  | 6 => ⟨S500000, .i32⟩
  | 7 => ⟨S500000x1, .i32⟩
  | 8 => ⟨S500000x128, .f32⟩
  | 9 => ⟨S500000x1, .f32⟩
  | 10 => ⟨S500000x128, .f32⟩
  | 11 => ⟨S500000x128, .f32⟩
  | 12 => ⟨S_, .f32⟩
  | 13 => ⟨S50000x128, .f32⟩
  | 14 => ⟨S500000x1, .i32⟩
  | 15 => ⟨S50000x128, .f32⟩
  | 16 => ⟨S_, .f32⟩
  | 17 => ⟨S50000, .f32⟩
  | 18 => ⟨S500000x1, .i32⟩
  | 19 => ⟨S50000, .f32⟩
  | 20 => ⟨S_, .f32⟩
  | 21 => ⟨S50000, .f32⟩
  | 22 => ⟨S50000, .f32⟩
  | 23 => ⟨S50000x1, .f32⟩
  | 24 => ⟨S50000x128, .f32⟩
  | 25 => ⟨S50000x128, .f32⟩
  | 26 => ⟨S50000x128, .f32⟩
  | 27 => ⟨S_, .i32⟩
  | 28 => ⟨S500000, .i32⟩
  | 29 => ⟨S500000, .i1⟩
  | 30 => ⟨S500000, .f32⟩
  | 31 => ⟨S1x128x128, .f32⟩
  | 32 => ⟨S128x128, .f32⟩
  | 33 => ⟨S50000x128, .f32⟩
  | 34 => ⟨S_, .i32⟩
  | 35 => ⟨S500000, .i32⟩
  | 36 => ⟨S500000, .i1⟩
  | 37 => ⟨S_, .i32⟩
  | 38 => ⟨S500000, .i32⟩
  | 39 => ⟨S500000, .i32⟩
  | 40 => ⟨S500000, .i32⟩
  | 41 => ⟨S500000x1, .i32⟩
  | 42 => ⟨S500000x128, .f32⟩
  | 43 => ⟨S500000x1, .f32⟩
  | 44 => ⟨S500000x128, .f32⟩
  | 45 => ⟨S500000x128, .f32⟩
  | 46 => ⟨S_, .f32⟩
  | 47 => ⟨S50000x128, .f32⟩
  | 48 => ⟨S500000x1, .i32⟩
  | 49 => ⟨S50000x128, .f32⟩
  | 50 => ⟨S_, .f32⟩
  | 51 => ⟨S50000, .f32⟩
  | 52 => ⟨S500000x1, .i32⟩
  | 53 => ⟨S50000, .f32⟩
  | 54 => ⟨S_, .f32⟩
  | 55 => ⟨S50000, .f32⟩
  | 56 => ⟨S50000, .f32⟩
  | 57 => ⟨S50000x1, .f32⟩
  | 58 => ⟨S50000x128, .f32⟩
  | 59 => ⟨S50000x128, .f32⟩
  | 60 => ⟨S50000x128, .f32⟩
  | 61 => ⟨S_, .i32⟩
  | 62 => ⟨S500000, .i32⟩
  | 63 => ⟨S500000, .i1⟩
  | 64 => ⟨S500000, .f32⟩
  | 65 => ⟨S1x128x128, .f32⟩
  | 66 => ⟨S128x128, .f32⟩
  | 67 => ⟨S50000x128, .f32⟩
  | 68 => ⟨S_, .i32⟩
  | 69 => ⟨S500000, .i32⟩
  | 70 => ⟨S500000, .i1⟩
  | 71 => ⟨S_, .i32⟩
  | 72 => ⟨S500000, .i32⟩
  | 73 => ⟨S500000, .i32⟩
  | 74 => ⟨S500000, .i32⟩
  | 75 => ⟨S500000x1, .i32⟩
  | 76 => ⟨S500000x128, .f32⟩
  | 77 => ⟨S500000x1, .f32⟩
  | 78 => ⟨S500000x128, .f32⟩
  | 79 => ⟨S500000x128, .f32⟩
  | 80 => ⟨S_, .f32⟩
  | 81 => ⟨S50000x128, .f32⟩
  | 82 => ⟨S500000x1, .i32⟩
  | 83 => ⟨S50000x128, .f32⟩
  | 84 => ⟨S_, .f32⟩
  | 85 => ⟨S50000, .f32⟩
  | 86 => ⟨S500000x1, .i32⟩
  | 87 => ⟨S50000, .f32⟩
  | 88 => ⟨S_, .f32⟩
  | 89 => ⟨S50000, .f32⟩
  | 90 => ⟨S50000, .f32⟩
  | 91 => ⟨S50000x1, .f32⟩
  | 92 => ⟨S50000x128, .f32⟩
  | 93 => ⟨S50000x128, .f32⟩
  | 94 => ⟨S50000x128, .f32⟩
  | 95 => ⟨S_, .i32⟩
  | 96 => ⟨S500000, .i32⟩
  | 97 => ⟨S500000, .i1⟩
  | 98 => ⟨S500000, .f32⟩
  | 99 => ⟨S1x128x128, .f32⟩
  | 100 => ⟨S128x128, .f32⟩
  | 101 => ⟨S50000x128, .f32⟩
  | 102 => ⟨S_, .i32⟩
  | 103 => ⟨S500000, .i32⟩
  | 104 => ⟨S500000, .i1⟩
  | 105 => ⟨S_, .i32⟩
  | 106 => ⟨S500000, .i32⟩
  | 107 => ⟨S500000, .i32⟩
  | 108 => ⟨S500000, .i32⟩
  | 109 => ⟨S500000x1, .i32⟩
  | 110 => ⟨S500000x128, .f32⟩
  | 111 => ⟨S500000x1, .f32⟩
  | 112 => ⟨S500000x128, .f32⟩
  | 113 => ⟨S500000x128, .f32⟩
  | 114 => ⟨S_, .f32⟩
  | 115 => ⟨S50000x128, .f32⟩
  | 116 => ⟨S500000x1, .i32⟩
  | 117 => ⟨S50000x128, .f32⟩
  | 118 => ⟨S_, .f32⟩
  | 119 => ⟨S50000, .f32⟩
  | 120 => ⟨S500000x1, .i32⟩
  | 121 => ⟨S50000, .f32⟩
  | 122 => ⟨S_, .f32⟩
  | 123 => ⟨S50000, .f32⟩
  | 124 => ⟨S50000, .f32⟩
  | 125 => ⟨S50000x1, .f32⟩
  | 126 => ⟨S50000x128, .f32⟩
  | 127 => ⟨S50000x128, .f32⟩
  | _ => ⟨S50000x128, .f32⟩

abbrev hbmTy0_2 (i : Nat) : BufTy := match i % 128 with
  | 0 => ⟨S50000x128, .f32⟩
  | 1 => ⟨S_, .i32⟩
  | 2 => ⟨S500000, .i32⟩
  | 3 => ⟨S500000, .i1⟩
  | 4 => ⟨S500000, .f32⟩
  | 5 => ⟨S1x128x128, .f32⟩
  | 6 => ⟨S128x128, .f32⟩
  | 7 => ⟨S50000x128, .f32⟩
  | 8 => ⟨S_, .i32⟩
  | 9 => ⟨S500000, .i32⟩
  | 10 => ⟨S500000, .i1⟩
  | 11 => ⟨S_, .i32⟩
  | 12 => ⟨S500000, .i32⟩
  | 13 => ⟨S500000, .i32⟩
  | 14 => ⟨S500000, .i32⟩
  | 15 => ⟨S500000x1, .i32⟩
  | 16 => ⟨S500000x128, .f32⟩
  | 17 => ⟨S500000x1, .f32⟩
  | 18 => ⟨S500000x128, .f32⟩
  | 19 => ⟨S500000x128, .f32⟩
  | 20 => ⟨S_, .f32⟩
  | 21 => ⟨S50000x128, .f32⟩
  | 22 => ⟨S500000x1, .i32⟩
  | 23 => ⟨S50000x128, .f32⟩
  | 24 => ⟨S_, .f32⟩
  | 25 => ⟨S50000, .f32⟩
  | 26 => ⟨S500000x1, .i32⟩
  | 27 => ⟨S50000, .f32⟩
  | 28 => ⟨S_, .f32⟩
  | 29 => ⟨S50000, .f32⟩
  | 30 => ⟨S50000, .f32⟩
  | 31 => ⟨S50000x1, .f32⟩
  | 32 => ⟨S50000x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S_, .i32⟩
  | 43 => ⟨S500000, .i32⟩
  | 44 => ⟨S500000, .i1⟩
  | 45 => ⟨S500000, .f32⟩
  | 46 => ⟨S1x128x128, .f32⟩
  | 47 => ⟨S128x128, .f32⟩
  | 48 => ⟨S50000x128, .f32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S500000x1, .i32⟩
  | 57 => ⟨S500000x128, .f32⟩
  | 58 => ⟨S500000x1, .f32⟩
  | 59 => ⟨S500000x128, .f32⟩
  | 60 => ⟨S500000x128, .f32⟩
  | 61 => ⟨S_, .f32⟩
  | 62 => ⟨S50000x128, .f32⟩
  | 63 => ⟨S500000x1, .i32⟩
  | 64 => ⟨S50000x128, .f32⟩
  | 65 => ⟨S_, .f32⟩
  | 66 => ⟨S50000, .f32⟩
  | 67 => ⟨S500000x1, .i32⟩
  | 68 => ⟨S50000, .f32⟩
  | 69 => ⟨S_, .f32⟩
  | 70 => ⟨S50000, .f32⟩
  | 71 => ⟨S50000, .f32⟩
  | 72 => ⟨S50000x1, .f32⟩
  | 73 => ⟨S50000x128, .f32⟩
  | 74 => ⟨S50000x128, .f32⟩
  | 75 => ⟨S50000x128, .f32⟩
  | 76 => ⟨S_, .i32⟩
  | 77 => ⟨S500000, .i32⟩
  | 78 => ⟨S500000, .i1⟩
  | 79 => ⟨S500000, .f32⟩
  | 80 => ⟨S1x128x128, .f32⟩
  | 81 => ⟨S128x128, .f32⟩
  | 82 => ⟨S50000x128, .f32⟩
  | 83 => ⟨S_, .i32⟩
  | 84 => ⟨S500000, .i32⟩
  | 85 => ⟨S500000, .i1⟩
  | 86 => ⟨S_, .i32⟩
  | 87 => ⟨S500000, .i32⟩
  | 88 => ⟨S500000, .i32⟩
  | 89 => ⟨S500000, .i32⟩
  | 90 => ⟨S500000x1, .i32⟩
  | 91 => ⟨S500000x128, .f32⟩
  | 92 => ⟨S500000x1, .f32⟩
  | 93 => ⟨S500000x128, .f32⟩
  | 94 => ⟨S500000x128, .f32⟩
  | 95 => ⟨S_, .f32⟩
  | 96 => ⟨S50000x128, .f32⟩
  | 97 => ⟨S500000x1, .i32⟩
  | 98 => ⟨S50000x128, .f32⟩
  | 99 => ⟨S_, .f32⟩
  | 100 => ⟨S50000, .f32⟩
  | 101 => ⟨S500000x1, .i32⟩
  | 102 => ⟨S50000, .f32⟩
  | 103 => ⟨S_, .f32⟩
  | 104 => ⟨S50000, .f32⟩
  | 105 => ⟨S50000, .f32⟩
  | 106 => ⟨S50000x1, .f32⟩
  | 107 => ⟨S50000x128, .f32⟩
  | 108 => ⟨S50000x128, .f32⟩
  | 109 => ⟨S50000x128, .f32⟩
  | 110 => ⟨S_, .i32⟩
  | 111 => ⟨S500000, .i32⟩
  | 112 => ⟨S500000, .i1⟩
  | 113 => ⟨S500000, .f32⟩
  | 114 => ⟨S1x128x128, .f32⟩
  | 115 => ⟨S128x128, .f32⟩
  | 116 => ⟨S50000x128, .f32⟩
  | 117 => ⟨S_, .i32⟩
  | 118 => ⟨S500000, .i32⟩
  | 119 => ⟨S500000, .i1⟩
  | 120 => ⟨S_, .i32⟩
  | 121 => ⟨S500000, .i32⟩
  | 122 => ⟨S500000, .i32⟩
  | 123 => ⟨S500000, .i32⟩
  | 124 => ⟨S500000x1, .i32⟩
  | 125 => ⟨S500000x128, .f32⟩
  | 126 => ⟨S500000x1, .f32⟩
  | 127 => ⟨S500000x128, .f32⟩
  | _ => ⟨S50000x128, .f32⟩

abbrev hbmTy0_3 (i : Nat) : BufTy := match i % 128 with
  | 0 => ⟨S500000x128, .f32⟩
  | 1 => ⟨S_, .f32⟩
  | 2 => ⟨S50000x128, .f32⟩
  | 3 => ⟨S500000x1, .i32⟩
  | 4 => ⟨S50000x128, .f32⟩
  | 5 => ⟨S_, .f32⟩
  | 6 => ⟨S50000, .f32⟩
  | 7 => ⟨S500000x1, .i32⟩
  | 8 => ⟨S50000, .f32⟩
  | 9 => ⟨S_, .f32⟩
  | 10 => ⟨S50000, .f32⟩
  | 11 => ⟨S50000, .f32⟩
  | 12 => ⟨S50000x1, .f32⟩
  | 13 => ⟨S50000x128, .f32⟩
  | 14 => ⟨S50000x128, .f32⟩
  | 15 => ⟨S50000x128, .f32⟩
  | 16 => ⟨S_, .i32⟩
  | 17 => ⟨S500000, .i32⟩
  | 18 => ⟨S500000, .i1⟩
  | 19 => ⟨S500000, .f32⟩
  | 20 => ⟨S1x128x128, .f32⟩
  | 21 => ⟨S128x128, .f32⟩
  | 22 => ⟨S50000x128, .f32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x128, .f32⟩
  | 32 => ⟨S500000x1, .f32⟩
  | 33 => ⟨S500000x128, .f32⟩
  | 34 => ⟨S500000x128, .f32⟩
  | 35 => ⟨S_, .f32⟩
  | 36 => ⟨S50000x128, .f32⟩
  | 37 => ⟨S500000x1, .i32⟩
  | 38 => ⟨S50000x128, .f32⟩
  | 39 => ⟨S_, .f32⟩
  | 40 => ⟨S50000, .f32⟩
  | 41 => ⟨S500000x1, .i32⟩
  | 42 => ⟨S50000, .f32⟩
  | 43 => ⟨S_, .f32⟩
  | 44 => ⟨S50000, .f32⟩
  | 45 => ⟨S50000, .f32⟩
  | 46 => ⟨S50000x1, .f32⟩
  | 47 => ⟨S50000x128, .f32⟩
  | 48 => ⟨S50000x128, .f32⟩
  | 49 => ⟨S50000x128, .f32⟩
  | 50 => ⟨S_, .i32⟩
  | 51 => ⟨S500000, .i32⟩
  | 52 => ⟨S500000, .i1⟩
  | 53 => ⟨S500000, .f32⟩
  | 54 => ⟨S1x128x128, .f32⟩
  | 55 => ⟨S128x128, .f32⟩
  | 56 => ⟨S50000x128, .f32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000x128, .f32⟩
  | 66 => ⟨S500000x1, .f32⟩
  | 67 => ⟨S500000x128, .f32⟩
  | 68 => ⟨S500000x128, .f32⟩
  | 69 => ⟨S_, .f32⟩
  | 70 => ⟨S50000x128, .f32⟩
  | 71 => ⟨S500000x1, .i32⟩
  | 72 => ⟨S50000x128, .f32⟩
  | 73 => ⟨S_, .f32⟩
  | 74 => ⟨S50000, .f32⟩
  | 75 => ⟨S500000x1, .i32⟩
  | 76 => ⟨S50000, .f32⟩
  | 77 => ⟨S_, .f32⟩
  | 78 => ⟨S50000, .f32⟩
  | 79 => ⟨S50000, .f32⟩
  | 80 => ⟨S50000x1, .f32⟩
  | 81 => ⟨S50000x128, .f32⟩
  | 82 => ⟨S50000x128, .f32⟩
  | 83 => ⟨S50000x128, .f32⟩
  | 84 => ⟨S_, .i32⟩
  | 85 => ⟨S500000, .i32⟩
  | 86 => ⟨S500000, .i1⟩
  | 87 => ⟨S500000, .f32⟩
  | 88 => ⟨S1x128x128, .f32⟩
  | 89 => ⟨S128x128, .f32⟩
  | 90 => ⟨S50000x128, .f32⟩
  | 91 => ⟨S_, .i32⟩
  | 92 => ⟨S500000, .i32⟩
  | 93 => ⟨S500000, .i1⟩
  | 94 => ⟨S_, .i32⟩
  | 95 => ⟨S500000, .i32⟩
  | 96 => ⟨S500000, .i32⟩
  | 97 => ⟨S500000, .i32⟩
  | 98 => ⟨S500000x1, .i32⟩
  | 99 => ⟨S500000x128, .f32⟩
  | 100 => ⟨S500000x1, .f32⟩
  | 101 => ⟨S500000x128, .f32⟩
  | 102 => ⟨S500000x128, .f32⟩
  | 103 => ⟨S_, .f32⟩
  | 104 => ⟨S50000x128, .f32⟩
  | 105 => ⟨S500000x1, .i32⟩
  | 106 => ⟨S50000x128, .f32⟩
  | 107 => ⟨S_, .f32⟩
  | 108 => ⟨S50000, .f32⟩
  | 109 => ⟨S500000x1, .i32⟩
  | 110 => ⟨S50000, .f32⟩
  | 111 => ⟨S_, .f32⟩
  | 112 => ⟨S50000, .f32⟩
  | 113 => ⟨S50000, .f32⟩
  | 114 => ⟨S50000x1, .f32⟩
  | 115 => ⟨S50000x128, .f32⟩
  | 116 => ⟨S50000x128, .f32⟩
  | 117 => ⟨S50000x128, .f32⟩
  | 118 => ⟨S_, .i32⟩
  | 119 => ⟨S500000, .i32⟩
  | 120 => ⟨S500000, .i1⟩
  | 121 => ⟨S500000, .f32⟩
  | 122 => ⟨S1x128x128, .f32⟩
  | 123 => ⟨S128x128, .f32⟩
  | 124 => ⟨S50000x128, .f32⟩
  | 125 => ⟨S_, .i32⟩
  | 126 => ⟨S500000, .i32⟩
  | 127 => ⟨S500000, .i1⟩
  | _ => ⟨S50000x128, .f32⟩

abbrev hbmTy0_4 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000x128, .f32⟩
  | 6 => ⟨S500000x1, .f32⟩
  | 7 => ⟨S500000x128, .f32⟩
  | 8 => ⟨S500000x128, .f32⟩
  | 9 => ⟨S_, .f32⟩
  | 10 => ⟨S50000x128, .f32⟩
  | 11 => ⟨S500000x1, .i32⟩
  | 12 => ⟨S50000x128, .f32⟩
  | 13 => ⟨S_, .f32⟩
  | 14 => ⟨S50000, .f32⟩
  | 15 => ⟨S500000x1, .i32⟩
  | 16 => ⟨S50000, .f32⟩
  | 17 => ⟨S_, .f32⟩
  | 18 => ⟨S50000, .f32⟩
  | 19 => ⟨S50000, .f32⟩
  | 20 => ⟨S50000x1, .f32⟩
  | 21 => ⟨S50000x128, .f32⟩
  | 22 => ⟨S50000x128, .f32⟩
  | 23 => ⟨S50000x128, .f32⟩
  | 24 => ⟨S_, .i32⟩
  | 25 => ⟨S500000, .i32⟩
  | 26 => ⟨S500000, .i1⟩
  | 27 => ⟨S500000, .f32⟩
  | 28 => ⟨S1x128x128, .f32⟩
  | 29 => ⟨S128x128, .f32⟩
  | 30 => ⟨S50000x128, .f32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x128, .f32⟩
  | 40 => ⟨S500000x1, .f32⟩
  | 41 => ⟨S500000x128, .f32⟩
  | 42 => ⟨S500000x128, .f32⟩
  | 43 => ⟨S_, .f32⟩
  | 44 => ⟨S50000x128, .f32⟩
  | 45 => ⟨S500000x1, .i32⟩
  | 46 => ⟨S50000x128, .f32⟩
  | 47 => ⟨S_, .f32⟩
  | 48 => ⟨S50000, .f32⟩
  | 49 => ⟨S500000x1, .i32⟩
  | 50 => ⟨S50000, .f32⟩
  | 51 => ⟨S_, .f32⟩
  | 52 => ⟨S50000, .f32⟩
  | 53 => ⟨S50000, .f32⟩
  | 54 => ⟨S50000x1, .f32⟩
  | 55 => ⟨S50000x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S50000x1, .f32⟩
  | 62 => ⟨S1x1, .f32⟩
  | 63 => ⟨S50000x1, .f32⟩
  | 64 => ⟨S50000x1, .f32⟩
  | 65 => ⟨S50000, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_5 : Ref sig .tc := ⟨.hbm, 60, rfl⟩
abbrev main_v42 : Ref sig .tc := ⟨.hbm, 61, rfl⟩
abbrev main_v43 : Ref sig .tc := ⟨.hbm, 62, rfl⟩
abbrev main_c_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_10 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_11 : Ref sig .tc := ⟨.hbm, 94, rfl⟩
abbrev main_v70 : Ref sig .tc := ⟨.hbm, 95, rfl⟩
abbrev main_v71 : Ref sig .tc := ⟨.hbm, 96, rfl⟩
abbrev main_c_12 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_13 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_14 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_15 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_c_16 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_c_17 : Ref sig .tc := ⟨.hbm, 128, rfl⟩
abbrev main_v98 : Ref sig .tc := ⟨.hbm, 129, rfl⟩
abbrev main_v99 : Ref sig .tc := ⟨.hbm, 130, rfl⟩
abbrev main_c_18 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_19 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_20 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_cst_21 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_c_22 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_c_23 : Ref sig .tc := ⟨.hbm, 162, rfl⟩
abbrev main_v126 : Ref sig .tc := ⟨.hbm, 163, rfl⟩
abbrev main_v127 : Ref sig .tc := ⟨.hbm, 164, rfl⟩
abbrev main_c_24 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_cst_25 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_cst_26 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_cst_27 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_c_28 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_c_29 : Ref sig .tc := ⟨.hbm, 196, rfl⟩
abbrev main_v154 : Ref sig .tc := ⟨.hbm, 197, rfl⟩
abbrev main_v155 : Ref sig .tc := ⟨.hbm, 198, rfl⟩
abbrev main_c_30 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_cst_31 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_cst_32 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_cst_33 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_c_34 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_c_35 : Ref sig .tc := ⟨.hbm, 230, rfl⟩
abbrev main_v182 : Ref sig .tc := ⟨.hbm, 231, rfl⟩
abbrev main_v183 : Ref sig .tc := ⟨.hbm, 232, rfl⟩
abbrev main_c_36 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_cst_37 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_cst_38 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_cst_39 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_c_40 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_c_41 : Ref sig .tc := ⟨.hbm, 264, rfl⟩
abbrev main_v210 : Ref sig .tc := ⟨.hbm, 265, rfl⟩
abbrev main_v211 : Ref sig .tc := ⟨.hbm, 266, rfl⟩
abbrev main_c_42 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_cst_43 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_cst_44 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_cst_45 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_call0_cst : Ref sig .tc := ⟨.hbm, 291, rfl⟩
abbrev main_call0_v0 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_c_46 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_c_47 : Ref sig .tc := ⟨.hbm, 305, rfl⟩
abbrev main_v243 : Ref sig .tc := ⟨.hbm, 306, rfl⟩
abbrev main_v244 : Ref sig .tc := ⟨.hbm, 307, rfl⟩
abbrev main_c_48 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_cst_49 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_cst_50 : Ref sig .tc := ⟨.hbm, 321, rfl⟩
abbrev main_v256 : Ref sig .tc := ⟨.hbm, 322, rfl⟩
abbrev main_v257 : Ref sig .tc := ⟨.hbm, 323, rfl⟩
abbrev main_v258 : Ref sig .tc := ⟨.hbm, 324, rfl⟩
abbrev main_cst_51 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_v262 : Ref sig .tc := ⟨.hbm, 329, rfl⟩
abbrev main_v263 : Ref sig .tc := ⟨.hbm, 330, rfl⟩
abbrev main_v264 : Ref sig .tc := ⟨.hbm, 331, rfl⟩
abbrev main_c_52 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_c_53 : Ref sig .tc := ⟨.hbm, 339, rfl⟩
abbrev main_v271 : Ref sig .tc := ⟨.hbm, 340, rfl⟩
abbrev main_v272 : Ref sig .tc := ⟨.hbm, 341, rfl⟩
abbrev main_c_54 : Ref sig .tc := ⟨.hbm, 342, rfl⟩
abbrev main_v273 : Ref sig .tc := ⟨.hbm, 343, rfl⟩
abbrev main_v274 : Ref sig .tc := ⟨.hbm, 344, rfl⟩
abbrev main_v275 : Ref sig .tc := ⟨.hbm, 345, rfl⟩
abbrev main_v276 : Ref sig .tc := ⟨.hbm, 346, rfl⟩
abbrev main_v277 : Ref sig .tc := ⟨.hbm, 347, rfl⟩
abbrev main_v278 : Ref sig .tc := ⟨.hbm, 348, rfl⟩
abbrev main_v279 : Ref sig .tc := ⟨.hbm, 349, rfl⟩
abbrev main_v280 : Ref sig .tc := ⟨.hbm, 350, rfl⟩
abbrev main_cst_55 : Ref sig .tc := ⟨.hbm, 351, rfl⟩
abbrev main_v281 : Ref sig .tc := ⟨.hbm, 352, rfl⟩
abbrev main_v282 : Ref sig .tc := ⟨.hbm, 353, rfl⟩
abbrev main_v283 : Ref sig .tc := ⟨.hbm, 354, rfl⟩
abbrev main_cst_56 : Ref sig .tc := ⟨.hbm, 355, rfl⟩
abbrev main_v284 : Ref sig .tc := ⟨.hbm, 356, rfl⟩
abbrev main_v285 : Ref sig .tc := ⟨.hbm, 357, rfl⟩
abbrev main_v286 : Ref sig .tc := ⟨.hbm, 358, rfl⟩
abbrev main_cst_57 : Ref sig .tc := ⟨.hbm, 359, rfl⟩
abbrev main_v287 : Ref sig .tc := ⟨.hbm, 360, rfl⟩
abbrev main_v288 : Ref sig .tc := ⟨.hbm, 361, rfl⟩
abbrev main_v289 : Ref sig .tc := ⟨.hbm, 362, rfl⟩
abbrev main_v290 : Ref sig .tc := ⟨.hbm, 363, rfl⟩
abbrev main_v291 : Ref sig .tc := ⟨.hbm, 364, rfl⟩
abbrev main_v292 : Ref sig .tc := ⟨.hbm, 365, rfl⟩
abbrev main_c_58 : Ref sig .tc := ⟨.hbm, 366, rfl⟩
abbrev main_v293 : Ref sig .tc := ⟨.hbm, 367, rfl⟩
abbrev main_v294 : Ref sig .tc := ⟨.hbm, 368, rfl⟩
abbrev main_v295 : Ref sig .tc := ⟨.hbm, 369, rfl⟩
abbrev main_v296 : Ref sig .tc := ⟨.hbm, 370, rfl⟩
abbrev main_v297 : Ref sig .tc := ⟨.hbm, 371, rfl⟩
abbrev main_v298 : Ref sig .tc := ⟨.hbm, 372, rfl⟩
abbrev main_c_59 : Ref sig .tc := ⟨.hbm, 373, rfl⟩
abbrev main_v299 : Ref sig .tc := ⟨.hbm, 374, rfl⟩
abbrev main_v300 : Ref sig .tc := ⟨.hbm, 375, rfl⟩
abbrev main_c_60 : Ref sig .tc := ⟨.hbm, 376, rfl⟩
abbrev main_v301 : Ref sig .tc := ⟨.hbm, 377, rfl⟩
abbrev main_v302 : Ref sig .tc := ⟨.hbm, 378, rfl⟩
abbrev main_v303 : Ref sig .tc := ⟨.hbm, 379, rfl⟩
abbrev main_v304 : Ref sig .tc := ⟨.hbm, 380, rfl⟩
abbrev main_v305 : Ref sig .tc := ⟨.hbm, 381, rfl⟩
abbrev main_v306 : Ref sig .tc := ⟨.hbm, 382, rfl⟩
abbrev main_v307 : Ref sig .tc := ⟨.hbm, 383, rfl⟩
abbrev main_v308 : Ref sig .tc := ⟨.hbm, 384, rfl⟩
abbrev main_cst_61 : Ref sig .tc := ⟨.hbm, 385, rfl⟩
abbrev main_v309 : Ref sig .tc := ⟨.hbm, 386, rfl⟩
abbrev main_v310 : Ref sig .tc := ⟨.hbm, 387, rfl⟩
abbrev main_v311 : Ref sig .tc := ⟨.hbm, 388, rfl⟩
abbrev main_cst_62 : Ref sig .tc := ⟨.hbm, 389, rfl⟩
abbrev main_v312 : Ref sig .tc := ⟨.hbm, 390, rfl⟩
abbrev main_v313 : Ref sig .tc := ⟨.hbm, 391, rfl⟩
abbrev main_v314 : Ref sig .tc := ⟨.hbm, 392, rfl⟩
abbrev main_cst_63 : Ref sig .tc := ⟨.hbm, 393, rfl⟩
abbrev main_v315 : Ref sig .tc := ⟨.hbm, 394, rfl⟩
abbrev main_v316 : Ref sig .tc := ⟨.hbm, 395, rfl⟩
abbrev main_v317 : Ref sig .tc := ⟨.hbm, 396, rfl⟩
abbrev main_v318 : Ref sig .tc := ⟨.hbm, 397, rfl⟩
abbrev main_v319 : Ref sig .tc := ⟨.hbm, 398, rfl⟩
abbrev main_v320 : Ref sig .tc := ⟨.hbm, 399, rfl⟩
abbrev main_c_64 : Ref sig .tc := ⟨.hbm, 400, rfl⟩
abbrev main_v321 : Ref sig .tc := ⟨.hbm, 401, rfl⟩
abbrev main_v322 : Ref sig .tc := ⟨.hbm, 402, rfl⟩
abbrev main_v323 : Ref sig .tc := ⟨.hbm, 403, rfl⟩
abbrev main_v324 : Ref sig .tc := ⟨.hbm, 404, rfl⟩
abbrev main_v325 : Ref sig .tc := ⟨.hbm, 405, rfl⟩
abbrev main_v326 : Ref sig .tc := ⟨.hbm, 406, rfl⟩
abbrev main_c_65 : Ref sig .tc := ⟨.hbm, 407, rfl⟩
abbrev main_v327 : Ref sig .tc := ⟨.hbm, 408, rfl⟩
abbrev main_v328 : Ref sig .tc := ⟨.hbm, 409, rfl⟩
abbrev main_c_66 : Ref sig .tc := ⟨.hbm, 410, rfl⟩
abbrev main_v329 : Ref sig .tc := ⟨.hbm, 411, rfl⟩
abbrev main_v330 : Ref sig .tc := ⟨.hbm, 412, rfl⟩
abbrev main_v331 : Ref sig .tc := ⟨.hbm, 413, rfl⟩
abbrev main_v332 : Ref sig .tc := ⟨.hbm, 414, rfl⟩
abbrev main_v333 : Ref sig .tc := ⟨.hbm, 415, rfl⟩
abbrev main_v334 : Ref sig .tc := ⟨.hbm, 416, rfl⟩
abbrev main_v335 : Ref sig .tc := ⟨.hbm, 417, rfl⟩
abbrev main_v336 : Ref sig .tc := ⟨.hbm, 418, rfl⟩
abbrev main_cst_67 : Ref sig .tc := ⟨.hbm, 419, rfl⟩
abbrev main_v337 : Ref sig .tc := ⟨.hbm, 420, rfl⟩
abbrev main_v338 : Ref sig .tc := ⟨.hbm, 421, rfl⟩
abbrev main_v339 : Ref sig .tc := ⟨.hbm, 422, rfl⟩
abbrev main_cst_68 : Ref sig .tc := ⟨.hbm, 423, rfl⟩
abbrev main_v340 : Ref sig .tc := ⟨.hbm, 424, rfl⟩
abbrev main_v341 : Ref sig .tc := ⟨.hbm, 425, rfl⟩
abbrev main_v342 : Ref sig .tc := ⟨.hbm, 426, rfl⟩
abbrev main_cst_69 : Ref sig .tc := ⟨.hbm, 427, rfl⟩
abbrev main_v343 : Ref sig .tc := ⟨.hbm, 428, rfl⟩
abbrev main_v344 : Ref sig .tc := ⟨.hbm, 429, rfl⟩
abbrev main_v345 : Ref sig .tc := ⟨.hbm, 430, rfl⟩
abbrev main_v346 : Ref sig .tc := ⟨.hbm, 431, rfl⟩
abbrev main_v347 : Ref sig .tc := ⟨.hbm, 432, rfl⟩
abbrev main_v348 : Ref sig .tc := ⟨.hbm, 433, rfl⟩
abbrev main_c_70 : Ref sig .tc := ⟨.hbm, 434, rfl⟩
abbrev main_v349 : Ref sig .tc := ⟨.hbm, 435, rfl⟩
abbrev main_v350 : Ref sig .tc := ⟨.hbm, 436, rfl⟩
abbrev main_v351 : Ref sig .tc := ⟨.hbm, 437, rfl⟩
abbrev main_v352 : Ref sig .tc := ⟨.hbm, 438, rfl⟩
abbrev main_v353 : Ref sig .tc := ⟨.hbm, 439, rfl⟩
abbrev main_v354 : Ref sig .tc := ⟨.hbm, 440, rfl⟩
abbrev main_c_71 : Ref sig .tc := ⟨.hbm, 441, rfl⟩
abbrev main_v355 : Ref sig .tc := ⟨.hbm, 442, rfl⟩
abbrev main_v356 : Ref sig .tc := ⟨.hbm, 443, rfl⟩
abbrev main_c_72 : Ref sig .tc := ⟨.hbm, 444, rfl⟩
abbrev main_v357 : Ref sig .tc := ⟨.hbm, 445, rfl⟩
abbrev main_v358 : Ref sig .tc := ⟨.hbm, 446, rfl⟩
abbrev main_v359 : Ref sig .tc := ⟨.hbm, 447, rfl⟩
abbrev main_v360 : Ref sig .tc := ⟨.hbm, 448, rfl⟩
abbrev main_v361 : Ref sig .tc := ⟨.hbm, 449, rfl⟩
abbrev main_v362 : Ref sig .tc := ⟨.hbm, 450, rfl⟩
abbrev main_v363 : Ref sig .tc := ⟨.hbm, 451, rfl⟩
abbrev main_v364 : Ref sig .tc := ⟨.hbm, 452, rfl⟩
abbrev main_cst_73 : Ref sig .tc := ⟨.hbm, 453, rfl⟩
abbrev main_v365 : Ref sig .tc := ⟨.hbm, 454, rfl⟩
abbrev main_v366 : Ref sig .tc := ⟨.hbm, 455, rfl⟩
abbrev main_v367 : Ref sig .tc := ⟨.hbm, 456, rfl⟩
abbrev main_cst_74 : Ref sig .tc := ⟨.hbm, 457, rfl⟩
abbrev main_v368 : Ref sig .tc := ⟨.hbm, 458, rfl⟩
abbrev main_v369 : Ref sig .tc := ⟨.hbm, 459, rfl⟩
abbrev main_v370 : Ref sig .tc := ⟨.hbm, 460, rfl⟩
abbrev main_cst_75 : Ref sig .tc := ⟨.hbm, 461, rfl⟩
abbrev main_v371 : Ref sig .tc := ⟨.hbm, 462, rfl⟩
abbrev main_v372 : Ref sig .tc := ⟨.hbm, 463, rfl⟩
abbrev main_v373 : Ref sig .tc := ⟨.hbm, 464, rfl⟩
abbrev main_v374 : Ref sig .tc := ⟨.hbm, 465, rfl⟩
abbrev main_v375 : Ref sig .tc := ⟨.hbm, 466, rfl⟩
abbrev main_v376 : Ref sig .tc := ⟨.hbm, 467, rfl⟩
abbrev main_c_76 : Ref sig .tc := ⟨.hbm, 468, rfl⟩
abbrev main_v377 : Ref sig .tc := ⟨.hbm, 469, rfl⟩
abbrev main_v378 : Ref sig .tc := ⟨.hbm, 470, rfl⟩
abbrev main_v379 : Ref sig .tc := ⟨.hbm, 471, rfl⟩
abbrev main_v380 : Ref sig .tc := ⟨.hbm, 472, rfl⟩
abbrev main_v381 : Ref sig .tc := ⟨.hbm, 473, rfl⟩
abbrev main_v382 : Ref sig .tc := ⟨.hbm, 474, rfl⟩
abbrev main_c_77 : Ref sig .tc := ⟨.hbm, 475, rfl⟩
abbrev main_v383 : Ref sig .tc := ⟨.hbm, 476, rfl⟩
abbrev main_v384 : Ref sig .tc := ⟨.hbm, 477, rfl⟩
abbrev main_c_78 : Ref sig .tc := ⟨.hbm, 478, rfl⟩
abbrev main_v385 : Ref sig .tc := ⟨.hbm, 479, rfl⟩
abbrev main_v386 : Ref sig .tc := ⟨.hbm, 480, rfl⟩
abbrev main_v387 : Ref sig .tc := ⟨.hbm, 481, rfl⟩
abbrev main_v388 : Ref sig .tc := ⟨.hbm, 482, rfl⟩
abbrev main_v389 : Ref sig .tc := ⟨.hbm, 483, rfl⟩
abbrev main_v390 : Ref sig .tc := ⟨.hbm, 484, rfl⟩
abbrev main_v391 : Ref sig .tc := ⟨.hbm, 485, rfl⟩
abbrev main_v392 : Ref sig .tc := ⟨.hbm, 486, rfl⟩
abbrev main_cst_79 : Ref sig .tc := ⟨.hbm, 487, rfl⟩
abbrev main_v393 : Ref sig .tc := ⟨.hbm, 488, rfl⟩
abbrev main_v394 : Ref sig .tc := ⟨.hbm, 489, rfl⟩
abbrev main_v395 : Ref sig .tc := ⟨.hbm, 490, rfl⟩
abbrev main_cst_80 : Ref sig .tc := ⟨.hbm, 491, rfl⟩
abbrev main_v396 : Ref sig .tc := ⟨.hbm, 492, rfl⟩
abbrev main_v397 : Ref sig .tc := ⟨.hbm, 493, rfl⟩
abbrev main_v398 : Ref sig .tc := ⟨.hbm, 494, rfl⟩
abbrev main_cst_81 : Ref sig .tc := ⟨.hbm, 495, rfl⟩
abbrev main_v399 : Ref sig .tc := ⟨.hbm, 496, rfl⟩
abbrev main_v400 : Ref sig .tc := ⟨.hbm, 497, rfl⟩
abbrev main_v401 : Ref sig .tc := ⟨.hbm, 498, rfl⟩
abbrev main_v402 : Ref sig .tc := ⟨.hbm, 499, rfl⟩
abbrev main_v403 : Ref sig .tc := ⟨.hbm, 500, rfl⟩
abbrev main_v404 : Ref sig .tc := ⟨.hbm, 501, rfl⟩
abbrev main_c_82 : Ref sig .tc := ⟨.hbm, 502, rfl⟩
abbrev main_v405 : Ref sig .tc := ⟨.hbm, 503, rfl⟩
abbrev main_v406 : Ref sig .tc := ⟨.hbm, 504, rfl⟩
abbrev main_v407 : Ref sig .tc := ⟨.hbm, 505, rfl⟩
abbrev main_v408 : Ref sig .tc := ⟨.hbm, 506, rfl⟩
abbrev main_v409 : Ref sig .tc := ⟨.hbm, 507, rfl⟩
abbrev main_v410 : Ref sig .tc := ⟨.hbm, 508, rfl⟩
abbrev main_c_83 : Ref sig .tc := ⟨.hbm, 509, rfl⟩
abbrev main_v411 : Ref sig .tc := ⟨.hbm, 510, rfl⟩
abbrev main_v412 : Ref sig .tc := ⟨.hbm, 511, rfl⟩
abbrev main_c_84 : Ref sig .tc := ⟨.hbm, 512, rfl⟩
abbrev main_v413 : Ref sig .tc := ⟨.hbm, 513, rfl⟩
abbrev main_v414 : Ref sig .tc := ⟨.hbm, 514, rfl⟩
abbrev main_v415 : Ref sig .tc := ⟨.hbm, 515, rfl⟩
abbrev main_v416 : Ref sig .tc := ⟨.hbm, 516, rfl⟩
abbrev main_v417 : Ref sig .tc := ⟨.hbm, 517, rfl⟩
abbrev main_v418 : Ref sig .tc := ⟨.hbm, 518, rfl⟩
abbrev main_v419 : Ref sig .tc := ⟨.hbm, 519, rfl⟩
abbrev main_v420 : Ref sig .tc := ⟨.hbm, 520, rfl⟩
abbrev main_cst_85 : Ref sig .tc := ⟨.hbm, 521, rfl⟩
abbrev main_v421 : Ref sig .tc := ⟨.hbm, 522, rfl⟩
abbrev main_v422 : Ref sig .tc := ⟨.hbm, 523, rfl⟩
abbrev main_v423 : Ref sig .tc := ⟨.hbm, 524, rfl⟩
abbrev main_cst_86 : Ref sig .tc := ⟨.hbm, 525, rfl⟩
abbrev main_v424 : Ref sig .tc := ⟨.hbm, 526, rfl⟩
abbrev main_v425 : Ref sig .tc := ⟨.hbm, 527, rfl⟩
abbrev main_v426 : Ref sig .tc := ⟨.hbm, 528, rfl⟩
abbrev main_cst_87 : Ref sig .tc := ⟨.hbm, 529, rfl⟩
abbrev main_v427 : Ref sig .tc := ⟨.hbm, 530, rfl⟩
abbrev main_v428 : Ref sig .tc := ⟨.hbm, 531, rfl⟩
abbrev main_v429 : Ref sig .tc := ⟨.hbm, 532, rfl⟩
abbrev main_v430 : Ref sig .tc := ⟨.hbm, 533, rfl⟩
abbrev main_v431 : Ref sig .tc := ⟨.hbm, 534, rfl⟩
abbrev main_v432 : Ref sig .tc := ⟨.hbm, 535, rfl⟩
abbrev main_c_88 : Ref sig .tc := ⟨.hbm, 536, rfl⟩
abbrev main_v433 : Ref sig .tc := ⟨.hbm, 537, rfl⟩
abbrev main_v434 : Ref sig .tc := ⟨.hbm, 538, rfl⟩
abbrev main_v435 : Ref sig .tc := ⟨.hbm, 539, rfl⟩
abbrev main_v436 : Ref sig .tc := ⟨.hbm, 540, rfl⟩
abbrev main_v437 : Ref sig .tc := ⟨.hbm, 541, rfl⟩
abbrev main_v438 : Ref sig .tc := ⟨.hbm, 542, rfl⟩
abbrev main_c_89 : Ref sig .tc := ⟨.hbm, 543, rfl⟩
abbrev main_v439 : Ref sig .tc := ⟨.hbm, 544, rfl⟩
abbrev main_v440 : Ref sig .tc := ⟨.hbm, 545, rfl⟩
abbrev main_c_90 : Ref sig .tc := ⟨.hbm, 546, rfl⟩
abbrev main_v441 : Ref sig .tc := ⟨.hbm, 547, rfl⟩
abbrev main_v442 : Ref sig .tc := ⟨.hbm, 548, rfl⟩
abbrev main_v443 : Ref sig .tc := ⟨.hbm, 549, rfl⟩
abbrev main_v444 : Ref sig .tc := ⟨.hbm, 550, rfl⟩
abbrev main_v445 : Ref sig .tc := ⟨.hbm, 551, rfl⟩
abbrev main_v446 : Ref sig .tc := ⟨.hbm, 552, rfl⟩
abbrev main_v447 : Ref sig .tc := ⟨.hbm, 553, rfl⟩
abbrev main_v448 : Ref sig .tc := ⟨.hbm, 554, rfl⟩
abbrev main_cst_91 : Ref sig .tc := ⟨.hbm, 555, rfl⟩
abbrev main_v449 : Ref sig .tc := ⟨.hbm, 556, rfl⟩
abbrev main_v450 : Ref sig .tc := ⟨.hbm, 557, rfl⟩
abbrev main_v451 : Ref sig .tc := ⟨.hbm, 558, rfl⟩
abbrev main_cst_92 : Ref sig .tc := ⟨.hbm, 559, rfl⟩
abbrev main_v452 : Ref sig .tc := ⟨.hbm, 560, rfl⟩
abbrev main_v453 : Ref sig .tc := ⟨.hbm, 561, rfl⟩
abbrev main_v454 : Ref sig .tc := ⟨.hbm, 562, rfl⟩
abbrev main_cst_93 : Ref sig .tc := ⟨.hbm, 563, rfl⟩
abbrev main_v455 : Ref sig .tc := ⟨.hbm, 564, rfl⟩
abbrev main_v456 : Ref sig .tc := ⟨.hbm, 565, rfl⟩
abbrev main_v457 : Ref sig .tc := ⟨.hbm, 566, rfl⟩
abbrev main_v458 : Ref sig .tc := ⟨.hbm, 567, rfl⟩
abbrev main_v459 : Ref sig .tc := ⟨.hbm, 568, rfl⟩
abbrev main_v460 : Ref sig .tc := ⟨.hbm, 569, rfl⟩
abbrev main_call1_cst : Ref sig .tc := ⟨.hbm, 570, rfl⟩
abbrev main_call1_v0 : Ref sig .tc := ⟨.hbm, 571, rfl⟩
abbrev main_v461 : Ref sig .tc := ⟨.hbm, 572, rfl⟩
abbrev main_v462 : Ref sig .tc := ⟨.hbm, 573, rfl⟩
abbrev main_v463 : Ref sig .tc := ⟨.hbm, 574, rfl⟩
abbrev main_v464 : Ref sig .tc := ⟨.hbm, 575, rfl⟩
abbrev main_v465 : Ref sig .tc := ⟨.hbm, 576, rfl⟩
abbrev main_v466 : Ref sig .tc := ⟨.hbm, 577, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S500000 : S_.BroadcastsInDim S500000 (![] : Fin 0 → Fin S500000.rank)
  slices_S8x128x128_S1x128x128_0_0_0 : S8x128x128.Slices ![0, 0, 0] S1x128x128
  shapeCasts_S1x128x128_S128x128 : S1x128x128.ShapeCasts S128x128
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S8x128x128_S1x128x128_1_0_0 : S8x128x128.Slices ![1, 0, 0] S1x128x128
  slices_S8x128x128_S1x128x128_2_0_0 : S8x128x128.Slices ![2, 0, 0] S1x128x128
  slices_S8x128x128_S1x128x128_3_0_0 : S8x128x128.Slices ![3, 0, 0] S1x128x128
  slices_S8x128x128_S1x128x128_4_0_0 : S8x128x128.Slices ![4, 0, 0] S1x128x128
  slices_S8x128x128_S1x128x128_5_0_0 : S8x128x128.Slices ![5, 0, 0] S1x128x128
  slices_S8x128x128_S1x128x128_6_0_0 : S8x128x128.Slices ![6, 0, 0] S1x128x128
  slices_S8x128x128_S1x128x128_7_0_0 : S8x128x128.Slices ![7, 0, 0] S1x128x128
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  dot_S50000x128_S128x128_S50000x128_1_0_0_1_n_n_wf : DotDims.WF S50000x128 S128x128 S50000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S50000x128_S128x1_S50000x1_1_0_0_1_n_n_wf : DotDims.WF S50000x128 S128x1 S50000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.Spec.lean ====
/-
  The two-layer relational graph convolution with a linear head, as ONE function of the argument arrays, index by
  index, over the extended reals.

  A layer sends node features x to
      relu( x·root + b + Σ_r mean_{e : dst e = n, type e = r} (x[src e]·W[r]) )
  where the mean over an empty set of edges is 0 (the sum is 0 and the count is replaced by 1). An edge's source row is
  its start word read as a signed integer, a negative one wrapped once by the row count, then cut to the rows there are.
  The head is h·Wc + bc at the single output column.
-/
import Idealize.ShloMosaic.PureOps.Ideal
import Idealize.ShloMosaic.PureOps.Ideal.Laws
import Idealize.ShloMosaic.Lib.ValueIdx

noncomputable section

namespace Cert.Rgcn

open Idealize.ShloMosaic Idealize.ShloMosaic.ValueIdx

/-- The shapes of the argument arrays and of the result. -/
abbrev SX : Shape := ⟨2, ![50000, 128]⟩
abbrev SW : Shape := ⟨3, ![8, 128, 128]⟩
abbrev SR : Shape := ⟨2, ![128, 128]⟩
abbrev SB : Shape := ⟨1, ![128]⟩
abbrev SE : Shape := ⟨1, ![500000]⟩
abbrev SEI : Shape := ⟨2, ![2, 500000]⟩
abbrev SO : Shape := ⟨1, ![50000]⟩
abbrev SC : Shape := ⟨2, ![128, 1]⟩
abbrev SS : Shape := ⟨1, ![1]⟩

/-- A matrix product, index by index: entry (n, j) is the sum over k of x[n, k] · w[k, j]. -/
def mm {N K M : Nat} (x : (⟨2, ![N, K]⟩ : Shape).Idx → EReal) (w : (⟨2, ![K, M]⟩ : Shape).Idx → EReal) :
    (⟨2, ![N, M]⟩ : Shape).Idx → EReal :=
  fun i => ∑ k : Fin K, x (ix2 (i 0) k) * w (ix2 k (i 1))

theorem mm_apply {N K M : Nat} (x : (⟨2, ![N, K]⟩ : Shape).Idx → EReal) (w : (⟨2, ![K, M]⟩ : Shape).Idx → EReal)
    (n : Fin N) (j : Fin M) : mm x w (ix2 n j) = ∑ k : Fin K, x (ix2 n k) * w (ix2 k j) := rfl

/-- The row a start word names in an array of 50000 rows: read signed, a negative value to row 0, a value past the
    end to the last row. -/
def nodeOf (w : BitVec 32) : Fin 50000 := ⟨min w.toInt.toNat 49999, by omega⟩

/-- The relation a start word names among 8: the same reading. -/
def relOf (w : BitVec 32) : Fin 8 := ⟨min w.toInt.toNat 7, by omega⟩

/-- A negative word wrapped once by n (NumPy's negative indexing), any other word itself. -/
def wrapNeg (n : BitVec 32) (w : BitVec 32) : BitVec 32 := if w.toInt < 0 then w + n else w

/-- Edge e's source word, row 0 of the edge array, wrapped. -/
def srcWord (ei : SEI.Idx → BitVec 32) (e : Fin 500000) : BitVec 32 := wrapNeg 50000#32 (ei (ix2 (0 : Fin 2) e))

/-- Edge e's destination word, row 1 of the edge array. -/
def dstWord (ei : SEI.Idx → BitVec 32) (e : Fin 500000) : BitVec 32 := ei (ix2 (1 : Fin 2) e)

/-- Edge e's relation word. -/
def typWord (et : SE.Idx → BitVec 32) (e : Fin 500000) : BitVec 32 := et (ix1 e)

/-- x[n] · W[r] at column h. -/
def relProd (x : SX.Idx → EReal) (W : SW.Idx → EReal) (n : Fin 50000) (r : Fin 8) (h : Fin 128) : EReal :=
  ∑ k : Fin 128, x (ix2 n k) * W (ix3 r k h)

/-- The edges into node n that carry relation r: the destination word is n as a signed integer and the relation
    word is r. -/
def edgesOf (ei : SEI.Idx → BitVec 32) (et : SE.Idx → BitVec 32) (n : Fin 50000) (r : Fin 8) : Finset (Fin 500000) :=
  Finset.univ.filter fun e => (dstWord ei e).toInt = (n.val : Int) ∧ typWord et e = BitVec.ofNat 32 r.val

/-- The mean over those edges of the source row's product with W[r], at column h; 0 when there is no such edge. -/
def relMean (x : SX.Idx → EReal) (W : SW.Idx → EReal) (ei : SEI.Idx → BitVec 32) (et : SE.Idx → BitVec 32)
    (n : Fin 50000) (r : Fin 8) (h : Fin 128) : EReal :=
  Ideal.div (∑ e ∈ edgesOf ei et n r, relProd x W (nodeOf (srcWord ei e)) r h)
    (max (∑ _e ∈ edgesOf ei et n r, (1 : EReal)) 1)

/-- One layer at node n, column h. -/
def layerAt (x : SX.Idx → EReal) (W : SW.Idx → EReal) (root : SR.Idx → EReal) (b : SB.Idx → EReal)
    (ei : SEI.Idx → BitVec 32) (et : SE.Idx → BitVec 32) (n : Fin 50000) (h : Fin 128) : EReal :=
  max (((∑ k : Fin 128, x (ix2 n k) * root (ix2 k h)) + b (ix1 h)) + ∑ r : Fin 8, relMean x W ei et n r h) 0

/-- One layer, as an array. -/
def layerVal (x : SX.Idx → EReal) (W : SW.Idx → EReal) (root : SR.Idx → EReal) (b : SB.Idx → EReal)
    (ei : SEI.Idx → BitVec 32) (et : SE.Idx → BitVec 32) : SX.Idx → EReal :=
  fun i => layerAt x W root b ei et (i 0) (i 1)

/-- The head at node n. -/
def headAt (h : SX.Idx → EReal) (Wc : SC.Idx → EReal) (bc : SS.Idx → EReal) (n : Fin 50000) : EReal :=
  (∑ k : Fin 128, h (ix2 n k) * Wc (ix2 k (0 : Fin 1))) + bc (ix1 (0 : Fin 1))

/-- The head, as an array. -/
def headVal (h : SX.Idx → EReal) (Wc : SC.Idx → EReal) (bc : SS.Idx → EReal) : SO.Idx → EReal :=
  fun i => headAt h Wc bc (i 0)

/-- The whole network. -/
def netVal (x : SX.Idx → EReal) (ei : SEI.Idx → BitVec 32) (et : SE.Idx → BitVec 32)
    (W1 : SW.Idx → EReal) (root1 : SR.Idx → EReal) (b1 : SB.Idx → EReal)
    (W2 : SW.Idx → EReal) (root2 : SR.Idx → EReal) (b2 : SB.Idx → EReal)
    (Wc : SC.Idx → EReal) (bc : SS.Idx → EReal) : SO.Idx → EReal :=
  headVal (layerVal (layerVal x W1 root1 b1 ei et) W2 root2 b2 ei et) Wc bc

theorem layerVal_apply (x : SX.Idx → EReal) (W : SW.Idx → EReal) (root : SR.Idx → EReal) (b : SB.Idx → EReal)
    (ei : SEI.Idx → BitVec 32) (et : SE.Idx → BitVec 32) (n : Fin 50000) (h : Fin 128) :
    layerVal x W root b ei et (ix2 n h) = layerAt x W root b ei et n h := rfl

theorem headVal_apply (h : SX.Idx → EReal) (Wc : SC.Idx → EReal) (bc : SS.Idx → EReal) (n : Fin 50000) :
    headVal h Wc bc (ix1 n) = headAt h Wc bc n := rfl

end Cert.Rgcn

end
-- ==== Proof.PreFacts.lean ====
/-
  What the precondition says of the integer inputs: every destination word, read signed, lies in 0..49999, and every
  relation word in 0..7 (the four range conjuncts of the precondition, each an all-reduction of a signed compare
  against a constant).
-/
import proofs.«412059_j1726576853586_1_alg».proof.Pre_finite_inputs
import proofs.«412059_j1726576853586_1_alg».proof.Proof.Spec
import Idealize.ShloMosaic.Lib.ReduceAll
import Idealize.ShloMosaic.Lib.StableHlo.Predicate
import Idealize.ShloMosaic.Lib.Pipeline.Value

noncomputable section

namespace Cert.Rgcn.Pre

open Idealize.ShloMosaic Idealize.ShloMosaic.ValueIdx Cert.Pre_finite_inputs Cert.Rgcn

variable [Cert.Pre_finite_inputs.Facts]

/-- Under the precondition the destination words and the relation words are in range. -/
theorem ranges_of_pre (a0 : FVec Ideal S50000x128 .f32) (a1 : IVec S2x500000 32) (a2 : IVec S500000 32)
    (a3 : FVec Ideal S8x128x128 .f32) (a4 : FVec Ideal S128x128 .f32) (a5 : FVec Ideal S128 .f32)
    (a6 : FVec Ideal S8x128x128 .f32) (a7 : FVec Ideal S128x128 .f32) (a8 : FVec Ideal S128 .f32)
    (a9 : FVec Ideal S128x1 .f32) (a10 : FVec Ideal S1 .f32)
    (h : Cert.Pre_finite_inputs.fn (F := Ideal) a0 a1 a2 a3 a4 a5 a6 a7 a8 a9 a10 = (fun _ => 1#1)) :
    (∀ e : Fin 500000, 0 ≤ (dstWord a1 e).toInt ∧ (dstWord a1 e).toInt < 50000)
      ∧ (∀ e : Fin 500000, 0 ≤ (typWord a2 e).toInt ∧ (typWord a2 e).toInt < 8) := by
  -- a rank-0 array has one index
  haveI : Subsingleton S_.Idx := ⟨fun a b => funext fun d => d.elim0⟩
  -- the precondition's one word is a conjunction; its last four conjuncts are the range tests
  have e := congrFun h ValueIdx.ix0
  dsimp only [fn, fn_part1, fn_part2, fn_part3] at e
  change IntOp.andi _ _ = 1#1 at e
  obtain ⟨e, e4⟩ := IntOp.andi_eq_one.1 e
  change IntOp.andi _ _ = 1#1 at e
  obtain ⟨e, e3⟩ := IntOp.andi_eq_one.1 e
  change IntOp.andi _ _ = 1#1 at e
  obtain ⟨e, e2⟩ := IntOp.andi_eq_one.1 e
  change IntOp.andi _ _ = 1#1 at e
  obtain ⟨-, e1⟩ := IntOp.andi_eq_one.1 e
  clear e h
  -- row 1 of the edge array, sliced out and flattened, read at k is the edge array at (1, k): same row-major position
  -- through the reshape, then the slice's offset 1 on the first axis
  have hd : ∀ k : Fin 500000, shapeCast S500000 (extractStridedSlice S1x500000 ![1, 0] a1 Facts.slices_S2x500000_S1x500000_1_0)
      Facts.shapeCasts_S1x500000_S500000 (ix1 k) = a1 (ix2 (1 : Fin 2) k) := fun k => by
    refine (shapeCast_apply _ _ (ix1 k) (ix2 (0 : Fin 1) k) (by
      rw [Shape.rowMajor_val_two, Shape.rowMajor_val_one]; show 0 * 500000 + k.val = k.val; omega)).trans ?_
    exact extractStridedSlice_apply _ _ _ (ix2 (0 : Fin 1) k) (ix2 (1 : Fin 2) k) (by
      intro a
      match a with
      | ⟨0, _⟩ => rfl
      | ⟨1, _⟩ => show k.val = 0 + k.val; omega)
  -- each all-reduction that is 1 had a 1 at every index; a signed compare that is 1 orders the signed readings
  refine ⟨fun k => ⟨?_, ?_⟩, fun k => ⟨?_, ?_⟩⟩
  · have t := Host.reduce_andi_all _ _ _ _ _ e1 (ix1 k)
    change IntOp.cmpi .sge _ (0#32) = 1#1 at t
    rw [hd k, IntOp.cmpi_sge] at t
    exact t
  · have t := Host.reduce_andi_all _ _ _ _ _ e2 (ix1 k)
    change IntOp.cmpi .slt _ (50000#32) = 1#1 at t
    rw [hd k, IntOp.cmpi_slt] at t
    exact t
  · have t := Host.reduce_andi_all _ _ _ _ _ e3 (ix1 k)
    change IntOp.cmpi .sge _ (0#32) = 1#1 at t
    rw [IntOp.cmpi_sge] at t
    exact t
  · have t := Host.reduce_andi_all _ _ _ _ _ e4 (ix1 k)
    change IntOp.cmpi .slt _ (8#32) = 1#1 at t
    rw [IntOp.cmpi_slt] at t
    exact t

end Cert.Rgcn.Pre

end
-- ==== Proof.KernTerms.lean ====
/-
  The kernel program's host stretches as functions of arrays, spelt with its own operations: the concatenated
  weight [root | W[0] | … | W[7]] a region multiplies by; from a region's product the root part plus bias, the
  per-relation part, the messages gathered by (source, relation), their sums and counts scattered by the combined
  segment word 8·dst + relation, the means summed over the relations, and relu; the head's weight padded to 128
  columns; and the tail that keeps column 0 and adds the head's bias.
-/
import proofs.«412059_j1726576853586_1_alg».proof.KernelIdeal

noncomputable section

namespace Cert.KernelIdeal.Terms

open Cert.KernelIdeal Idealize.ShloMosaic Idealize.ShloMosaic.TcCoe

variable {F : FTy → Type} [FloatOps F] [Facts]
open Facts₀ Facts

/-- Row 0 of the edge array: the source words. -/
def srcV (ei : IVec S2x500000 32) : IVec S500000 32 :=
  shapeCast _ (extractStridedSlice S1x500000 ![0, 0] ei slices_S2x500000_S1x500000_0_0) shapeCasts_S1x500000_S500000

/-- Row 1 of the edge array: the destination words. -/
def dstV (ei : IVec S2x500000 32) : IVec S500000 32 :=
  shapeCast _ (extractStridedSlice S1x500000 ![1, 0] ei slices_S2x500000_S1x500000_1_0) shapeCasts_S1x500000_S500000

/-- [root | W[0] | … | W[7]]: column 128 + 128 r + h of row k is W[r][k, h]. -/
def catW (root : FVec F S128x128 .f32) (W : FVec F S8x128x128 .f32) : FVec F S128x1152 .f32 :=
  concatenate S128x1152 1 [⟨S128x128, root⟩,
    ⟨S128x1024, shapeCast _ (transpose S128x8x128 [1, 0, 2] W transposes_S8x128x128_S128x8x128_1_0_2) shapeCasts_S128x8x128_S128x1024⟩]
    concatenates_S128x128_S128x1024_S128x1152_d1

/-- The root part of a region's product, plus the bias. -/
def rootOutT (xcat : FVec F S50000x1152 .f32) (b : FVec F S128 .f32) : FVec F S50000x128 .f32 :=
  addf (extractStridedSlice S50000x128 ![0, 0] xcat slices_S50000x1152_S50000x128_0_0)
    (broadcastInDim S50000x128 ![0, 1] bcast_S1x128_S50000x128_0_1 (broadcastInDim S1x128 ![1] bcast_S128_S1x128_1 b))

/-- The per-relation part of a region's product: [node, relation, column]. -/
def relOutT (xcat : FVec F S50000x1152 .f32) : FVec F S50000x8x128 .f32 :=
  shapeCast _ (extractStridedSlice S50000x1024 ![0, 128] xcat slices_S50000x1152_S50000x1024_0_128) shapeCasts_S50000x1024_S50000x8x128

/-- The combined segment word 8 · dst + relation. -/
def combV (d et : IVec S500000 32) : IVec S500000 32 :=
  addi (muli d (broadcastInDim S500000 ![] bcast_S_S500000 (constantI S_ 32 8#32))) et

/-- A negative source word wrapped once by the node count. -/
def wrapSrcV (s : IVec S500000 32) : IVec S500000 32 :=
  select (cmpi .slt s (broadcastInDim S500000 ![] bcast_S_S500000 (constantI S_ 32 0#32)))
    (addi s (broadcastInDim S500000 ![] bcast_S_S500000 (constantI S_ 32 50000#32))) s

/-- A negative relation word wrapped once by the relation count. -/
def wrapTypV (et : IVec S500000 32) : IVec S500000 32 :=
  select (cmpi .slt et (broadcastInDim S500000 ![] bcast_S_S500000 (constantI S_ 32 0#32)))
    (addi et (broadcastInDim S500000 ![] bcast_S_S500000 (constantI S_ 32 8#32))) et

/-- The gather's start words: (source, relation) per edge. -/
def idx2V (s et : IVec S500000 32) : IVec S500000x2 32 :=
  concatenate S500000x2 1 [⟨S500000x1, broadcastInDim S500000x1 ![0] bcast_S500000_S500000x1_0 (wrapSrcV s)⟩,
    ⟨S500000x1, broadcastInDim S500000x1 ![0] bcast_S500000_S500000x1_0 (wrapTypV et)⟩]
    concatenates_S500000x1_S500000x1_S500000x2_d1

/-- The messages: per edge, the source node's row of its relation. -/
def msgT (rel : FVec F S50000x8x128 .f32) (s et : IVec S500000 32) : FVec F S500000x128 .f32 :=
  Host.gather gather_S50000x8x128_S500000x2_S500000x128_1_01_n_n_01_1_11128 rel (idx2V s et)

/-- The messages summed per combined segment. -/
def sumT (msg : FVec F S500000x128 .f32) (comb : IVec S500000 32) : FVec F S400000x128 .f32 :=
  Host.scatterAdd scatter_S400000x128_S500000x1_S500000x128_1_0_0_1
    (broadcastInDim S400000x128 ![] bcast_S_S400000x128 (constant S_ .f32 0x00000000#32))
    (broadcastInDim S500000x1 ![0] bcast_S500000_S500000x1_0 comb) msg

/-- The edges counted per combined segment. -/
def cntT (comb : IVec S500000 32) : FVec F S400000 .f32 :=
  Host.scatterAdd scatter_S400000_S500000x1_S500000_n_0_0_1
    (broadcastInDim S400000 ![] bcast_S_S400000 (constant S_ .f32 0x00000000#32))
    (broadcastInDim S500000x1 ![0] bcast_S500000_S500000x1_0 comb)
    (broadcastInDim S500000 ![] bcast_S_S500000 (constant S_ .f32 0x3F800000#32))

/-- The means (sum over count, the count at least 1) summed over the relations. -/
def aggT (xcat : FVec F S50000x1152 .f32) (s d et : IVec S500000 32) : FVec F S50000x128 .f32 :=
  Host.reduceAdd
    (Host.divf (shapeCast _ (sumT (msgT (relOutT xcat) s et) (combV d et)) shapeCasts_S400000x128_S50000x8x128)
      (broadcastInDim S50000x8x128 ![0, 1, 2] bcast_S50000x8x1_S50000x8x128_0_1_2
        (broadcastInDim S50000x8x1 ![0, 1] bcast_S50000x8_S50000x8x1_0_1
          (maximumf (shapeCast _ (cntT (F := F) (combV d et)) shapeCasts_S400000_S50000x8)
            (broadcastInDim S50000x8 ![] bcast_S_S50000x8 (constant S_ .f32 0x3F800000#32))))))
    (constant S_ .f32 0x00000000#32) reducesTo_S50000x8x128_S50000x128_d1 h_S_

/-- relu. -/
def reluT (y : FVec F S50000x128 .f32) : FVec F S50000x128 .f32 :=
  maximumf y (broadcastInDim S50000x128 ![] bcast_S_S50000x128 (constant S_ .f32 0x00000000#32))

/-- From a region's product to the layer's output. -/
def layerPostT (xcat : FVec F S50000x1152 .f32) (b : FVec F S128 .f32) (ei : IVec S2x500000 32) (et : IVec S500000 32) :
    FVec F S50000x128 .f32 :=
  reluT (addf (rootOutT xcat b) (aggT xcat (srcV ei) (dstV ei) et))

/-- The head's weight in column 0 of a zero 128 × 128 matrix. -/
def padWc (Wc : FVec F S128x1 .f32) : FVec F S128x128 .f32 :=
  Host.scatter scatter_S128x128_S1_S128x1_01_n_1_0 (fun _ b => b)
    (broadcastInDim S128x128 ![] bcast_S_S128x128 (constant S_ .f32 0x00000000#32))
    (broadcastInDim S1 ![] bcast_S_S1 (constantI S_ 32 0#32)) Wc

/-- Column 0 of the last region's product, plus the head's bias. -/
def tailT (outcat : FVec F S50000x128 .f32) (bc : FVec F S1 .f32) : FVec F S50000 .f32 :=
  addf (shapeCast _ (extractStridedSlice S50000x1 ![0, 0] outcat slices_S50000x128_S50000x1_0_0) shapeCasts_S50000x1_S50000)
    (broadcastInDim S50000 ![] bcast_S_S50000 (shapeCast _ bc shapeCasts_S1_S_))

end Cert.KernelIdeal.Terms

end
-- ==== Proof.KernBound.lean ====
/-
  The buffer contents at the boundaries between the kernel program's host stretches and regions, read back as terms
  of the argument arrays and of the regions' outputs: what each region is entered with (its left and right arrays)
  and what the tail leaves in the result buffer.
-/
import proofs.«412059_j1726576853586_1_alg».proof.Proof.Gen.KernelIdeal.Frame
import proofs.«412059_j1726576853586_1_alg».proof.Proof.KernTerms

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem

variable {F : FTy → Type} [FloatOps F]
variable (m : (ℓ : Loc nD τ sig) → Buf (Elt F) ℓ) (ρ : Dev nD → PrngReg)

/-! ## What each host stretch writes, and what it keeps -/

/-- Every operation of the list writes one reference of the given list. -/
local macro "writes_sub" : tactic => `(tactic| (
  simp only [List.Forall]
  repeat' apply And.intro
  all_goals (
    simp only [StableHlo.nullary_writes, StableHlo.unary_writes, StableHlo.binary_writes, StableHlo.ternary_writes,
      StableHlo.reshape_writes, Finset.singleton_subset_iff, List.mem_toFinset]
    exact List.mem_map_of_mem (by decide))))

abbrev hostOps0_W : List (Ref sig .tc) := [main_v0, main_v1, main_v2, main_v3, main_v4, main_v5, main_v6]
theorem hostOps0_writes : (hostOps0 : List (HloOp τ sig (Elt F))).Forall fun op => op.writes ⊆ (hostOps0_W.map (Proc.devRef (τ := τ) .tc)).toFinset := by
  writes_sub
abbrev hostOps1_W : List (Ref sig .tc) := [main_v8, main_v9, main_v10, main_v11, main_v12, main_v13, main_c, main_v14, main_v15, main_v16, main_c_0, main_v17, main_v18, main_c_1, main_v19, main_v20, main_v21, main_c_2, main_v22, main_v23, main_c_3, main_v24, main_v25, main_v26, main_v27, main_v28, main_v29, main_v30, main_cst, main_v31, main_v32, main_v33, main_cst_4, main_v34, main_cst_5, main_v35, main_v36, main_v37, main_v38, main_v39, main_cst_6, main_v40, main_v41, main_v42, main_v43, main_v44, main_cst_7, main_v45, main_v46]
theorem hostOps1_writes : (hostOps1 : List (HloOp τ sig (Elt F))).Forall fun op => op.writes ⊆ (hostOps1_W.map (Proc.devRef (τ := τ) .tc)).toFinset := by
  writes_sub
abbrev hostOps1_1_W : List (Ref sig .tc) := [main_call0_cst, main_call0_v0, main_v47]
theorem hostOps1_1_writes : (hostOps1_1 : List (HloOp τ sig (Elt F))).Forall fun op => op.writes ⊆ (hostOps1_1_W.map (Proc.devRef (τ := τ) .tc)).toFinset := by
  writes_sub
abbrev hostOps1_2_W : List (Ref sig .tc) := [main_v48, main_v49, main_v50]
theorem hostOps1_2_writes : (hostOps1_2 : List (HloOp τ sig (Elt F))).Forall fun op => op.writes ⊆ (hostOps1_2_W.map (Proc.devRef (τ := τ) .tc)).toFinset := by
  writes_sub
abbrev hostOps2_W : List (Ref sig .tc) := [main_v52, main_v53, main_v54, main_v55, main_v56, main_v57, main_c_8, main_v58, main_v59, main_v60, main_c_9, main_v61, main_v62, main_c_10, main_v63, main_v64, main_v65, main_c_11, main_v66, main_v67, main_c_12, main_v68, main_v69, main_v70, main_v71, main_v72, main_v73, main_v74, main_cst_13, main_v75, main_v76, main_v77, main_cst_14, main_v78, main_cst_15, main_v79, main_v80, main_v81, main_v82, main_v83, main_cst_16, main_v84, main_v85, main_v86, main_v87, main_v88, main_cst_17, main_v89, main_v90]
theorem hostOps2_writes : (hostOps2 : List (HloOp τ sig (Elt F))).Forall fun op => op.writes ⊆ (hostOps2_W.map (Proc.devRef (τ := τ) .tc)).toFinset := by
  writes_sub
abbrev hostOps2_1_W : List (Ref sig .tc) := [main_call1_cst, main_call1_v0, main_v91]
theorem hostOps2_1_writes : (hostOps2_1 : List (HloOp τ sig (Elt F))).Forall fun op => op.writes ⊆ (hostOps2_1_W.map (Proc.devRef (τ := τ) .tc)).toFinset := by
  writes_sub
abbrev hostOps2_2_W : List (Ref sig .tc) := [main_cst_18, main_v92, main_c_19, main_v93, main_v94]
theorem hostOps2_2_writes : (hostOps2_2 : List (HloOp τ sig (Elt F))).Forall fun op => op.writes ⊆ (hostOps2_2_W.map (Proc.devRef (τ := τ) .tc)).toFinset := by
  writes_sub
abbrev hostOps3_W : List (Ref sig .tc) := [main_v96, main_v97, main_v98, main_v99, main_v100]
theorem hostOps3_writes : (hostOps3 : List (HloOp τ sig (Elt F))).Forall fun op => op.writes ⊆ (hostOps3_W.map (Proc.devRef (τ := τ) .tc)).toFinset := by
  writes_sub

/-- A reference a stretch does not write holds after it what it held before. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W8_of (c : Dev nD) (r : Ref sig .tc) (h : r ∉ hostOps2_1_W) : W8 m ρ c (Proc.devRef .tc r) = W7 m ρ c (Proc.devRef .tc r) :=
  StableHlo.after_of_writes_sub hostOps2_1 _ hostOps2_1_writes h
theorem W9_of (c : Dev nD) (r : Ref sig .tc) (h : r ∉ hostOps2_2_W) : W9 m ρ c (Proc.devRef .tc r) = W8 m ρ c (Proc.devRef .tc r) :=
  StableHlo.after_of_writes_sub hostOps2_2 _ hostOps2_2_writes h

/-- A reference that no stretch up to a boundary writes and that is no array of a region up to it holds there what
    the first stretch left (for an argument: the launch contents). -/
theorem W2_back (c : Dev nD) (r : Ref sig .tc) (hs0 : ∀ w, Pipeline.arrRef spec0 w ≠ r) :
    W2 m ρ c (Proc.devRef .tc r) = W1 m ρ c (Proc.devRef .tc r) := W2_of_ne m ρ c r hs0
theorem W4_back (c : Dev nD) (r : Ref sig .tc) (hs0 : ∀ w, Pipeline.arrRef spec0 w ≠ r) (h1 : r ∉ hostOps1_W) (h11 : r ∉ hostOps1_1_W) :
    W4 m ρ c (Proc.devRef .tc r) = W1 m ρ c (Proc.devRef .tc r) :=
  (W4_of m ρ c r h11).trans ((W3_of m ρ c r h1).trans (W2_back m ρ c r hs0))
theorem W6_back (c : Dev nD) (r : Ref sig .tc) (hs0 : ∀ w, Pipeline.arrRef spec0 w ≠ r) (h1 : r ∉ hostOps1_W) (h11 : r ∉ hostOps1_1_W)
    (h12 : r ∉ hostOps1_2_W) (hs1 : ∀ w, Pipeline.arrRef spec1 w ≠ r) :
    W6 m ρ c (Proc.devRef .tc r) = W1 m ρ c (Proc.devRef .tc r) :=
  (W6_of_ne m ρ c r hs1).trans ((W5_of m ρ c r h12).trans (W4_back m ρ c r hs0 h1 h11))
theorem W8_back (c : Dev nD) (r : Ref sig .tc) (hs0 : ∀ w, Pipeline.arrRef spec0 w ≠ r) (h1 : r ∉ hostOps1_W) (h11 : r ∉ hostOps1_1_W)
    (h12 : r ∉ hostOps1_2_W) (hs1 : ∀ w, Pipeline.arrRef spec1 w ≠ r) (h2 : r ∉ hostOps2_W) (h21 : r ∉ hostOps2_1_W) :
    W8 m ρ c (Proc.devRef .tc r) = W1 m ρ c (Proc.devRef .tc r) :=
  (W8_of m ρ c r h21).trans ((W7_of m ρ c r h2).trans (W6_back m ρ c r hs0 h1 h11 h12 hs1))
theorem W10_back (c : Dev nD) (r : Ref sig .tc) (hs0 : ∀ w, Pipeline.arrRef spec0 w ≠ r) (h1 : r ∉ hostOps1_W) (h11 : r ∉ hostOps1_1_W)
    (h12 : r ∉ hostOps1_2_W) (hs1 : ∀ w, Pipeline.arrRef spec1 w ≠ r) (h2 : r ∉ hostOps2_W) (h21 : r ∉ hostOps2_1_W)
    (h22 : r ∉ hostOps2_2_W) (hs2 : ∀ w, Pipeline.arrRef spec2 w ≠ r) :
    W10 m ρ c (Proc.devRef .tc r) = W1 m ρ c (Proc.devRef .tc r) :=
  (W10_of_ne m ρ c r hs2).trans ((W9_of m ρ c r h22).trans (W8_back m ρ c r hs0 h1 h11 h12 hs1 h2 h21))
/-- The launch contents, spelt at the memory. -/
theorem W1_arg (c : Dev nD) (r : Ref sig .tc) (h0 : r ∉ hostOps0_W) : W1 m ρ c (Proc.devRef .tc r) = m ((c : Thread nD τ).loc r) :=
  W1_of m ρ c r h0

/-! ## What each host stretch computes, over any contents before it -/

section Stretches
variable (V : Valuation τ sig (Elt F))

theorem ops0_v1 : StableHlo.after hostOps0 V (Proc.devRef .tc main_v1) = Terms.srcV (V (Proc.devRef .tc main_arg1)) := by
  dsimp only [hostOps0]; after_results; rfl
theorem ops0_v3 : StableHlo.after hostOps0 V (Proc.devRef .tc main_v3) = Terms.dstV (V (Proc.devRef .tc main_arg1)) := by
  dsimp only [hostOps0]; after_results; rfl
theorem ops0_v6 : StableHlo.after hostOps0 V (Proc.devRef .tc main_v6)
    = Terms.catW (F := F) (V (Proc.devRef .tc main_arg4)) (V (Proc.devRef .tc main_arg3)) := by
  dsimp only [hostOps0]; after_results; rfl
theorem ops1_2_v50 : StableHlo.after hostOps1_2 V (Proc.devRef .tc main_v50)
    = Terms.catW (F := F) (V (Proc.devRef .tc main_arg7)) (V (Proc.devRef .tc main_arg6)) := by
  dsimp only [hostOps1_2]; after_results; rfl
theorem ops2_2_v94 : StableHlo.after hostOps2_2 V (Proc.devRef .tc main_v94)
    = Terms.padWc (F := F) (V (Proc.devRef .tc main_arg9)) := by
  dsimp only [hostOps2_2]; after_results; rfl
theorem ops3_v100 : StableHlo.after hostOps3 V (Proc.devRef .tc main_v100)
    = Terms.tailT (F := F) (V (Proc.devRef .tc main_v95)) (V (Proc.devRef .tc main_arg10)) := by
  dsimp only [hostOps3]; after_results; rfl
theorem ops1_1_v47 : StableHlo.after hostOps1_1 V (Proc.devRef .tc main_v47)
    = Terms.reluT (F := F) (V (Proc.devRef .tc main_v46)) := by
  dsimp only [hostOps1_1]; after_results; rfl
theorem ops2_1_v91 : StableHlo.after hostOps2_1 V (Proc.devRef .tc main_v91)
    = Terms.reluT (F := F) (V (Proc.devRef .tc main_v90)) := by
  dsimp only [hostOps2_1]; after_results; rfl

/-- The first layer's stretch: from region 0's product to the sum of the root part and the aggregated messages. -/
theorem ops1_v46 : StableHlo.after hostOps1 V (Proc.devRef .tc main_v46)
    = addf (Terms.rootOutT (F := F) (V (Proc.devRef .tc main_v7)) (V (Proc.devRef .tc main_arg5)))
        (Terms.aggT (F := F) (V (Proc.devRef .tc main_v7)) (V (Proc.devRef .tc main_v1)) (V (Proc.devRef .tc main_v3)) (V (Proc.devRef .tc main_arg2))) := by
  dsimp only [hostOps1]; after_results_simp; rfl
/-- The second layer's stretch: the same operations on region 1's product. -/
theorem ops2_v90 : StableHlo.after hostOps2 V (Proc.devRef .tc main_v90)
    = addf (Terms.rootOutT (F := F) (V (Proc.devRef .tc main_v51)) (V (Proc.devRef .tc main_arg8)))
        (Terms.aggT (F := F) (V (Proc.devRef .tc main_v51)) (V (Proc.devRef .tc main_v1)) (V (Proc.devRef .tc main_v3)) (V (Proc.devRef .tc main_arg2))) := by
  dsimp only [hostOps2]; after_results_simp; rfl

end Stretches

/-! ## The boundaries -/

/-- Region 0 is entered with x as launched … -/
theorem W1_x (c : Dev nD) : W1 m ρ c (Proc.devRef .tc main_arg0) = m ((c : Thread nD τ).loc main_arg0) := by
  exact W1_arg m ρ c main_arg0 (by decide)
/-- … and with the first layer's concatenated weight. -/
theorem W1_w (c : Dev nD) : W1 m ρ c (Proc.devRef .tc main_v6) = Terms.catW (F := F) (m ((c : Thread nD τ).loc main_arg4)) (m ((c : Thread nD τ).loc main_arg3)) := by
  exact ops0_v6 (W0 m ρ c)

/-- Region 1 is entered with the first layer's output of region 0's product … -/
theorem W5_x (c : Dev nD) : W5 m ρ c (Proc.devRef .tc main_v47)
    = Terms.layerPostT (F := F) (W2 m ρ c (Proc.devRef .tc main_v7)) (m ((c : Thread nD τ).loc main_arg5)) (m ((c : Thread nD τ).loc main_arg1)) (m ((c : Thread nD τ).loc main_arg2)) := by
  have e5 : W2 m ρ c (Proc.devRef .tc main_arg5) = m ((c : Thread nD τ).loc main_arg5) :=
    (W2_back m ρ c main_arg5 (by decide)).trans (W1_arg m ρ c main_arg5 (by decide))
  have e2 : W2 m ρ c (Proc.devRef .tc main_arg2) = m ((c : Thread nD τ).loc main_arg2) :=
    (W2_back m ρ c main_arg2 (by decide)).trans (W1_arg m ρ c main_arg2 (by decide))
  have e1 : W2 m ρ c (Proc.devRef .tc main_v1) = Terms.srcV (m ((c : Thread nD τ).loc main_arg1)) :=
    (W2_back m ρ c main_v1 (by decide)).trans (ops0_v1 (W0 m ρ c))
  have e3 : W2 m ρ c (Proc.devRef .tc main_v3) = Terms.dstV (m ((c : Thread nD τ).loc main_arg1)) :=
    (W2_back m ρ c main_v3 (by decide)).trans (ops0_v3 (W0 m ρ c))
  calc W5 m ρ c (Proc.devRef .tc main_v47)
    _ = W4 m ρ c (Proc.devRef .tc main_v47) := W5_of m ρ c main_v47 (by decide)
    _ = Terms.reluT (F := F) (W3 m ρ c (Proc.devRef .tc main_v46)) := ops1_1_v47 (W3 m ρ c)
    _ = Terms.reluT (F := F) (addf (Terms.rootOutT (F := F) (W2 m ρ c (Proc.devRef .tc main_v7)) (W2 m ρ c (Proc.devRef .tc main_arg5)))
          (Terms.aggT (F := F) (W2 m ρ c (Proc.devRef .tc main_v7)) (W2 m ρ c (Proc.devRef .tc main_v1)) (W2 m ρ c (Proc.devRef .tc main_v3)) (W2 m ρ c (Proc.devRef .tc main_arg2)))) :=
        congrArg (Terms.reluT (F := F)) (ops1_v46 (W2 m ρ c))
    _ = _ := by rw [Terms.layerPostT, e5, e2, e1, e3]
/-- … and with the second layer's concatenated weight. -/
theorem W5_w (c : Dev nD) : W5 m ρ c (Proc.devRef .tc main_v50) = Terms.catW (F := F) (m ((c : Thread nD τ).loc main_arg7)) (m ((c : Thread nD τ).loc main_arg6)) := by
  have e7 : W4 m ρ c (Proc.devRef .tc main_arg7) = m ((c : Thread nD τ).loc main_arg7) :=
    (W4_back m ρ c main_arg7 (by decide) (by decide) (by decide)).trans (W1_arg m ρ c main_arg7 (by decide))
  have e6 : W4 m ρ c (Proc.devRef .tc main_arg6) = m ((c : Thread nD τ).loc main_arg6) :=
    (W4_back m ρ c main_arg6 (by decide) (by decide) (by decide)).trans (W1_arg m ρ c main_arg6 (by decide))
  exact (ops1_2_v50 (W4 m ρ c)).trans (by rw [e7, e6])

/-- Region 2 is entered with the second layer's output of region 1's product … -/
theorem W9_x (c : Dev nD) : W9 m ρ c (Proc.devRef .tc main_v91)
    = Terms.layerPostT (F := F) (W6 m ρ c (Proc.devRef .tc main_v51)) (m ((c : Thread nD τ).loc main_arg8)) (m ((c : Thread nD τ).loc main_arg1)) (m ((c : Thread nD τ).loc main_arg2)) := by
  have e8 : W6 m ρ c (Proc.devRef .tc main_arg8) = m ((c : Thread nD τ).loc main_arg8) :=
    (W6_back m ρ c main_arg8 (by decide) (by decide) (by decide) (by decide) (by decide)).trans (W1_arg m ρ c main_arg8 (by decide))
  have e2 : W6 m ρ c (Proc.devRef .tc main_arg2) = m ((c : Thread nD τ).loc main_arg2) :=
    (W6_back m ρ c main_arg2 (by decide) (by decide) (by decide) (by decide) (by decide)).trans (W1_arg m ρ c main_arg2 (by decide))
  have e1 : W6 m ρ c (Proc.devRef .tc main_v1) = Terms.srcV (m ((c : Thread nD τ).loc main_arg1)) :=
    (W6_back m ρ c main_v1 (by decide) (by decide) (by decide) (by decide) (by decide)).trans (ops0_v1 (W0 m ρ c))
  have e3 : W6 m ρ c (Proc.devRef .tc main_v3) = Terms.dstV (m ((c : Thread nD τ).loc main_arg1)) :=
    (W6_back m ρ c main_v3 (by decide) (by decide) (by decide) (by decide) (by decide)).trans (ops0_v3 (W0 m ρ c))
  calc W9 m ρ c (Proc.devRef .tc main_v91)
    _ = W8 m ρ c (Proc.devRef .tc main_v91) := W9_of m ρ c main_v91 (by decide)
    _ = Terms.reluT (F := F) (W7 m ρ c (Proc.devRef .tc main_v90)) := ops2_1_v91 (W7 m ρ c)
    _ = Terms.reluT (F := F) (addf (Terms.rootOutT (F := F) (W6 m ρ c (Proc.devRef .tc main_v51)) (W6 m ρ c (Proc.devRef .tc main_arg8)))
          (Terms.aggT (F := F) (W6 m ρ c (Proc.devRef .tc main_v51)) (W6 m ρ c (Proc.devRef .tc main_v1)) (W6 m ρ c (Proc.devRef .tc main_v3)) (W6 m ρ c (Proc.devRef .tc main_arg2)))) :=
        congrArg (Terms.reluT (F := F)) (ops2_v90 (W6 m ρ c))
    _ = _ := by rw [Terms.layerPostT, e8, e2, e1, e3]
/-- … and with the head's padded weight. -/
theorem W9_w (c : Dev nD) : W9 m ρ c (Proc.devRef .tc main_v94) = Terms.padWc (F := F) (m ((c : Thread nD τ).loc main_arg9)) := by
  have e9 : W8 m ρ c (Proc.devRef .tc main_arg9) = m ((c : Thread nD τ).loc main_arg9) :=
    (W8_back m ρ c main_arg9 (by decide) (by decide) (by decide) (by decide) (by decide) (by decide) (by decide)).trans (W1_arg m ρ c main_arg9 (by decide))
  exact (ops2_2_v94 (W8 m ρ c)).trans (by rw [e9])

/-- The result buffer holds the tail of region 2's product. -/
theorem W11_out (c : Dev nD) : W11 m ρ c (Proc.devRef .tc main_v100)
    = Terms.tailT (F := F) (W10 m ρ c (Proc.devRef .tc main_v95)) (m ((c : Thread nD τ).loc main_arg10)) := by
  have e10 : W10 m ρ c (Proc.devRef .tc main_arg10) = m ((c : Thread nD τ).loc main_arg10) :=
    (W10_back m ρ c main_arg10 (by decide) (by decide) (by decide) (by decide) (by decide) (by decide) (by decide) (by decide) (by decide)).trans
      (W1_arg m ρ c main_arg10 (by decide))
  exact (ops3_v100 (W10 m ρ c)).trans (by rw [e10])

end Cert.KernelIdeal.Hand

end
-- ==== Proof.KernRegions.lean ====
/-
  What a region leaves in its output array, over the extended reals: the matrix product of its two input arrays.
  Each of the 25 grid points takes 2000 rows of the left array and the whole right array, writes their product's 2000
  rows (the matrix unit's pass into a zero accumulator is the plain sum of products), and the blocks cover the array.
-/
import proofs.«412059_j1726576853586_1_alg».proof.Proof.Gen.KernelIdeal.Frame
import proofs.«412059_j1726576853586_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Rgcn
open Idealize.ShloMosaic Idealize.ShloMosaic.TcCoe Idealize.ShloMosaic.ValueIdx
open Idealize.ShloMosaic.Pipeline (Dat Cfg Window)

/-- The zero offsets of a whole-block access. -/
theorem hz : (![0, 0] : Fin 2 → Nat) = fun _ => 0 := funext fun a => by
  match a with
  | ⟨0, _⟩ => rfl
  | ⟨1, _⟩ => rfl

/-! ## The matrix unit's pass at an entry

  The product contracts the left block's axis 1 with the right block's axis 0; the left index at output entry (p, q) and
  contraction position k is (p, k), the right index is (k, q): one fact per operand and axis. -/

/-! ### 2000 × 128 by 128 × 1152 (regions 0 and 1) -/

theorem lhs_wide_0 (j : S2000x1152.Idx) (k : dot_S2000x128_S128x1152_S2000x1152_1_0_0_1_n_n.contr.Idx) :
    (dot_S2000x128_S128x1152_S2000x1152_1_0_0_1_n_n.lhsIdx j k 0).val = (j 0).val := by
  unfold DotDims.lhsIdx
  rw [dif_neg (show ¬(0 : Fin S2000x128.rank) ∈ dot_S2000x128_S128x1152_S2000x1152_1_0_0_1_n_n.lhsBatch by decide),
    dif_pos (show (0 : Fin S2000x128.rank) ∈ dot_S2000x128_S128x1152_S2000x1152_1_0_0_1_n_n.lhsNonContracting by decide)]
  rfl

theorem lhs_wide_1 (j : S2000x1152.Idx) (k : dot_S2000x128_S128x1152_S2000x1152_1_0_0_1_n_n.contr.Idx) :
    (dot_S2000x128_S128x1152_S2000x1152_1_0_0_1_n_n.lhsIdx j k 1).val = (k ⟨0, by decide⟩).val :=
  dot_S2000x128_S128x1152_S2000x1152_1_0_0_1_n_n.lhsIdx_val_of_single (cl := 1) rfl j k

theorem rhs_wide_0 (j : S2000x1152.Idx) (k : dot_S2000x128_S128x1152_S2000x1152_1_0_0_1_n_n.contr.Idx) :
    (dot_S2000x128_S128x1152_S2000x1152_1_0_0_1_n_n.rhsIdx j k 0).val = (k ⟨0, by decide⟩).val :=
  dot_S2000x128_S128x1152_S2000x1152_1_0_0_1_n_n.rhsIdx_val_of_single (cr := 0) rfl j k

theorem rhs_wide_1 (j : S2000x1152.Idx) (k : dot_S2000x128_S128x1152_S2000x1152_1_0_0_1_n_n.contr.Idx) :
    (dot_S2000x128_S128x1152_S2000x1152_1_0_0_1_n_n.rhsIdx j k 1).val = (j 1).val := by
  unfold DotDims.rhsIdx
  rw [dif_neg (show ¬(1 : Fin S128x1152.rank) ∈ dot_S2000x128_S128x1152_S2000x1152_1_0_0_1_n_n.rhsBatch by decide),
    dif_pos (show (1 : Fin S128x1152.rank) ∈ dot_S2000x128_S128x1152_S2000x1152_1_0_0_1_n_n.rhsNonContracting by decide)]
  rfl

/-- The pass over a 2000 × 128 block and a 128 × 1152 block into the zero accumulator, at an entry: the sum of the 128 products. -/
theorem matmul_wide_apply (a : FVec Ideal S2000x128 .bf16) (b : FVec Ideal S128x1152 .bf16) (p : Fin 2000) (q : Fin 1152) :
    FloatOps.matmul dot_S2000x128_S128x1152_S2000x1152_1_0_0_1_n_n none a b (constant S2000x1152 .f32 0x00000000#32) (ix2 p q)
      = ∑ k : Fin 128, a (ix2 p k) * b (ix2 k q) := by
  rw [Ideal.matmul_constant_zero_apply, ← Equiv.sum_comp (contrEquiv1 dot_S2000x128_S128x1152_S2000x1152_1_0_0_1_n_n 128 rfl rfl).symm]
  refine Finset.sum_congr rfl fun k _ => ?_
  have hk := contrEquiv1_symm_val dot_S2000x128_S128x1152_S2000x1152_1_0_0_1_n_n 128 rfl rfl k
  have hl : dot_S2000x128_S128x1152_S2000x1152_1_0_0_1_n_n.lhsIdx (ix2 p q) ((contrEquiv1 dot_S2000x128_S128x1152_S2000x1152_1_0_0_1_n_n 128 rfl rfl).symm k) = ix2 p k := by
    funext ax; apply Fin.ext
    match ax with
    | ⟨0, _⟩ => exact lhs_wide_0 _ _
    | ⟨1, _⟩ => exact (lhs_wide_1 _ _).trans hk
  have hr : dot_S2000x128_S128x1152_S2000x1152_1_0_0_1_n_n.rhsIdx (ix2 p q) ((contrEquiv1 dot_S2000x128_S128x1152_S2000x1152_1_0_0_1_n_n 128 rfl rfl).symm k) = ix2 k q := by
    funext ax; apply Fin.ext
    match ax with
    | ⟨0, _⟩ => exact (rhs_wide_0 _ _).trans hk
    | ⟨1, _⟩ => exact rhs_wide_1 _ _
  rw [hl, hr]

/-! ### 2000 × 128 by 128 × 128 (region 2) -/

theorem lhs_narrow_0 (j : S2000x128.Idx) (k : dot_S2000x128_S128x128_S2000x128_1_0_0_1_n_n.contr.Idx) :
    (dot_S2000x128_S128x128_S2000x128_1_0_0_1_n_n.lhsIdx j k 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem lhs_narrow_1 (j : S2000x128.Idx) (k : dot_S2000x128_S128x128_S2000x128_1_0_0_1_n_n.contr.Idx) :
    (dot_S2000x128_S128x128_S2000x128_1_0_0_1_n_n.lhsIdx j k 1).val = (k ⟨0, by decide⟩).val :=
  dot_S2000x128_S128x128_S2000x128_1_0_0_1_n_n.lhsIdx_val_of_single (cl := 1) rfl j k

theorem rhs_narrow_0 (j : S2000x128.Idx) (k : dot_S2000x128_S128x128_S2000x128_1_0_0_1_n_n.contr.Idx) :
    (dot_S2000x128_S128x128_S2000x128_1_0_0_1_n_n.rhsIdx j k 0).val = (k ⟨0, by decide⟩).val :=
  dot_S2000x128_S128x128_S2000x128_1_0_0_1_n_n.rhsIdx_val_of_single (cr := 0) rfl j k

theorem rhs_narrow_1 (j : S2000x128.Idx) (k : dot_S2000x128_S128x128_S2000x128_1_0_0_1_n_n.contr.Idx) :
    (dot_S2000x128_S128x128_S2000x128_1_0_0_1_n_n.rhsIdx j k 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The pass over a 2000 × 128 block and a 128 × 128 block into the zero accumulator, at an entry: the sum of the 128 products. -/
theorem matmul_narrow_apply (a : FVec Ideal S2000x128 .bf16) (b : FVec Ideal S128x128 .bf16) (p : Fin 2000) (q : Fin 128) :
    FloatOps.matmul dot_S2000x128_S128x128_S2000x128_1_0_0_1_n_n none a b (constant S2000x128 .f32 0x00000000#32) (ix2 p q)
      = ∑ k : Fin 128, a (ix2 p k) * b (ix2 k q) := by
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have hl : dot_S2000x128_S128x128_S2000x128_1_0_0_1_n_n.lhsIdx (ix2 p q) ((contrEquiv1 dot_S2000x128_S128x128_S2000x128_1_0_0_1_n_n 128 rfl rfl).symm k) = ix2 p k := by
    funext ax; apply Fin.ext
    match ax with
    | ⟨0, _⟩ => exact lhs_narrow_0 _ _
    | ⟨1, _⟩ => exact (lhs_narrow_1 _ _).trans hk
  have hr : dot_S2000x128_S128x128_S2000x128_1_0_0_1_n_n.rhsIdx (ix2 p q) ((contrEquiv1 dot_S2000x128_S128x128_S2000x128_1_0_0_1_n_n 128 rfl rfl).symm k) = ix2 k q := by
    funext ax; apply Fin.ext
    match ax with
    | ⟨0, _⟩ => exact (rhs_narrow_0 _ _).trans hk
    | ⟨1, _⟩ => exact rhs_narrow_1 _ _
  rw [hl, hr]

/-! ## Region 0 -/

/-- What a point of region 0 leaves in the output's buffer, at an entry: the sum over the 128 shared coordinates. -/
theorem out0_2_apply (x0 : Vec Ideal S2000x128 .f32) (x1 : Vec Ideal S128x1152 .f32) (p : Fin 2000) (q : Fin 1152) :
    (out0_2 x0 x1 : S2000x1152.Idx → EReal) (ix2 p q)
      = ∑ k : Fin 128, (x0 : S2000x128.Idx → EReal) (ix2 p k) * (x1 : S128x1152.Idx → EReal) (ix2 k q) := by
  unfold out0_2
  rw [View.canon_unit_zero hz]
  simp only [View.ld_unit_zero (S := S2000x128) hz, View.ld_unit_zero (S := S128x1152) hz]
  unfold k0_pay1
  rw [shapeCast_self]
  exact matmul_wide_apply _ _ p q

/-- The index maps of region 0, decided once over the 25 points: the left and the output windows move down one
    block of 2000 rows per point, the right window stays on the whole right array. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The region has 25 points. -/
theorem N0 : cfg0.N = 25 := by decide +kernel

/-- A block of 2000 rows times the whole right array is the same 2000 rows of the product: if the left block holds rows
    2000 r … 2000 r + 1999 of `A` and the right block is `B`, the entry (p, q) of what the point leaves is the
    entry (2000 r + p, q) of `A · B`. -/
theorem block0_prod (A : S50000x128.Idx → EReal) (B : S128x1152.Idx → EReal)
    (x0 : Vec Ideal S2000x128 .f32) (x1 : Vec Ideal S128x1152 .f32) (r : ℕ)
    (h0 : ∀ (y : S2000x128.Idx) (i : S50000x128.Idx), (i 0).val = r * 2000 + (y 0).val → (i 1).val = (y 1).val →
      (x0 : S2000x128.Idx → EReal) y = A i)
    (h1 : ∀ y : S128x1152.Idx, (x1 : S128x1152.Idx → EReal) y = B y)
    (y : S2000x1152.Idx) (i : S50000x1152.Idx) (hi0 : (i 0).val = r * 2000 + (y 0).val) (hi1 : (i 1).val = (y 1).val) :
    (out0_2 x0 x1 : S2000x1152.Idx → EReal) y = mm A B i := by
  obtain ⟨p, q, rfl⟩ : ∃ (p : Fin 2000) (q : Fin 1152), y = ix2 p q := ⟨y 0, y 1, eq_ix2 y⟩
  obtain ⟨n, m, rfl⟩ : ∃ (n : Fin 50000) (m : Fin 1152), i = ix2 n m := ⟨i 0, i 1, eq_ix2 i⟩
  obtain rfl : m = q := Fin.ext hi1
  rw [out0_2_apply, mm_apply]
  refine Finset.sum_congr rfl fun k _ => ?_
  rw [h0 (ix2 p k) (ix2 n k) hi0 rfl, h1]

/-- The left window's block at point `t` is rows 2000 t … 2000 t + 1999 of the left array. -/
theorem iblk0_0_apply (V : (c : Dev nD) → (b : Ref sig .tc) → Buf (Elt Ideal) ((c : Thread nD τ).loc b)) (c : Dev nD) (t : Fin cfg0.N)
    (y : S2000x128.Idx) (i : S50000x128.Idx) (hi0 : (i 0).val = t.val * 2000 + (y 0).val) (hi1 : (i 1).val = (y 1).val) :
    (iblk0 V c 0 t : Vec Ideal S2000x128 .f32) y = (V c main_arg0 : S50000x128.Idx → EReal) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 2000 + 1 * (y 0).val = (i 0).val; rw [e0, hi0]; omega
  | ⟨1, _⟩ => show win0_0.index t (1 : Fin 2) * 128 + 1 * (y 1).val = (i 1).val; rw [e1, hi1]; omega

/-- The right window's block at every point is the whole right array. -/
theorem iblk0_1_apply (V : (c : Dev nD) → (b : Ref sig .tc) → Buf (Elt Ideal) ((c : Thread nD τ).loc b)) (c : Dev nD) (t : Fin cfg0.N) (y : S128x1152.Idx) :
    (iblk0 V c 1 t : Vec Ideal S128x1152 .f32) y = (V c main_v6 : S128x1152.Idx → EReal) y := by
  obtain ⟨-, -, e2, e3, -⟩ := idx_facts0 t
  unfold iblk0
  rw [View.read_apply]
  show V c main_v6 _ = V c main_v6 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 1152 + 1 * (y 1).val = (y 1).val; rw [e3]; omega

/-- What point `t` writes back is block `t` of the product of the two arrays as the region finds them. -/
theorem flushed0_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal)
      (mm (V c main_arg0 : S50000x128.Idx → EReal) (V c main_v6 : S128x1152.Idx → EReal)) := by
  show (cfg0.win 2).cut (grid0.coords t) ((dat0 V c).after 2 t) = _
  rw [after0_2]
  obtain ⟨-, -, -, -, e4, e5⟩ := idx_facts0 t
  funext j
  show (out0_2 (iblk0 V c 0 t) (iblk0 V c 1 t) : S2000x1152.Idx → EReal) j
    = mm (V c main_arg0 : S50000x128.Idx → EReal) (V c main_v6 : S128x1152.Idx → EReal) (((cfg0.win 2).blk t).view.emb j)
  refine block0_prod (V c main_arg0) (V c main_v6) (iblk0 V c 0 t) (iblk0 V c 1 t) t.val
    (fun y i h0 h1 => iblk0_0_apply V c t y i h0 h1) (fun y => iblk0_1_apply V c t y) j (((cfg0.win 2).blk t).view.emb j) ?_ ?_
  · show win0_2.index t (0 : Fin 2) * 2000 + 1 * (j 0).val = t.val * 2000 + (j 0).val; rw [e4]; omega
  · show win0_2.index t (1 : Fin 2) * 1152 + 1 * (j 1).val = (j 1).val; rw [e5]; omega

/-- An index of the output array is in point `t`'s block iff each coordinate is in the block's range on its axis. -/
theorem mem_blk0 (t : Fin cfg0.N) (i : S50000x1152.Idx) :
    i ∈ ((cfg0.win 2).blk t).view.set ↔ ∀ a : Fin 2, win0_2.index t a * S2000x1152.size a ≤ (i a).val
      ∧ (i a).val < win0_2.index t a * S2000x1152.size a + S2000x1152.size a := by
  show i ∈ ((View.whole main_v7).slice (win0_2.rect t)).set ↔ _
  rw [View.set_slice_whole, Rect.mem_set_unit]
  exact Iff.rfl

/-- The 25 blocks of 2000 rows cover the 50000 rows: row `r` is in the block of point `r / 2000`. -/
theorem cover0 (i : S50000x1152.Idx) :
    ∃ t : Fin cfg0.N, (cfg0.win 2).flush t = true ∧ i ∈ ((cfg0.win 2).blk t).view.set := by
  have hi0 : (i 0).val < 50000 := (i 0).isLt
  have hi1 : (i 1).val < 1152 := (i 1).isLt
  obtain ⟨t, ht⟩ : ∃ t : Fin cfg0.N, t.val = (i 0).val / 2000 :=
    ⟨⟨(i 0).val / 2000, (by omega : (i 0).val / 2000 < 25).trans_eq N0.symm⟩, rfl⟩
  obtain ⟨-, -, -, -, e4, e5⟩ := idx_facts0 t
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    rw [e4, ht]; omega
  | ⟨1, _⟩ =>
    show win0_2.index t (1 : Fin 2) * 1152 ≤ (i 1).val ∧ (i 1).val < win0_2.index t (1 : Fin 2) * 1152 + 1152
    rw [e5]; omega

/-- Region 0: the first layer's product x · [root1 | W1]. -/
theorem region0_val (V : (c : Dev nD) → (b : Ref sig .tc) → Buf (Elt Ideal) ((c : Thread nD τ).loc b)) (c : Dev nD) :
    ((dat0 (F := Ideal) V c).arrAt 2 cfg0.N : S50000x1152.Idx → EReal)
      = mm (V c main_arg0 : S50000x128.Idx → EReal) (V c main_v6 : S128x1152.Idx → EReal) := by
  exact (dat0 (F := Ideal) V c).arrAt_eq_of_cover 2
    (mm (V c main_arg0 : S50000x128.Idx → EReal) (V c main_v6 : S128x1152.Idx → EReal))
    (fun t _ => flushed0_eq V c t) cover0

/-! ## Region 1 -/

/-- What a point of region 1 leaves in the output's buffer, at an entry: the sum over the 128 shared coordinates. -/
theorem out1_2_apply (x0 : Vec Ideal S2000x128 .f32) (x1 : Vec Ideal S128x1152 .f32) (p : Fin 2000) (q : Fin 1152) :
    (out1_2 x0 x1 : S2000x1152.Idx → EReal) (ix2 p q)
      = ∑ k : Fin 128, (x0 : S2000x128.Idx → EReal) (ix2 p k) * (x1 : S128x1152.Idx → EReal) (ix2 k q) := by
  unfold out1_2
  rw [View.canon_unit_zero hz]
  simp only [View.ld_unit_zero (S := S2000x128) hz, View.ld_unit_zero (S := S128x1152) hz]
  unfold k1_pay1
  rw [shapeCast_self, shapeCast_self]
  exact matmul_wide_apply _ _ p q

/-- The index maps of region 1, decided once over the 25 points: the left and the output windows move down one
    block of 2000 rows per point, the right window stays on the whole right array. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The region has 25 points. -/
theorem N1 : cfg1.N = 25 := by decide +kernel

/-- A block of 2000 rows times the whole right array is the same 2000 rows of the product: if the left block holds rows
    2000 r … 2000 r + 1999 of `A` and the right block is `B`, the entry (p, q) of what the point leaves is the
    entry (2000 r + p, q) of `A · B`. -/
theorem block1_prod (A : S50000x128.Idx → EReal) (B : S128x1152.Idx → EReal)
    (x0 : Vec Ideal S2000x128 .f32) (x1 : Vec Ideal S128x1152 .f32) (r : ℕ)
    (h0 : ∀ (y : S2000x128.Idx) (i : S50000x128.Idx), (i 0).val = r * 2000 + (y 0).val → (i 1).val = (y 1).val →
      (x0 : S2000x128.Idx → EReal) y = A i)
    (h1 : ∀ y : S128x1152.Idx, (x1 : S128x1152.Idx → EReal) y = B y)
    (y : S2000x1152.Idx) (i : S50000x1152.Idx) (hi0 : (i 0).val = r * 2000 + (y 0).val) (hi1 : (i 1).val = (y 1).val) :
    (out1_2 x0 x1 : S2000x1152.Idx → EReal) y = mm A B i := by
  obtain ⟨p, q, rfl⟩ : ∃ (p : Fin 2000) (q : Fin 1152), y = ix2 p q := ⟨y 0, y 1, eq_ix2 y⟩
  obtain ⟨n, m, rfl⟩ : ∃ (n : Fin 50000) (m : Fin 1152), i = ix2 n m := ⟨i 0, i 1, eq_ix2 i⟩
  obtain rfl : m = q := Fin.ext hi1
  rw [out1_2_apply, mm_apply]
  refine Finset.sum_congr rfl fun k _ => ?_
  rw [h0 (ix2 p k) (ix2 n k) hi0 rfl, h1]

/-- The left window's block at point `t` is rows 2000 t … 2000 t + 1999 of the left array. -/
theorem iblk1_0_apply (V : (c : Dev nD) → (b : Ref sig .tc) → Buf (Elt Ideal) ((c : Thread nD τ).loc b)) (c : Dev nD) (t : Fin cfg1.N)
    (y : S2000x128.Idx) (i : S50000x128.Idx) (hi0 : (i 0).val = t.val * 2000 + (y 0).val) (hi1 : (i 1).val = (y 1).val) :
    (iblk1 V c 0 t : Vec Ideal S2000x128 .f32) y = (V c main_v47 : S50000x128.Idx → EReal) i := by
  obtain ⟨e0, e1, -⟩ := idx_facts1 t
  unfold iblk1
  rw [View.read_apply]
  show V c main_v47 _ = V c main_v47 _
  congr 1
  funext a
  apply Fin.ext
  match a with
  | ⟨0, _⟩ => show win1_0.index t (0 : Fin 2) * 2000 + 1 * (y 0).val = (i 0).val; rw [e0, hi0]; omega
  | ⟨1, _⟩ => show win1_0.index t (1 : Fin 2) * 128 + 1 * (y 1).val = (i 1).val; rw [e1, hi1]; omega

/-- The right window's block at every point is the whole right array. -/
theorem iblk1_1_apply (V : (c : Dev nD) → (b : Ref sig .tc) → Buf (Elt Ideal) ((c : Thread nD τ).loc b)) (c : Dev nD) (t : Fin cfg1.N) (y : S128x1152.Idx) :
    (iblk1 V c 1 t : Vec Ideal S128x1152 .f32) y = (V c main_v50 : S128x1152.Idx → EReal) y := by
  obtain ⟨-, -, e2, e3, -⟩ := idx_facts1 t
  unfold iblk1
  rw [View.read_apply]
  show V c main_v50 _ = V c main_v50 _
  congr 1
  funext a
  apply Fin.ext
  match a with
  | ⟨0, _⟩ => show win1_1.index t (0 : Fin 2) * 128 + 1 * (y 0).val = (y 0).val; rw [e2]; omega
  | ⟨1, _⟩ => show win1_1.index t (1 : Fin 2) * 1152 + 1 * (y 1).val = (y 1).val; rw [e3]; omega

/-- What point `t` writes back is block `t` of the product of the two arrays as the region finds them. -/
theorem flushed1_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal)
      (mm (V c main_v47 : S50000x128.Idx → EReal) (V c main_v50 : S128x1152.Idx → EReal)) := by
  show (cfg1.win 2).cut (grid1.coords t) ((dat1 V c).after 2 t) = _
  rw [after1_2]
  obtain ⟨-, -, -, -, e4, e5⟩ := idx_facts1 t
  funext j
  show (out1_2 (iblk1 V c 0 t) (iblk1 V c 1 t) : S2000x1152.Idx → EReal) j
    = mm (V c main_v47 : S50000x128.Idx → EReal) (V c main_v50 : S128x1152.Idx → EReal) (((cfg1.win 2).blk t).view.emb j)
  refine block1_prod (V c main_v47) (V c main_v50) (iblk1 V c 0 t) (iblk1 V c 1 t) t.val
    (fun y i h0 h1 => iblk1_0_apply V c t y i h0 h1) (fun y => iblk1_1_apply V c t y) j (((cfg1.win 2).blk t).view.emb j) ?_ ?_
  · show win1_2.index t (0 : Fin 2) * 2000 + 1 * (j 0).val = t.val * 2000 + (j 0).val; rw [e4]; omega
  · show win1_2.index t (1 : Fin 2) * 1152 + 1 * (j 1).val = (j 1).val; rw [e5]; omega

/-- An index of the output array is in point `t`'s block iff each coordinate is in the block's range on its axis. -/
theorem mem_blk1 (t : Fin cfg1.N) (i : S50000x1152.Idx) :
    i ∈ ((cfg1.win 2).blk t).view.set ↔ ∀ a : Fin 2, win1_2.index t a * S2000x1152.size a ≤ (i a).val
      ∧ (i a).val < win1_2.index t a * S2000x1152.size a + S2000x1152.size a := by
  show i ∈ ((View.whole main_v51).slice (win1_2.rect t)).set ↔ _
  rw [View.set_slice_whole, Rect.mem_set_unit]
  exact Iff.rfl

/-- The 25 blocks of 2000 rows cover the 50000 rows: row `r` is in the block of point `r / 2000`. -/
theorem cover1 (i : S50000x1152.Idx) :
    ∃ t : Fin cfg1.N, (cfg1.win 2).flush t = true ∧ i ∈ ((cfg1.win 2).blk t).view.set := by
  have hi0 : (i 0).val < 50000 := (i 0).isLt
  have hi1 : (i 1).val < 1152 := (i 1).isLt
  obtain ⟨t, ht⟩ : ∃ t : Fin cfg1.N, t.val = (i 0).val / 2000 :=
    ⟨⟨(i 0).val / 2000, (by omega : (i 0).val / 2000 < 25).trans_eq N1.symm⟩, rfl⟩
  obtain ⟨-, -, -, -, e4, e5⟩ := idx_facts1 t
  refine ⟨t, flush1_2 t, ?_⟩
  rw [mem_blk1]
  intro a
  match a with
  | ⟨0, _⟩ =>
    show win1_2.index t (0 : Fin 2) * 2000 ≤ (i 0).val ∧ (i 0).val < win1_2.index t (0 : Fin 2) * 2000 + 2000
    rw [e4, ht]; omega
  | ⟨1, _⟩ =>
    show win1_2.index t (1 : Fin 2) * 1152 ≤ (i 1).val ∧ (i 1).val < win1_2.index t (1 : Fin 2) * 1152 + 1152
    rw [e5]; omega

/-- Region 1: the second layer's product h · [root2 | W2]. -/
theorem region1_val (V : (c : Dev nD) → (b : Ref sig .tc) → Buf (Elt Ideal) ((c : Thread nD τ).loc b)) (c : Dev nD) :
    ((dat1 (F := Ideal) V c).arrAt 2 cfg1.N : S50000x1152.Idx → EReal)
      = mm (V c main_v47 : S50000x128.Idx → EReal) (V c main_v50 : S128x1152.Idx → EReal) := by
  exact (dat1 (F := Ideal) V c).arrAt_eq_of_cover 2
    (mm (V c main_v47 : S50000x128.Idx → EReal) (V c main_v50 : S128x1152.Idx → EReal))
    (fun t _ => flushed1_eq V c t) cover1

/-! ## Region 2 -/

/-- What a point of region 2 leaves in the output's buffer, at an entry: the sum over the 128 shared coordinates. -/
theorem out2_2_apply (x0 : Vec Ideal S2000x128 .f32) (x1 : Vec Ideal S128x128 .f32) (p : Fin 2000) (q : Fin 128) :
    (out2_2 x0 x1 : S2000x128.Idx → EReal) (ix2 p q)
      = ∑ k : Fin 128, (x0 : S2000x128.Idx → EReal) (ix2 p k) * (x1 : S128x128.Idx → EReal) (ix2 k q) := by
  unfold out2_2
  rw [View.canon_unit_zero hz]
  simp only [View.ld_unit_zero (S := S2000x128) hz, View.ld_unit_zero (S := S128x128) hz]
  unfold k2_pay1
  rw [shapeCast_self, shapeCast_self]
  exact matmul_narrow_apply _ _ p q

/-- The index maps of region 2, decided once over the 25 points: the left and the output windows move down one
    block of 2000 rows per point, the right window stays on the whole right array. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The region has 25 points. -/
theorem N2 : cfg2.N = 25 := by decide +kernel

/-- A block of 2000 rows times the whole right array is the same 2000 rows of the product: if the left block holds rows
    2000 r … 2000 r + 1999 of `A` and the right block is `B`, the entry (p, q) of what the point leaves is the
    entry (2000 r + p, q) of `A · B`. -/
theorem block2_prod (A : S50000x128.Idx → EReal) (B : S128x128.Idx → EReal)
    (x0 : Vec Ideal S2000x128 .f32) (x1 : Vec Ideal S128x128 .f32) (r : ℕ)
    (h0 : ∀ (y : S2000x128.Idx) (i : S50000x128.Idx), (i 0).val = r * 2000 + (y 0).val → (i 1).val = (y 1).val →
      (x0 : S2000x128.Idx → EReal) y = A i)
    (h1 : ∀ y : S128x128.Idx, (x1 : S128x128.Idx → EReal) y = B y)
    (y : S2000x128.Idx) (i : S50000x128.Idx) (hi0 : (i 0).val = r * 2000 + (y 0).val) (hi1 : (i 1).val = (y 1).val) :
    (out2_2 x0 x1 : S2000x128.Idx → EReal) y = mm A B i := by
  obtain ⟨p, q, rfl⟩ : ∃ (p : Fin 2000) (q : Fin 128), y = ix2 p q := ⟨y 0, y 1, eq_ix2 y⟩
  obtain ⟨n, m, rfl⟩ : ∃ (n : Fin 50000) (m : Fin 128), i = ix2 n m := ⟨i 0, i 1, eq_ix2 i⟩
  obtain rfl : m = q := Fin.ext hi1
  rw [out2_2_apply, mm_apply]
  refine Finset.sum_congr rfl fun k _ => ?_
  rw [h0 (ix2 p k) (ix2 n k) hi0 rfl, h1]

/-- The left window's block at point `t` is rows 2000 t … 2000 t + 1999 of the left array. -/
theorem iblk2_0_apply (V : (c : Dev nD) → (b : Ref sig .tc) → Buf (Elt Ideal) ((c : Thread nD τ).loc b)) (c : Dev nD) (t : Fin cfg2.N)
    (y : S2000x128.Idx) (i : S50000x128.Idx) (hi0 : (i 0).val = t.val * 2000 + (y 0).val) (hi1 : (i 1).val = (y 1).val) :
    (iblk2 V c 0 t : Vec Ideal S2000x128 .f32) y = (V c main_v91 : S50000x128.Idx → EReal) i := by
  obtain ⟨e0, e1, -⟩ := idx_facts2 t
  unfold iblk2
  rw [View.read_apply]
  show V c main_v91 _ = V c main_v91 _
  congr 1
  funext a
  apply Fin.ext
  match a with
  | ⟨0, _⟩ => show win2_0.index t (0 : Fin 2) * 2000 + 1 * (y 0).val = (i 0).val; rw [e0, hi0]; omega
  | ⟨1, _⟩ => show win2_0.index t (1 : Fin 2) * 128 + 1 * (y 1).val = (i 1).val; rw [e1, hi1]; omega

/-- The right window's block at every point is the whole right array. -/
theorem iblk2_1_apply (V : (c : Dev nD) → (b : Ref sig .tc) → Buf (Elt Ideal) ((c : Thread nD τ).loc b)) (c : Dev nD) (t : Fin cfg2.N) (y : S128x128.Idx) :
    (iblk2 V c 1 t : Vec Ideal S128x128 .f32) y = (V c main_v94 : S128x128.Idx → EReal) y := by
  obtain ⟨-, -, e2, e3, -⟩ := idx_facts2 t
  unfold iblk2
  rw [View.read_apply]
  show V c main_v94 _ = V c main_v94 _
  congr 1
  funext a
  apply Fin.ext
  match a with
  | ⟨0, _⟩ => show win2_1.index t (0 : Fin 2) * 128 + 1 * (y 0).val = (y 0).val; rw [e2]; omega
  | ⟨1, _⟩ => show win2_1.index t (1 : Fin 2) * 128 + 1 * (y 1).val = (y 1).val; rw [e3]; omega

/-- What point `t` writes back is block `t` of the product of the two arrays as the region finds them. -/
theorem flushed2_eq (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal)
      (mm (V c main_v91 : S50000x128.Idx → EReal) (V c main_v94 : S128x128.Idx → EReal)) := by
  show (cfg2.win 2).cut (grid2.coords t) ((dat2 V c).after 2 t) = _
  rw [after2_2]
  obtain ⟨-, -, -, -, e4, e5⟩ := idx_facts2 t
  funext j
  show (out2_2 (iblk2 V c 0 t) (iblk2 V c 1 t) : S2000x128.Idx → EReal) j
    = mm (V c main_v91 : S50000x128.Idx → EReal) (V c main_v94 : S128x128.Idx → EReal) (((cfg2.win 2).blk t).view.emb j)
  refine block2_prod (V c main_v91) (V c main_v94) (iblk2 V c 0 t) (iblk2 V c 1 t) t.val
    (fun y i h0 h1 => iblk2_0_apply V c t y i h0 h1) (fun y => iblk2_1_apply V c t y) j (((cfg2.win 2).blk t).view.emb j) ?_ ?_
  · show win2_2.index t (0 : Fin 2) * 2000 + 1 * (j 0).val = t.val * 2000 + (j 0).val; rw [e4]; omega
  · show win2_2.index t (1 : Fin 2) * 128 + 1 * (j 1).val = (j 1).val; rw [e5]; omega

/-- An index of the output array is in point `t`'s block iff each coordinate is in the block's range on its axis. -/
theorem mem_blk2 (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v95).slice (win2_2.rect t)).set ↔ _
  rw [View.set_slice_whole, Rect.mem_set_unit]
  exact Iff.rfl

/-- The 25 blocks of 2000 rows cover the 50000 rows: row `r` is in the block of point `r / 2000`. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, (by omega : (i 0).val / 2000 < 25).trans_eq N2.symm⟩, rfl⟩
  obtain ⟨-, -, -, -, e4, e5⟩ := idx_facts2 t
  refine ⟨t, flush2_2 t, ?_⟩
  rw [mem_blk2]
  intro a
  match a with
  | ⟨0, _⟩ =>
    show win2_2.index t (0 : Fin 2) * 2000 ≤ (i 0).val ∧ (i 0).val < win2_2.index t (0 : Fin 2) * 2000 + 2000
    rw [e4, ht]; omega
  | ⟨1, _⟩ =>
    show win2_2.index t (1 : Fin 2) * 128 ≤ (i 1).val ∧ (i 1).val < win2_2.index t (1 : Fin 2) * 128 + 128
    rw [e5]; omega

/-- Region 2: the head's product h2 · (Wc padded to 128 columns). -/
theorem region2_val (V : (c : Dev nD) → (b : Ref sig .tc) → Buf (Elt Ideal) ((c : Thread nD τ).loc b)) (c : Dev nD) :
    ((dat2 (F := Ideal) V c).arrAt 2 cfg2.N : S50000x128.Idx → EReal)
      = mm (V c main_v91 : S50000x128.Idx → EReal) (V c main_v94 : S128x128.Idx → EReal) := by
  exact (dat2 (F := Ideal) V c).arrAt_eq_of_cover 2
    (mm (V c main_v91 : S50000x128.Idx → EReal) (V c main_v94 : S128x128.Idx → EReal))
    (fun t _ => flushed2_eq V c t) cover2

end Cert.KernelIdeal.Hand

end
-- ==== Proof.LibGather.lean ====
/-
  How the host's row gather reads at an index.

  A gather of whole rows reads the operand at the row its start word names (read signed, a negative word to row 0,
  a word past the end cut to the last row); with two start words per update it names a row and a second coordinate
  the same way.
-/
import Idealize.ShloMosaic.PureOps.Ideal
import Idealize.ShloMosaic.PureOps.Ideal.Laws
import Idealize.ShloMosaic.Lib.ValueIdx

noncomputable section

namespace Cert.Rgcn.Lib

open Idealize.ShloMosaic Idealize.ShloMosaic.ValueIdx

/-- Rows gathered by one start word each. -/
theorem gather_rows_apply {α : Type} {N C E : Nat} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ 32) (e : Fin E) (c : Fin C) :
    Host.gather d x idx (ix2 e c)
      = x (ix2 (⟨min (idx (ix2 e (0 : Fin 1))).toInt.toNat (N - 1), by omega⟩ : Fin N) c) := by
  -- the record's fields are the printed lists: name them and compute on the literal record
  obtain ⟨od, cd, ob, sb, sm, iv, ss, wf⟩ := d
  simp only at h1 h2 h3 h4 h5 h6 h7
  subst h1 h2 h3 h4 h5 h6 h7
  unfold Host.gather
  congr 1
  funext a
  refine Fin.ext ?_
  match a with
  | ⟨0, _⟩ =>
    -- the row axis: collapsed and start-indexed, so the coordinate is the clamped start alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    -- the start word of update e sits at [e, 0]: the batch coordinate e, component 0 on the index vector's axis
    have hsi : GatherDims.siIdx (⟨[1], [0], [], [], [0], 1, ![1, C], wf⟩ :
          GatherDims ⟨2, ![N, C]⟩ ⟨2, ![E, 1]⟩ ⟨2, ![E, C]⟩) (ix2 e c)
        ⟨List.idxOf (0 : Fin 2) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column axis: neither collapsed nor start-indexed, so the coordinate is the offset c alone
    show GatherDims.start _ _ idx 1 + GatherDims.batchCoord _ _ 1 + GatherDims.offCoord _ _ 1 = c.val
    rw [GatherDims.batchCoord_eq_zero _ _ _ List.not_mem_nil]
    unfold GatherDims.start
    rw [dif_neg (show (1 : Fin 2) ∉ ([0] : List (Fin 2)) by decide)]
    have hk : (1 : Fin 2) ∈ GatherDims.sKept (⟨[1], [0], [], [], [0], 1, ![1, C], wf⟩ :
          GatherDims ⟨2, ![N, C]⟩ ⟨2, ![E, 1]⟩ ⟨2, ![E, C]⟩) :=
      (GatherDims.mem_sKept _ _).mpr
        ⟨show (1 : Fin 2) ∉ ([0] : List (Fin 2)) by decide, List.not_mem_nil⟩
    unfold GatherDims.offCoord
    rw [dif_pos hk, Nat.add_zero, Nat.zero_add]
    rfl

/-- Rows of a rank-3 operand gathered by two start words each (the row and the second coordinate). -/
theorem gather_rows2_apply {α : Type} {N R C E : Nat} (hN : 0 < N) (hR : 0 < R)
    (d : GatherDims ⟨3, ![N, R, C]⟩ ⟨2, ![E, 2]⟩ ⟨2, ![E, C]⟩)
    (h1 : d.offsetDims = [1]) (h2 : d.collapsedSliceDims = [0, 1]) (h3 : d.operandBatchingDims = [])
    (h4 : d.startIndicesBatchingDims = []) (h5 : d.startIndexMap = [0, 1]) (h6 : d.indexVectorDim = 1)
    (h7 : d.sliceSizes = ![1, 1, C])
    (x : (⟨3, ![N, R, C]⟩ : Shape).Idx → α) (idx : IVec ⟨2, ![E, 2]⟩ 32) (e : Fin E) (c : Fin C) :
    Host.gather d x idx (ix2 e c)
      = x (ix3 (⟨min (idx (ix2 e (0 : Fin 2))).toInt.toNat (N - 1), by omega⟩ : Fin N)
               (⟨min (idx (ix2 e (1 : Fin 2))).toInt.toNat (R - 1), by omega⟩ : Fin R) c) := by
  -- the record's fields are the printed lists: name them and compute on the literal record
  obtain ⟨od, cd, ob, sb, sm, iv, ss, wf⟩ := d
  simp only at h1 h2 h3 h4 h5 h6 h7
  subst h1 h2 h3 h4 h5 h6 h7
  unfold Host.gather
  congr 1
  funext a
  refine Fin.ext ?_
  match a with
  | ⟨0, _⟩ =>
    -- the row axis: collapsed, its start the first word of the update's pair, at [e, 0]
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1
        (show (0 : Fin 3) ∈ ([0, 1] : List (Fin 3)) by decide))]
    simp only [Nat.add_zero]
    unfold GatherDims.start
    rw [dif_pos (show (0 : Fin 3) ∈ ([0, 1] : List (Fin 3)) by decide)]
    have hsi : GatherDims.siIdx (⟨[1], [0, 1], [], [], [0, 1], 1, ![1, 1, C], wf⟩ :
          GatherDims ⟨3, ![N, R, C]⟩ ⟨2, ![E, 2]⟩ ⟨2, ![E, C]⟩) (ix2 e c)
        ⟨List.idxOf (0 : Fin 3) [0, 1], List.idxOf_lt_length_iff.2 (by decide)⟩ = ix2 e (0 : Fin 2) := by
      funext b; refine Fin.ext ?_
      match b with
      | ⟨0, _⟩ => rfl
      | ⟨1, _⟩ => rfl
    rw [hsi]
    rfl
  | ⟨1, _⟩ =>
    -- the second axis: collapsed, its start the second word of the pair, at [e, 1]
    show GatherDims.start _ _ idx 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1
        (show (1 : Fin 3) ∈ ([0, 1] : List (Fin 3)) by decide))]
    simp only [Nat.add_zero]
    unfold GatherDims.start
    rw [dif_pos (show (1 : Fin 3) ∈ ([0, 1] : List (Fin 3)) by decide)]
    have hsi : GatherDims.siIdx (⟨[1], [0, 1], [], [], [0, 1], 1, ![1, 1, C], wf⟩ :
          GatherDims ⟨3, ![N, R, C]⟩ ⟨2, ![E, 2]⟩ ⟨2, ![E, C]⟩) (ix2 e c)
        ⟨List.idxOf (1 : Fin 3) [0, 1], List.idxOf_lt_length_iff.2 (by decide)⟩ = ix2 e (1 : Fin 2) := by
      funext b; refine Fin.ext ?_
      match b with
      | ⟨0, _⟩ => rfl
      | ⟨1, _⟩ => rfl
    rw [hsi]
    rfl
  | ⟨2, _⟩ =>
    -- the last axis: neither collapsed nor start-indexed, so the coordinate is the offset c alone
    show GatherDims.start _ _ idx 2 + GatherDims.batchCoord _ _ 2 + GatherDims.offCoord _ _ 2 = c.val
    rw [GatherDims.batchCoord_eq_zero _ _ _ List.not_mem_nil]
    unfold GatherDims.start
    rw [dif_neg (show (2 : Fin 3) ∉ ([0, 1] : List (Fin 3)) by decide)]
    have hk : (2 : Fin 3) ∈ GatherDims.sKept (⟨[1], [0, 1], [], [], [0, 1], 1, ![1, 1, C], wf⟩ :
          GatherDims ⟨3, ![N, R, C]⟩ ⟨2, ![E, 2]⟩ ⟨2, ![E, C]⟩) :=
      (GatherDims.mem_sKept _ _).mpr
        ⟨show (2 : Fin 3) ∉ ([0, 1] : List (Fin 3)) by decide, List.not_mem_nil⟩
    unfold GatherDims.offCoord
    rw [dif_pos hk, Nat.add_zero, Nat.zero_add]
    rfl

end Cert.Rgcn.Lib

end
-- ==== Proof.LibScatter.lean ====
/-
  How the host's accumulating scatter reads at an index, over the extended reals.

  An accumulating scatter of rows leaves at (n, c) the operand's element plus the sum of the updates' column c over
  the update rows whose start word IS n as a signed integer (a start word outside the operand drops its row); of
  scalars, the same without the column.

  The road: with one start word per update row, sent to the operand's axis 0, and the updates' axis 1 (if any) the
  window on the operand's axis 1, update index (e, c') starts at (word e, 0) and has window coordinate (0, c'), so it
  lands at (word e, c') when 0 ≤ word e < N and nowhere otherwise. The update indices that land at (n, c) are then
  exactly the (e, c) with word e = n, and the sum over them is re-indexed by e.
-/
import Idealize.ShloMosaic.PureOps.Ideal
import Idealize.ShloMosaic.PureOps.Ideal.Laws
import Idealize.ShloMosaic.Lib.ValueIdx

noncomputable section

namespace Cert.Rgcn.Lib

open Idealize.ShloMosaic Idealize.ShloMosaic.ValueIdx

/-! ## Rows: operand (N, C), one start word per update row, updates (E, C) -/

section Rows

variable {N C E : Nat} (d : ScatterDims ⟨2, ![N, C]⟩ ⟨2, ![E, 1]⟩ ⟨2, ![E, C]⟩)
  (h1 : d.updateWindowDims = [1]) (h2 : d.insertedWindowDims = [0]) (h3 : d.scatterDimsToOperandDims = [0])
  (h4 : d.indexVectorDim = 1)

include h1 h2 h3 h4

/-- On the operand's axis 0 the window of update index `j` starts at the start word of `j`'s row, read signed. -/
theorem rows_start0 (idx : IVec ⟨2, ![E, 1]⟩ 32) (j : (⟨2, ![E, C]⟩ : Shape).Idx) :
    d.start j idx 0 = (idx (ix2 (j 0) (0 : Fin 1))).toInt := by
  obtain ⟨uw, iw, sd, iv, wf⟩ := d
  dsimp only at h1 h2 h3 h4
  subst h1 h2 h3 h4
  unfold ScatterDims.start
  rw [dif_pos (show (0 : Fin 2) ∈ ([0] : List (Fin 2)) by decide)]
  congr 2
  funext b
  match b with
  | ⟨0, _⟩ => rfl
  | ⟨1, _⟩ => rfl

/-- On the operand's axis 1, which no start word names, the window starts at 0. -/
theorem rows_start1 (idx : IVec ⟨2, ![E, 1]⟩ 32) (j : (⟨2, ![E, C]⟩ : Shape).Idx) :
    d.start j idx 1 = 0 := by
  obtain ⟨uw, iw, sd, iv, wf⟩ := d
  dsimp only at h1 h2 h3 h4
  subst h1 h2 h3 h4
  unfold ScatterDims.start
  rw [dif_neg (show (1 : Fin 2) ∉ ([0] : List (Fin 2)) by decide)]

/-- The operand's axis 0 is an inserted axis: the window coordinate on it is 0. -/
theorem rows_window0 (j : (⟨2, ![E, C]⟩ : Shape).Idx) : d.window j 0 = 0 := by
  obtain ⟨uw, iw, sd, iv, wf⟩ := d
  dsimp only at h1 h2 h3 h4
  subst h1 h2 h3 h4
  unfold ScatterDims.window
  exact dif_neg (show (0 : Fin 2) ∉ List.filter (fun a => decide (a ∉ ([0] : List (Fin 2)))) (List.finRange 2) by decide)

/-- The window coordinate on the operand's axis 1 is the update index's column. -/
theorem rows_window1 (j : (⟨2, ![E, C]⟩ : Shape).Idx) : d.window j 1 = (j 1).val := by
  obtain ⟨uw, iw, sd, iv, wf⟩ := d
  dsimp only at h1 h2 h3 h4
  subst h1 h2 h3 h4
  unfold ScatterDims.window
  exact (dif_pos (show (1 : Fin 2) ∈ List.filter (fun a => decide (a ∉ ([0] : List (Fin 2)))) (List.finRange 2) by decide)).trans rfl

/-- Update index `j` lands at (n, c) exactly when its row's start word is n as a signed integer and its column is c. -/
theorem rows_resultIdx?_eq_some (idx : IVec ⟨2, ![E, 1]⟩ 32) (j : (⟨2, ![E, C]⟩ : Shape).Idx) (n : Fin N) (c : Fin C) :
    d.resultIdx? j idx = some (ix2 n c) ↔ (idx (ix2 (j 0) (0 : Fin 1))).toInt = (n.val : Int) ∧ j 1 = c := by
  have s0 := rows_start0 d h1 h2 h3 h4 idx j
  have s1 := rows_start1 d h1 h2 h3 h4 idx j
  have w0 := rows_window0 d h1 h2 h3 h4 j
  have w1 := rows_window1 d h1 h2 h3 h4 j
  have hn : n.val < N := n.isLt
  have hc : c.val < C := c.isLt
  have hj : (j 1).val < C := (j 1).isLt
  unfold ScatterDims.resultIdx?
  constructor
  · intro h
    split at h
    · rename_i hall
      have h' := Option.some.inj h
      have e0 : (d.start j idx 0 + (d.window j 0 : Int)).toNat = n.val := congrArg Fin.val (congrFun h' 0)
      have e1 : (d.start j idx 1 + (d.window j 1 : Int)).toNat = c.val := congrArg Fin.val (congrFun h' 1)
      have b0 : 0 ≤ d.start j idx 0 + (d.window j 0 : Int) := (hall 0).1
      rw [s0, w0] at e0 b0
      rw [s1, w1] at e1
      refine ⟨by omega, Fin.ext (by omega)⟩
    · exact absurd h (by simp)
  · rintro ⟨ht, hjc⟩
    have hjc' : (j 1).val = c.val := congrArg Fin.val hjc
    have hall : ∀ a, 0 ≤ d.start j idx a + (d.window j a : Int) ∧
        d.start j idx a + (d.window j a : Int) < ((⟨2, ![N, C]⟩ : Shape).size a : Int) := by
      intro a
      match a with
      | ⟨0, _⟩ =>
        show 0 ≤ d.start j idx 0 + (d.window j 0 : Int) ∧ d.start j idx 0 + (d.window j 0 : Int) < (N : Int)
        rw [s0, w0, ht]; omega
      | ⟨1, _⟩ =>
        show 0 ≤ d.start j idx 1 + (d.window j 1 : Int) ∧ d.start j idx 1 + (d.window j 1 : Int) < (C : Int)
        rw [s1, w1]; omega
    rw [dif_pos hall]
    congr 1
    funext a
    match a with
    | ⟨0, _⟩ =>
      apply Fin.ext
      show (d.start j idx 0 + (d.window j 0 : Int)).toNat = n.val
      rw [s0, w0, ht]; omega
    | ⟨1, _⟩ =>
      apply Fin.ext
      show (d.start j idx 1 + (d.window j 1 : Int)).toNat = c.val
      rw [s1, w1]; omega

end Rows

/-- Rows accumulated by one start word each. -/
theorem scatterAdd_rows_apply {N C E : Nat}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![E, 1]⟩ 32)
    (upd : (⟨2, ![E, C]⟩ : Shape).Idx → EReal) (n : Fin N) (c : Fin C) :
    Ideal.hostScatterAdd d x idx upd (ix2 n c)
      = x (ix2 n c) + ∑ e ∈ Finset.univ.filter (fun e : Fin E => (idx (ix2 e (0 : Fin 1))).toInt = (n.val : Int)),
          upd (ix2 e c) := by
  unfold Ideal.hostScatterAdd
  congr 1
  refine Finset.sum_nbij' (fun j => j 0) (fun e => ix2 e c) ?_ ?_ ?_ ?_ ?_
  · intro j hj
    have hj' := (Finset.mem_filter.1 hj).2
    exact Finset.mem_filter.2 ⟨Finset.mem_univ _, ((rows_resultIdx?_eq_some d h1 h2 h3 h4 idx j n c).1 hj').1⟩
  · intro e he
    have he' := (Finset.mem_filter.1 he).2
    exact Finset.mem_filter.2
      ⟨Finset.mem_univ _, (rows_resultIdx?_eq_some d h1 h2 h3 h4 idx (ix2 e c) n c).2 ⟨he', rfl⟩⟩
  · intro j hj
    rw [Finset.mem_filter] at hj
    have hjc := ((rows_resultIdx?_eq_some d h1 h2 h3 h4 idx j n c).1 hj.2).2
    rw [← hjc]; exact (eq_ix2 j).symm
  · intro e _
    rfl
  · intro j hj
    rw [Finset.mem_filter] at hj
    have hjc := ((rows_resultIdx?_eq_some d h1 h2 h3 h4 idx j n c).1 hj.2).2
    rw [← hjc]; exact congrArg upd (eq_ix2 j)

/-! ## Scalars: operand (N), one start word per update, updates (E) -/

section Vec

variable {N E : Nat} (d : ScatterDims ⟨1, ![N]⟩ ⟨2, ![E, 1]⟩ ⟨1, ![E]⟩)
  (h1 : d.updateWindowDims = []) (h2 : d.insertedWindowDims = [0]) (h3 : d.scatterDimsToOperandDims = [0])
  (h4 : d.indexVectorDim = 1)

include h1 h2 h3 h4

/-- On the operand's one axis the window of update index `j` starts at `j`'s start word, read signed. -/
theorem vec_start0 (idx : IVec ⟨2, ![E, 1]⟩ 32) (j : (⟨1, ![E]⟩ : Shape).Idx) :
    d.start j idx 0 = (idx (ix2 (j 0) (0 : Fin 1))).toInt := by
  obtain ⟨uw, iw, sd, iv, wf⟩ := d
  dsimp only at h1 h2 h3 h4
  subst h1 h2 h3 h4
  unfold ScatterDims.start
  rw [dif_pos (show (0 : Fin 1) ∈ ([0] : List (Fin 1)) by decide)]
  congr 2
  funext b
  match b with
  | ⟨0, _⟩ => rfl
  | ⟨1, _⟩ => rfl

/-- The operand's one axis is an inserted axis: the window coordinate on it is 0. -/
theorem vec_window0 (j : (⟨1, ![E]⟩ : Shape).Idx) : d.window j 0 = 0 := by
  obtain ⟨uw, iw, sd, iv, wf⟩ := d
  dsimp only at h1 h2 h3 h4
  subst h1 h2 h3 h4
  unfold ScatterDims.window
  exact dif_neg (show (0 : Fin 1) ∉ List.filter (fun a => decide (a ∉ ([0] : List (Fin 1)))) (List.finRange 1) by decide)

/-- Update index `j` lands at n exactly when its start word is n as a signed integer. -/
theorem vec_resultIdx?_eq_some (idx : IVec ⟨2, ![E, 1]⟩ 32) (j : (⟨1, ![E]⟩ : Shape).Idx) (n : Fin N) :
    d.resultIdx? j idx = some (ix1 n) ↔ (idx (ix2 (j 0) (0 : Fin 1))).toInt = (n.val : Int) := by
  have s0 := vec_start0 d h1 h2 h3 h4 idx j
  have w0 := vec_window0 d h1 h2 h3 h4 j
  have hn : n.val < N := n.isLt
  unfold ScatterDims.resultIdx?
  constructor
  · intro h
    split at h
    · rename_i hall
      have h' := Option.some.inj h
      have e0 : (d.start j idx 0 + (d.window j 0 : Int)).toNat = n.val := congrArg Fin.val (congrFun h' 0)
      have b0 : 0 ≤ d.start j idx 0 + (d.window j 0 : Int) := (hall 0).1
      rw [s0, w0] at e0 b0
      omega
    · exact absurd h (by simp)
  · intro ht
    have hall : ∀ a, 0 ≤ d.start j idx a + (d.window j a : Int) ∧
        d.start j idx a + (d.window j a : Int) < ((⟨1, ![N]⟩ : Shape).size a : Int) := by
      intro a
      match a with
      | ⟨0, _⟩ =>
        show 0 ≤ d.start j idx 0 + (d.window j 0 : Int) ∧ d.start j idx 0 + (d.window j 0 : Int) < (N : Int)
        rw [s0, w0, ht]; omega
    rw [dif_pos hall]
    congr 1
    funext a
    match a with
    | ⟨0, _⟩ =>
      apply Fin.ext
      show (d.start j idx 0 + (d.window j 0 : Int)).toNat = n.val
      rw [s0, w0, ht]; omega

end Vec

/-- Scalars accumulated by one start word each. -/
theorem scatterAdd_vec_apply {N E : Nat}
    (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ 32)
    (upd : (⟨1, ![E]⟩ : Shape).Idx → EReal) (n : Fin N) :
    Ideal.hostScatterAdd d x idx upd (ix1 n)
      = x (ix1 n) + ∑ e ∈ Finset.univ.filter (fun e : Fin E => (idx (ix2 e (0 : Fin 1))).toInt = (n.val : Int)),
          upd (ix1 e) := by
  unfold Ideal.hostScatterAdd
  congr 1
  refine Finset.sum_nbij' (fun j => j 0) (fun e => ix1 e) ?_ ?_ ?_ ?_ ?_
  · intro j hj
    have hj' := (Finset.mem_filter.1 hj).2
    exact Finset.mem_filter.2 ⟨Finset.mem_univ _, (vec_resultIdx?_eq_some d h1 h2 h3 h4 idx j n).1 hj'⟩
  · intro e he
    have he' := (Finset.mem_filter.1 he).2
    exact Finset.mem_filter.2 ⟨Finset.mem_univ _, (vec_resultIdx?_eq_some d h1 h2 h3 h4 idx (ix1 e) n).2 he'⟩
  · intro j _
    exact (eq_ix1 j).symm
  · intro e _
    rfl
  · intro j _
    exact congrArg upd (eq_ix1 j)

end Cert.Rgcn.Lib

end
-- ==== Proof.KernLayout.lean ====
/-
  How the kernel program's layout steps read at an index: the concatenated weight [root | W[0] | … | W[7]] holds
  root[k, h] in column h and W[r][k, h] in column 128 + 128 r + h; of a region's product, the root part plus bias
  reads columns 0..127, and the per-relation part, reshaped to [node, relation, column], reads column 128 + 128 r + h.
-/
import proofs.«412059_j1726576853586_1_alg».proof.Proof.KernTerms
import Idealize.ShloMosaic.Lib.ValueIdx
import Idealize.ShloMosaic.Lib.Pipeline.Value
import Idealize.ShloMosaic.Lib.ValueLayout

noncomputable section

namespace Cert.Rgcn.Kern

open Idealize.ShloMosaic Idealize.ShloMosaic.ValueIdx Cert.KernelIdeal Cert.KernelIdeal.Terms

variable [Cert.KernelIdeal.Facts]

/-- A column of the concatenated weight in the root's range. -/
def colRoot (h : Fin 128) : Fin 1152 := ⟨h.val, by have := h.isLt; omega⟩

/-- The column of the concatenated weight that holds W[r]'s column h. -/
def colRel (r : Fin 8) (h : Fin 128) : Fin 1152 := ⟨128 + 128 * r.val + h.val, by have := r.isLt; have := h.isLt; omega⟩

/-- The concatenated weight in the root's columns. -/
theorem catW_root (root : FVec Ideal S128x128 .f32) (W : FVec Ideal S8x128x128 .f32) (k h : Fin 128) :
    catW (F := Ideal) root W (ix2 k (colRoot h)) = root (ix2 k h) := by
  unfold catW
  -- a column below 128 falls in the first piece, at the same coordinates
  exact concatenate_pair_apply_left (t := S128x1152) (s₁ := S128x128) (s₂ := S128x1024) _ _ _ _ (ix2 k (colRoot h)) rfl (ix2 k h) (by
    intro b
    match b with
    | ⟨0, _⟩ => rfl
    | ⟨1, _⟩ => rfl)

/-- The concatenated weight in relation r's columns. -/
theorem catW_rel (root : FVec Ideal S128x128 .f32) (W : FVec Ideal S8x128x128 .f32) (k : Fin 128) (r : Fin 8) (h : Fin 128) :
    catW (F := Ideal) root W (ix2 k (colRel r h)) = W (ix3 r k h) := by
  have hr := r.isLt
  have hh := h.isLt
  have hk := k.isLt
  unfold catW
  -- column 128 + 128 r + h falls in the second piece, at column 128 r + h
  refine (concatenate_pair_apply_right (t := S128x1152) (s₁ := S128x128) (s₂ := S128x1024) _ _ _ _ (ix2 k (colRel r h)) rfl rfl
    (ix2 k (⟨128 * r.val + h.val, by omega⟩ : Fin 1024)) (by
      intro b hb
      match b with
      | ⟨0, _⟩ => rfl
      | ⟨1, _⟩ => exact absurd rfl hb) (by
      show 128 * r.val + h.val + 128 = 128 + 128 * r.val + h.val; omega)).trans ?_
  -- the reshape keeps the row-major position: (k, 128 r + h) of [128, 1024] is (k, r, h) of [128, 8, 128]
  refine (shapeCast_apply _ _ (ix2 k (⟨128 * r.val + h.val, by omega⟩ : Fin 1024)) (ix3 k r h) (by
    rw [Shape.rowMajor_val_three, Shape.rowMajor_val_two]
    show (k.val * 8 + r.val) * 128 + h.val = k.val * 1024 + (128 * r.val + h.val); omega)).trans ?_
  -- the transpose swaps the first two axes
  exact transpose_apply _ _ _ (ix3 k r h) (ix3 r k h) (by
    intro b
    match b with
    | ⟨0, _⟩ => rfl
    | ⟨1, _⟩ => rfl
    | ⟨2, _⟩ => rfl)

/-- The root part of a region's product plus the bias, at (n, h). -/
theorem rootOutT_apply (xcat : FVec Ideal S50000x1152 .f32) (b : FVec Ideal S128 .f32) (n : Fin 50000) (h : Fin 128) :
    rootOutT (F := Ideal) xcat b (ix2 n h) = xcat (ix2 n (colRoot h)) + b (ix1 h) := by
  unfold rootOutT
  rw [addf_apply]
  congr 1
  · -- the slice at offset (0, 0)
    exact extractStridedSlice_apply _ _ _ (ix2 n h) (ix2 n (colRoot h)) (by
      intro a
      match a with
      | ⟨0, _⟩ => show n.val = 0 + n.val; omega
      | ⟨1, _⟩ => show h.val = 0 + h.val; omega)
  · -- the bias laid along the rows: first as one row, then down every row
    refine (broadcastInDim_apply _ _ _ (ix2 n h) (ix2 (0 : Fin 1) h) (by
      intro a
      match a with
      | ⟨0, _⟩ => rfl
      | ⟨1, _⟩ => rfl)).trans ?_
    exact broadcastInDim_apply _ _ _ (ix2 (0 : Fin 1) h) (ix1 h) (by
      intro a
      match a with
      | ⟨0, _⟩ => rfl)

/-- The per-relation part of a region's product, at (n, r, h). -/
theorem relOutT_apply (xcat : FVec Ideal S50000x1152 .f32) (n : Fin 50000) (r : Fin 8) (h : Fin 128) :
    relOutT (F := Ideal) xcat (ix3 n r h) = xcat (ix2 n (colRel r h)) := by
  have hr := r.isLt
  have hh := h.isLt
  unfold relOutT
  -- the reshape keeps the row-major position: (n, r, h) of [50000, 8, 128] is (n, 128 r + h) of [50000, 1024]
  refine (shapeCast_apply _ _ (ix3 n r h) (ix2 n (⟨128 * r.val + h.val, by omega⟩ : Fin 1024)) (by
    rw [Shape.rowMajor_val_three, Shape.rowMajor_val_two]
    show n.val * 1024 + (128 * r.val + h.val) = (n.val * 8 + r.val) * 128 + h.val; omega)).trans ?_
  -- the slice at offset (0, 128)
  exact extractStridedSlice_apply _ _ _ (ix2 n (⟨128 * r.val + h.val, by omega⟩ : Fin 1024)) (ix2 n (colRel r h)) (by
    intro a
    match a with
    | ⟨0, _⟩ => show n.val = 0 + n.val; omega
    | ⟨1, _⟩ => show 128 + 128 * r.val + h.val = 128 + (128 * r.val + h.val); omega)

end Cert.Rgcn.Kern

end
-- ==== Proof.KernIdx.lean ====
/-
  The combined segment word: for a destination word in 0..49999 and a relation word in 0..7 (read signed), 8·dst + relation
  does not wrap in 32 bits, and it is 8 n + r (n below 50000, r below 8) exactly when the destination is n and the relation
  word is r.
-/
import proofs.«412059_j1726576853586_1_alg».proof.Proof.Spec

noncomputable section

namespace Cert.Rgcn.Kern

open Idealize.ShloMosaic Cert.Rgcn

/-- The combined word names the pair (n, r) exactly when the destination is n and the relation word is r. -/
theorem seg_iff (d t : BitVec 32) (hd : 0 ≤ d.toInt ∧ d.toInt < 50000) (ht : 0 ≤ t.toInt ∧ t.toInt < 8)
    (n : Fin 50000) (r : Fin 8) :
    (d * 8#32 + t).toInt = ((8 * n.val + r.val : ℕ) : Int) ↔ d.toInt = (n.val : Int) ∧ t = BitVec.ofNat 32 r.val := by
  obtain ⟨hd0, hd1⟩ := hd
  obtain ⟨ht0, ht1⟩ := ht
  have hn := n.isLt
  have hr := r.isLt
  -- a word that reads nonnegative signed reads the same unsigned
  have hd2 : 2 * d.toNat < 2 ^ 32 := BitVec.toInt_pos_iff.1 hd0
  have hdE : d.toInt = (d.toNat : Int) := BitVec.toInt_eq_toNat_of_lt hd2
  have ht2 : 2 * t.toNat < 2 ^ 32 := BitVec.toInt_pos_iff.1 ht0
  have htE : t.toInt = (t.toNat : Int) := BitVec.toInt_eq_toNat_of_lt ht2
  have hdn : d.toNat < 50000 := by omega
  have htn : t.toNat < 8 := by omega
  -- 8 · dst + relation stays below 400000: no wrap, and the sum reads the same signed and unsigned
  have h8 : (8#32 : BitVec 32).toNat = 8 := rfl
  have hs : (d * 8#32 + t).toNat = d.toNat * 8 + t.toNat := by
    rw [BitVec.toNat_add, BitVec.toNat_mul, h8]
    omega
  have hsE : (d * 8#32 + t).toInt = ((d * 8#32 + t).toNat : Int) :=
    BitVec.toInt_eq_toNat_of_lt (by rw [hs]; omega)
  rw [hsE, hs, hdE]
  constructor
  · -- quotient and remainder by 8 are unique
    intro h
    have h' : d.toNat * 8 + t.toNat = 8 * n.val + r.val := by omega
    refine ⟨by omega, BitVec.eq_of_toNat_eq ?_⟩
    rw [BitVec.toNat_ofNat]
    omega
  · rintro ⟨h1, h2⟩
    have h3 : t.toNat = r.val := by
      rw [h2, BitVec.toNat_ofNat]
      omega
    omega

end Cert.Rgcn.Kern

end
-- ==== Proof.KernRel.lean ====
/-
  A relation word in range is its own relation: the word r (below 8) is not negative, so wrapping leaves it alone, and cut
  to the eight relations it is r.
-/
import proofs.«412059_j1726576853586_1_alg».proof.Proof.Spec

noncomputable section

namespace Cert.Rgcn.Kern

open Idealize.ShloMosaic Cert.Rgcn

/-- The relation a word r below 8 names, after the wrap of negative words, is r. -/
theorem relOf_wrap (r : Fin 8) : relOf (wrapNeg 8#32 (BitVec.ofNat 32 r.val)) = r := by
  revert r
  decide

end Cert.Rgcn.Kern

end
-- ==== Proof.KernVal.lean ====
/-
  The kernel program's host terms around its matrix products are the network: with a region's output the product
  x · [root | W[0] | … | W[7]], the root part plus bias and the per-relation part read back as x·root + b and x·W[r];
  a message is the source row's product with its edge's relation; the combined segment word 8·dst + relation names the
  pair (node, relation) exactly when the destination lies in 0..49999 and the relation in 0..7, so the scattered sums
  and counts run over the edges of that node and relation; the means summed over the relations and relu give the layer
  function.
-/
import proofs.«412059_j1726576853586_1_alg».proof.Proof.KernTerms
import proofs.«412059_j1726576853586_1_alg».proof.Proof.Spec
import proofs.«412059_j1726576853586_1_alg».proof.Proof.LibGather
import proofs.«412059_j1726576853586_1_alg».proof.Proof.LibScatter
import proofs.«412059_j1726576853586_1_alg».proof.Proof.KernLayout
import proofs.«412059_j1726576853586_1_alg».proof.Proof.KernIdx
import proofs.«412059_j1726576853586_1_alg».proof.Proof.KernRel
import Idealize.ShloMosaic.Lib.ValueLayout
import Idealize.ShloMosaic.Lib.IdealHost

noncomputable section

namespace Cert.Rgcn.Kern.Val

open Idealize.ShloMosaic Idealize.ShloMosaic.ValueIdx Cert.KernelIdeal Cert.KernelIdeal.Terms Cert.Rgcn Cert.Rgcn.Kern

variable [Cert.KernelIdeal.Facts]

/-! ## The integer words read at an edge -/

/-- Row 0 of the edge array at edge e. -/
theorem srcV_apply (ei : IVec S2x500000 32) (e : Fin 500000) : srcV ei (ix1 e) = ei (ix2 (0 : Fin 2) e) := by
  unfold srcV
  exact (shapeCast_1a_a_apply _ _ e).trans (slice2_axis0_apply 0 ei _ (0 : Fin 1) e (0 : Fin 2) rfl)

/-- Row 1 of the edge array at edge e. -/
theorem dstV_apply (ei : IVec S2x500000 32) (e : Fin 500000) : dstV ei (ix1 e) = ei (ix2 (1 : Fin 2) e) := by
  unfold dstV
  exact (shapeCast_1a_a_apply _ _ e).trans (slice2_axis0_apply 1 ei _ (0 : Fin 1) e (1 : Fin 2) rfl)

/-- The combined word at edge e is 8 · dst + relation, as 32-bit words. -/
theorem combV_apply (d et : IVec S500000 32) (e : Fin 500000) :
    combV d et (ix1 e) = d (ix1 e) * 8#32 + et (ix1 e) := by
  unfold combV
  show IntOp.addi (IntOp.muli (d (ix1 e)) (broadcastInDim S500000 ![] _ (constantI S_ 32 8#32) (ix1 e))) (et (ix1 e)) = _
  rw [broadcastInDim_scalar_apply]
  rfl

/-- A signed comparison with zero selects the wrapped word: the select is wrapNeg. -/
theorem select_slt_zero (n w : BitVec 32) :
    Scalar.select (IntOp.cmpi .slt w 0#32) (IntOp.addi w n) w = wrapNeg n w := by
  unfold wrapNeg Scalar.select IntOp.cmpi IntOp.addi
  by_cases hw : w.toInt < 0
  · have : w.slt 0#32 = true := by simp [BitVec.slt, hw]
    simp [this, hw]
  · have : w.slt 0#32 = false := by simp [BitVec.slt, hw]
    simp [this, hw]

/-- The wrapped source word at edge e. -/
theorem wrapSrcV_apply (s : IVec S500000 32) (e : Fin 500000) :
    wrapSrcV s (ix1 e) = wrapNeg 50000#32 (s (ix1 e)) := by
  unfold wrapSrcV
  rw [select_apply]
  show Scalar.select (IntOp.cmpi .slt (s (ix1 e)) (broadcastInDim S500000 ![] _ (constantI S_ 32 0#32) (ix1 e)))
    (IntOp.addi (s (ix1 e)) (broadcastInDim S500000 ![] _ (constantI S_ 32 50000#32) (ix1 e))) (s (ix1 e)) = _
  rw [broadcastInDim_scalar_apply, broadcastInDim_scalar_apply]
  exact select_slt_zero _ _

/-- The wrapped relation word at edge e. -/
theorem wrapTypV_apply (et : IVec S500000 32) (e : Fin 500000) :
    wrapTypV et (ix1 e) = wrapNeg 8#32 (et (ix1 e)) := by
  unfold wrapTypV
  rw [select_apply]
  show Scalar.select (IntOp.cmpi .slt (et (ix1 e)) (broadcastInDim S500000 ![] _ (constantI S_ 32 0#32) (ix1 e)))
    (IntOp.addi (et (ix1 e)) (broadcastInDim S500000 ![] _ (constantI S_ 32 8#32) (ix1 e))) (et (ix1 e)) = _
  rw [broadcastInDim_scalar_apply, broadcastInDim_scalar_apply]
  exact select_slt_zero _ _

/-- A vector laid as a column reads, at (e, 0), the vector at e. -/
theorem col_apply (v : IVec S500000 32) (e : Fin 500000) :
    broadcastInDim S500000x1 ![0] Facts₀.bcast_S500000_S500000x1_0 v (ix2 e (0 : Fin 1)) = v (ix1 e) :=
  broadcastInDim_apply _ _ v (ix2 e (0 : Fin 1)) (ix1 e) (fun a => by match a with | ⟨0, _⟩ => rfl)

/-- The gather's start words at edge e: the wrapped source word … -/
theorem idx2V_apply0 (s et : IVec S500000 32) (e : Fin 500000) :
    idx2V s et (ix2 e (0 : Fin 2)) = wrapSrcV s (ix1 e) := by
  unfold idx2V
  exact (concatenate_pair_apply_left (t := S500000x2) (s₁ := S500000x1) (s₂ := S500000x1) (1 : Fin 2) _ _ _ (ix2 e (0 : Fin 2)) rfl (ix2 e (0 : Fin 1))
    (fun b => by match b with | ⟨0, _⟩ => rfl | ⟨1, _⟩ => rfl)).trans (col_apply _ e)

/-- … and the wrapped relation word. -/
theorem idx2V_apply1 (s et : IVec S500000 32) (e : Fin 500000) :
    idx2V s et (ix2 e (1 : Fin 2)) = wrapTypV et (ix1 e) := by
  unfold idx2V
  refine (concatenate_pair_apply_right (t := S500000x2) (s₁ := S500000x1) (s₂ := S500000x1) (1 : Fin 2) _ _ _ (ix2 e (1 : Fin 2)) rfl rfl (ix2 e (0 : Fin 1)) ?_ rfl).trans (col_apply _ e)
  intro b hb
  match b with
  | ⟨0, _⟩ => rfl
  | ⟨1, _⟩ => exact absurd rfl hb

/-! ## The gather and the two scatters -/

/-- The message of edge e at column c: the row, of the relation the wrapped relation word names, of the node the
    wrapped source word names. -/
theorem msgT_apply (rel : FVec Ideal S50000x8x128 .f32) (s et : IVec S500000 32) (e : Fin 500000) (c : Fin 128) :
    msgT (F := Ideal) rel s et (ix2 e c)
      = rel (ix3 (nodeOf (wrapNeg 50000#32 (s (ix1 e)))) (relOf (wrapNeg 8#32 (et (ix1 e)))) c) := by
  unfold msgT
  rw [Lib.gather_rows2_apply (N := 50000) (R := 8) (C := 128) (E := 500000) (by decide) (by decide) _ rfl rfl rfl rfl rfl rfl rfl]
  simp only [idx2V_apply0, idx2V_apply1, wrapSrcV_apply, wrapTypV_apply]
  rfl

/-- At the extended reals the host's accumulating scatter is the exact sum of the updates that land on each element. -/
theorem scatterAdd_ideal {s si u : Shape} {w : Nat} {φ : FTy} (d : ScatterDims s si u) (x : FVec Ideal s φ) (idx : IVec si w)
    (upd : FVec Ideal u φ) : Host.scatterAdd d x idx upd = Ideal.hostScatterAdd d x idx upd := rfl

/-- The scattered sum at segment m, column c: the messages of the edges whose combined word is m. -/
theorem sumT_apply (msg : FVec Ideal S500000x128 .f32) (comb : IVec S500000 32) (m : Fin 400000) (c : Fin 128) :
    sumT (F := Ideal) msg comb (ix2 m c)
      = ∑ e ∈ Finset.univ.filter (fun e : Fin 500000 => (comb (ix1 e)).toInt = (m.val : Int)), msg (ix2 e c) := by
  unfold sumT
  rw [scatterAdd_ideal, Lib.scatterAdd_rows_apply (N := 400000) (C := 128) (E := 500000) _ rfl rfl rfl rfl,
    broadcastInDim_scalar_apply, constant_apply, Ideal.ofBits_zero_f32, zero_add]
  refine Finset.sum_congr (Finset.filter_congr fun e _ => ?_) fun e _ => rfl
  rw [col_apply]

/-- The scattered count at segment m: one per edge whose combined word is m. -/
theorem cntT_apply (comb : IVec S500000 32) (m : Fin 400000) :
    cntT (F := Ideal) comb (ix1 m)
      = ∑ _e ∈ Finset.univ.filter (fun e : Fin 500000 => (comb (ix1 e)).toInt = (m.val : Int)), (1 : EReal) := by
  unfold cntT
  rw [scatterAdd_ideal, Lib.scatterAdd_vec_apply (N := 400000) (E := 500000) _ rfl rfl rfl rfl,
    broadcastInDim_scalar_apply, constant_apply, Ideal.ofBits_zero_f32, zero_add]
  refine Finset.sum_congr (Finset.filter_congr fun e _ => ?_) fun e _ => ?_
  · rw [col_apply]
  · rw [broadcastInDim_scalar_apply, constant_apply, Ideal.ofBits_one_f32]

/-! ## The means summed over the relations -/

/-- The segment of node n and relation r in the row-major order of [50000, 8]. -/
def seg (n : Fin 50000) (r : Fin 8) : Fin 400000 := ⟨8 * n.val + r.val, by have := n.isLt; have := r.isLt; omega⟩

/-- The relation axis of [50000, 8, 128] reduces to [50000, 128]. -/
theorem red1 : S50000x8x128.Reduces [1] S50000x128 := by decide

/-- Over (n, h) the index with relation coordinate r is (n, r, h). -/
theorem red1_lift (n : Fin 50000) (h : Fin 128) (r : Fin 8) : red1.lift (ix2 n h) r = ix3 n r h := by
  funext c
  match c with
  | ⟨0, _⟩ => rfl
  | ⟨1, _⟩ => rfl
  | ⟨2, _⟩ => rfl

/-- The scattered sums reshaped to [node, relation, column]. -/
theorem sum3_apply (S : FVec Ideal S400000x128 .f32) (n : Fin 50000) (r : Fin 8) (h : Fin 128) :
    shapeCast S50000x8x128 S Facts₀.shapeCasts_S400000x128_S50000x8x128 (ix3 n r h) = S (ix2 (seg n r) h) :=
  shapeCast_apply S _ (ix3 n r h) (ix2 (seg n r) h) (by
    rw [Shape.rowMajor_val_three, Shape.rowMajor_val_two]
    show (8 * n.val + r.val) * 128 + h.val = (n.val * 8 + r.val) * 128 + h.val
    omega)

/-- The scattered counts reshaped to [node, relation]. -/
theorem cnt2_apply (C : FVec Ideal S400000 .f32) (n : Fin 50000) (r : Fin 8) :
    shapeCast S50000x8 C Facts₀.shapeCasts_S400000_S50000x8 (ix2 n r) = C (ix1 (seg n r)) :=
  shapeCast_apply C _ (ix2 n r) (ix1 (seg n r)) (by
    rw [Shape.rowMajor_val_two, Shape.rowMajor_val_one]
    show 8 * n.val + r.val = n.val * 8 + r.val
    omega)

/-- The divisor at (n, r, h): the count of (n, r), at least 1. -/
theorem den_apply (C : FVec Ideal S400000 .f32) (n : Fin 50000) (r : Fin 8) (h : Fin 128) :
    broadcastInDim S50000x8x128 ![0, 1, 2] Facts₀.bcast_S50000x8x1_S50000x8x128_0_1_2
        (broadcastInDim S50000x8x1 ![0, 1] Facts₀.bcast_S50000x8_S50000x8x1_0_1
          (maximumf (shapeCast S50000x8 C Facts₀.shapeCasts_S400000_S50000x8)
            (broadcastInDim S50000x8 ![] Facts₀.bcast_S_S50000x8 (constant (F := Ideal) S_ .f32 0x3F800000#32)))) (ix3 n r h)
      = max (C (ix1 (seg n r))) 1 := by
  rw [broadcastInDim_apply _ _ _ (ix3 n r h) (ix3 n r (0 : Fin 1))
      (fun a => by match a with | ⟨0, _⟩ => rfl | ⟨1, _⟩ => rfl | ⟨2, _⟩ => rfl),
    broadcastInDim_apply _ _ _ (ix3 n r (0 : Fin 1)) (ix2 n r)
      (fun a => by match a with | ⟨0, _⟩ => rfl | ⟨1, _⟩ => rfl),
    maximumf_apply, cnt2_apply, broadcastInDim_scalar_apply, constant_apply, Ideal.ofBits_one_f32]

/-- The aggregate at (n, h): the sum over the relations of the segment's sum over its count, the count at least 1. -/
theorem aggT_apply (xcat : FVec Ideal S50000x1152 .f32) (s d et : IVec S500000 32) (n : Fin 50000) (h : Fin 128) :
    aggT (F := Ideal) xcat s d et (ix2 n h)
      = ∑ r : Fin 8, Ideal.div (sumT (F := Ideal) (msgT (relOutT xcat) s et) (combV d et) (ix2 (seg n r) h))
          (max (cntT (F := Ideal) (combV d et) (ix1 (seg n r))) 1) := by
  unfold aggT
  rw [hostReduceAdd_apply, Ideal.hostReduceAdd_single _ red1, constant_apply, Ideal.ofBits_zero_f32, zero_add]
  refine Finset.sum_congr rfl ?_
  intro (r : Fin 8) _
  rw [red1_lift n h r, hostDivf_apply, sum3_apply, den_apply]

/-! ## The segments are the (node, relation) pairs, and a message is the source row's product with its relation -/

/-- With destinations in 0..49999 and relations in 0..7, the edges whose combined word is the segment of (n, r) are the
    edges into n that carry r. -/
theorem filter_seg (ei : IVec S2x500000 32) (et : IVec S500000 32)
    (hd : ∀ e : Fin 500000, 0 ≤ (dstWord ei e).toInt ∧ (dstWord ei e).toInt < 50000)
    (ht : ∀ e : Fin 500000, 0 ≤ (typWord et e).toInt ∧ (typWord et e).toInt < 8) (n : Fin 50000) (r : Fin 8) :
    Finset.univ.filter (fun e : Fin 500000 => (combV (dstV ei) et (ix1 e)).toInt = ((seg n r).val : Int))
      = edgesOf ei et n r := by
  unfold edgesOf
  refine Finset.filter_congr fun e _ => ?_
  rw [combV_apply, dstV_apply]
  exact seg_iff _ _ (hd e) (ht e) n r

/-- The message of an edge into n that carries r is its source row's product with W[r]. -/
theorem msg_edge (x : FVec Ideal S50000x128 .f32) (W : FVec Ideal S8x128x128 .f32) (root : FVec Ideal S128x128 .f32)
    (ei : IVec S2x500000 32) (et : IVec S500000 32) (n : Fin 50000) (r : Fin 8) (h : Fin 128) (e : Fin 500000)
    (he : e ∈ edgesOf ei et n r) :
    msgT (F := Ideal) (relOutT (F := Ideal) (mm x (catW (F := Ideal) root W))) (srcV ei) et (ix2 e h)
      = relProd x W (nodeOf (srcWord ei e)) r h := by
  have hte : et (ix1 e) = BitVec.ofNat 32 r.val := ((Finset.mem_filter.mp he).2).2
  rw [msgT_apply, srcV_apply, relOutT_apply, hte, relOf_wrap r, mm_apply]
  unfold relProd
  refine Finset.sum_congr rfl fun k _ => ?_
  rw [catW_rel]
  rfl

end Cert.Rgcn.Kern.Val

namespace Cert.Rgcn.Kern

open Idealize.ShloMosaic Idealize.ShloMosaic.ValueIdx Cert.KernelIdeal Cert.KernelIdeal.Terms Cert.Rgcn Cert.Rgcn.Kern.Val

variable [Cert.KernelIdeal.Facts]

/-- From a region's product with the concatenated weight to the layer function, for destinations and relations in range. -/
theorem layer_eq (x : FVec Ideal S50000x128 .f32) (W : FVec Ideal S8x128x128 .f32) (root : FVec Ideal S128x128 .f32)
    (b : FVec Ideal S128 .f32) (ei : IVec S2x500000 32) (et : IVec S500000 32)
    (hd : ∀ e : Fin 500000, 0 ≤ (dstWord ei e).toInt ∧ (dstWord ei e).toInt < 50000)
    (ht : ∀ e : Fin 500000, 0 ≤ (typWord et e).toInt ∧ (typWord et e).toInt < 8) :
    layerPostT (F := Ideal) (mm x (catW (F := Ideal) root W)) b ei et = layerVal x W root b ei et := by
  funext i
  obtain ⟨n, h, rfl⟩ : ∃ (n : Fin 50000) (h : Fin 128), i = ix2 n h := ⟨i 0, i 1, eq_ix2 i⟩
  rw [layerVal_apply]
  unfold layerPostT reluT layerAt
  rw [maximumf_apply, addf_apply, broadcastInDim_scalar_apply, constant_apply, Ideal.ofBits_zero_f32,
    rootOutT_apply, mm_apply, aggT_apply]
  have hroot : (∑ k : Fin 128, x (ix2 n k) * catW (F := Ideal) root W (ix2 k (colRoot h)))
      = ∑ k : Fin 128, x (ix2 n k) * root (ix2 k h) :=
    Finset.sum_congr rfl fun k _ => by rw [catW_root]
  have hagg : ∀ r : Fin 8,
      Ideal.div (sumT (F := Ideal) (msgT (F := Ideal) (relOutT (F := Ideal) (mm x (catW (F := Ideal) root W))) (srcV ei) et)
          (combV (dstV ei) et) (ix2 (seg n r) h))
        (max (cntT (F := Ideal) (combV (dstV ei) et) (ix1 (seg n r))) 1)
      = relMean x W ei et n r h := fun r => by
    unfold relMean
    rw [sumT_apply, cntT_apply, filter_seg ei et hd ht n r,
      Finset.sum_congr rfl fun e he => msg_edge x W root ei et n r h e he]
  rw [hroot, Finset.sum_congr rfl fun r _ => hagg r]

end Cert.Rgcn.Kern

end
-- ==== Proof.KernHead.lean ====
/-
  The kernel program's head: the head's weight sits in column 0 of a zero 128 × 128 matrix, so column 0 of the last
  region's product h · (padded weight) is the sum over k of h[n, k] · Wc[k, 0]; the tail keeps that column and adds the
  head's bias: the head function.

  The road: a replacing scatter is a fold over the update indices, each step rewriting the one element its update index
  lands on; read at an index that exactly one update index lands on, the fold is that update's element, wherever the
  index sits in the order. The padded weight's one window starts at (0, 0) (the start word is 0, read on the column axis)
  and both update axes are window axes, so update index (k, 0) lands at (k, 0) and nowhere else.
-/
import proofs.«412059_j1726576853586_1_alg».proof.Proof.KernTerms
import proofs.«412059_j1726576853586_1_alg».proof.Proof.Spec
import Idealize.ShloMosaic.Lib.ValueLayout

noncomputable section

namespace Cert.Rgcn.Kern

open Idealize.ShloMosaic Idealize.ShloMosaic.ValueIdx Cert.KernelIdeal Cert.KernelIdeal.Terms Cert.Rgcn

/-! ## A replacing scatter read where one update lands -/

/-- A replacing scatter, read at an index `i` that update index `j₀` lands on and no other does, is `upd j₀`. -/
theorem scatter_replace_apply {α : Type} {s si u : Shape} {w : Nat} (d : ScatterDims s si u)
    (x : s.Idx → α) (idx : IVec si w) (upd : u.Idx → α) (i : s.Idx) (j₀ : u.Idx)
    (h₀ : d.resultIdx? j₀ idx = some i) (hu : ∀ j, d.resultIdx? j idx = some i → j = j₀) :
    Host.scatter d (fun _ b => b) x idx upd i = upd j₀ := by
  unfold Host.scatter
  -- the invariant of the fold: either `j₀`'s position is still to come, or the element already is `upd j₀`
  have hmem : u.rowMajor j₀ ∈ List.finRange u.numel ∨ x i = upd j₀ := Or.inl (List.mem_finRange _)
  generalize List.finRange u.numel = l at hmem ⊢
  induction l generalizing x with
  | nil =>
    rcases hmem with h | h
    · exact absurd h List.not_mem_nil
    · exact h
  | cons n l ih =>
    rw [List.foldl_cons]
    apply ih
    beta_reduce
    cases hres : d.resultIdx? (u.rowMajor.symm n) idx with
    | none =>
      dsimp only
      rcases hmem with h | h
      · rcases List.mem_cons.1 h with h | h
        · rw [← h, Equiv.symm_apply_apply, h₀] at hres; cases hres
        · exact Or.inl h
      · exact Or.inr h
    | some i' =>
      dsimp only
      by_cases hi : i = i'
      · subst hi
        right
        rw [if_pos rfl, hu _ hres]
      · rw [if_neg hi]
        rcases hmem with h | h
        · rcases List.mem_cons.1 h with h | h
          · rw [← h, Equiv.symm_apply_apply, h₀] at hres; exact absurd (Option.some.inj hres) hi
          · exact Or.inl h
        · exact Or.inr h

/-! ## Where the padded weight's updates land -/

section Col

variable (d : ScatterDims S128x128 S1 S128x1)
  (h1 : d.updateWindowDims = [0, 1]) (h2 : d.insertedWindowDims = []) (h3 : d.scatterDimsToOperandDims = [1])
  (h4 : d.indexVectorDim = 0)

include h1 h2 h3 h4

/-- No start word names the row axis: the window starts at row 0. -/
theorem col_start0 (idx : IVec S1 32) (j : S128x1.Idx) : d.start j idx 0 = 0 := by
  obtain ⟨uw, iw, sd, iv, wf⟩ := d
  dsimp only at h1 h2 h3 h4
  subst h1 h2 h3 h4
  unfold ScatterDims.start
  rw [dif_neg (show (0 : Fin 2) ∉ ([1] : List (Fin 2)) by decide)]

/-- The one start word names the column axis; it is the zero word: the window starts at column 0. -/
theorem col_start1 (idx : IVec S1 32) (hidx : ∀ q, idx q = 0#32) (j : S128x1.Idx) : d.start j idx 1 = 0 := by
  obtain ⟨uw, iw, sd, iv, wf⟩ := d
  dsimp only at h1 h2 h3 h4
  subst h1 h2 h3 h4
  unfold ScatterDims.start
  rw [dif_pos (show (1 : Fin 2) ∈ ([1] : List (Fin 2)) by decide), hidx]
  rfl

/-- The window coordinate on the row axis is the update index's row. -/
theorem col_window0 (j : S128x1.Idx) : d.window j 0 = (j 0).val := by
  obtain ⟨uw, iw, sd, iv, wf⟩ := d
  dsimp only at h1 h2 h3 h4
  subst h1 h2 h3 h4
  unfold ScatterDims.window
  exact (dif_pos (show (0 : Fin 2) ∈ List.filter (fun a => decide (a ∉ ([] : List (Fin 2)))) (List.finRange 2) by decide)).trans rfl

/-- The window coordinate on the column axis is the update index's column. -/
theorem col_window1 (j : S128x1.Idx) : d.window j 1 = (j 1).val := by
  obtain ⟨uw, iw, sd, iv, wf⟩ := d
  dsimp only at h1 h2 h3 h4
  subst h1 h2 h3 h4
  unfold ScatterDims.window
  exact (dif_pos (show (1 : Fin 2) ∈ List.filter (fun a => decide (a ∉ ([] : List (Fin 2)))) (List.finRange 2) by decide)).trans rfl

/-- Update index (k, 0) lands at (k, 0). -/
theorem col_resultIdx? (idx : IVec S1 32) (hidx : ∀ q, idx q = 0#32) (j : S128x1.Idx) :
    d.resultIdx? j idx = some (ix2 (j 0) (0 : Fin 128)) := by
  have s0 := col_start0 d h1 h2 h3 h4 idx j
  have s1 := col_start1 d h1 h2 h3 h4 idx hidx j
  have w0 := col_window0 d h1 h2 h3 h4 j
  have w1 := col_window1 d h1 h2 h3 h4 j
  have hj0 : (j 0).val < 128 := (j 0).isLt
  have hj1 : (j 1).val < 1 := (j 1).isLt
  have hall : ∀ a, 0 ≤ d.start j idx a + (d.window j a : Int) ∧
      d.start j idx a + (d.window j a : Int) < (S128x128.size a : Int) := by
    intro a
    match a with
    | ⟨0, _⟩ =>
      show 0 ≤ d.start j idx 0 + (d.window j 0 : Int) ∧ d.start j idx 0 + (d.window j 0 : Int) < ((128 : Nat) : Int)
      rw [s0, w0]; omega
    | ⟨1, _⟩ =>
      show 0 ≤ d.start j idx 1 + (d.window j 1 : Int) ∧ d.start j idx 1 + (d.window j 1 : Int) < ((128 : Nat) : Int)
      rw [s1, w1]; omega
  unfold ScatterDims.resultIdx?
  rw [dif_pos hall]
  congr 1
  funext a
  match a with
  | ⟨0, _⟩ =>
    apply Fin.ext
    show (d.start j idx 0 + (d.window j 0 : Int)).toNat = (j 0).val
    rw [s0, w0]; omega
  | ⟨1, _⟩ =>
    apply Fin.ext
    show (d.start j idx 1 + (d.window j 1 : Int)).toNat = 0
    rw [s1, w1]; omega

end Col

/-! ## The head -/

variable [Cert.KernelIdeal.Facts]

/-- Column 0 of the padded weight is the weight. -/
theorem padWc_col0 (Wc : FVec Ideal S128x1 .f32) (k : Fin 128) :
    padWc (F := Ideal) Wc (ix2 k (0 : Fin 128)) = Wc (ix2 k (0 : Fin 1)) := by
  unfold padWc
  have hidx : ∀ q, (broadcastInDim S1 ![] Facts₀.bcast_S_S1 (constantI S_ 32 0#32) : IVec S1 32) q = 0#32 := fun _ => rfl
  have hres := col_resultIdx? scatter_S128x128_S1_S128x1_01_n_1_0 rfl rfl rfl rfl _ hidx
  refine scatter_replace_apply _ _ _ _ _ (ix2 k (0 : Fin 1)) (hres _) fun j hj => ?_
  rw [hres j] at hj
  have e0 : j 0 = k := congrFun (Option.some.inj hj) 0
  have hj1 : (j 1).val < 1 := (j 1).isLt
  have e1 : j 1 = (0 : Fin 1) := Fin.ext (by show (j 1).val = 0; omega)
  funext a
  match a with
  | ⟨0, _⟩ => exact e0
  | ⟨1, _⟩ => exact e1

/-- Column 0 of the product with the padded head weight, plus the bias, is the head function. -/
theorem head_eq (h : FVec Ideal S50000x128 .f32) (Wc : FVec Ideal S128x1 .f32) (bc : FVec Ideal S1 .f32) :
    tailT (F := Ideal) (mm h (padWc (F := Ideal) Wc)) bc = headVal h Wc bc := by
  funext i
  obtain ⟨n, rfl⟩ : ∃ n, i = ix1 n := ⟨i 0, eq_ix1 i⟩
  rw [headVal_apply]
  unfold tailT headAt
  rw [addf_apply]
  congr 1
  · -- column 0 of the product
    refine (shapeCast_apply _ _ (ix1 n) (ix2 n (0 : Fin 1)) ?_).trans ?_
    · rw [Shape.rowMajor_val_two, Shape.rowMajor_val_one]
      show n.val * 1 + 0 = n.val
      omega
    refine (slice2_axis1_apply 0 _ _ n (0 : Fin 1) (0 : Fin 128) rfl).trans ?_
    rw [mm_apply]
    exact Finset.sum_congr rfl fun k _ => by rw [padWc_col0]
  · -- the bias, broadcast
    refine (broadcastInDim_apply _ _ _ (ix1 n) ix0 fun a => a.elim0).trans ?_
    refine shapeCast_apply _ _ ix0 (ix1 (0 : Fin 1)) ?_
    rw [Shape.rowMajor_val_one]
    exact (Shape.rowMajorPi_zero _ _).symm

end Cert.Rgcn.Kern

end
-- ==== Proof.KernNet.lean ====
/-
  The kernel program's result as the network function: each region's output array is the matrix product of what the
  region was entered with; the host stretches between them are the layer's and the head's terms; so, destinations and
  relations in range, the result buffer at the end holds the network function of the argument arrays.
-/
import proofs.«412059_j1726576853586_1_alg».proof.Proof.Gen.KernelIdeal.Frame
import proofs.«412059_j1726576853586_1_alg».proof.Proof.KernBound
import proofs.«412059_j1726576853586_1_alg».proof.Proof.KernRegions
import proofs.«412059_j1726576853586_1_alg».proof.Proof.KernVal
import proofs.«412059_j1726576853586_1_alg».proof.Proof.KernHead
import proofs.«412059_j1726576853586_1_alg».proof.Proof.Spec

set_option maxRecDepth 16384

noncomputable section

namespace Cert.KernelIdeal.Hand

open Cert.KernelIdeal Cert.KernelIdeal.Gen Cert.Rgcn
open Idealize.ShloMosaic Idealize.ShloMosaic.TcCoe Idealize.ShloMosaic.ValueIdx Idealize.SL.Sem

variable (m : (ℓ : Loc nD τ sig) → Buf (Elt Ideal) ℓ) (ρ : Dev nD → PrngReg)

/-- Region 0's output at its exit: the product of the two arrays it was entered with. -/
theorem W2_v7 (c : Dev nD) :
    (W2 m ρ c (Proc.devRef .tc main_v7) : S50000x1152.Idx → EReal)
      = mm (W1 m ρ c (Proc.devRef .tc main_arg0) : S50000x128.Idx → EReal) (W1 m ρ c (Proc.devRef .tc main_v6) : S128x1152.Idx → EReal) :=
  (W2_arr m ρ c 2).trans (region0_val (V1 m ρ) c)

/-- Region 1's output at its exit. -/
theorem W6_v51 (c : Dev nD) :
    (W6 m ρ c (Proc.devRef .tc main_v51) : S50000x1152.Idx → EReal)
      = mm (W5 m ρ c (Proc.devRef .tc main_v47) : S50000x128.Idx → EReal) (W5 m ρ c (Proc.devRef .tc main_v50) : S128x1152.Idx → EReal) :=
  (W6_arr m ρ c 2).trans (region1_val (V5 m ρ) c)

/-- Region 2's output at its exit. -/
theorem W10_v95 (c : Dev nD) :
    (W10 m ρ c (Proc.devRef .tc main_v95) : S50000x128.Idx → EReal)
      = mm (W9 m ρ c (Proc.devRef .tc main_v91) : S50000x128.Idx → EReal) (W9 m ρ c (Proc.devRef .tc main_v94) : S128x128.Idx → EReal) :=
  (W10_arr m ρ c 2).trans (region2_val (V9 m ρ) c)

/-- The result buffer at the end of @main holds the network function of the argument arrays. -/
theorem W11_net (c : Dev nD)
    (hd : ∀ e : Fin 500000, 0 ≤ (dstWord (m ((c : Thread nD τ).loc main_arg1)) e).toInt ∧ (dstWord (m ((c : Thread nD τ).loc main_arg1)) e).toInt < 50000)
    (ht : ∀ e : Fin 500000, 0 ≤ (typWord (m ((c : Thread nD τ).loc main_arg2)) e).toInt ∧ (typWord (m ((c : Thread nD τ).loc main_arg2)) e).toInt < 8) :
    (W11 m ρ c (Proc.devRef .tc main_v100) : S50000.Idx → EReal)
      = netVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) (m ((c : Thread nD τ).loc main_arg10)) := by
  have e1 := Kern.layer_eq (m ((c : Thread nD τ).loc main_arg0)) (m ((c : Thread nD τ).loc main_arg3)) (m ((c : Thread nD τ).loc main_arg4)) (m ((c : Thread nD τ).loc main_arg5)) (m ((c : Thread nD τ).loc main_arg1)) (m ((c : Thread nD τ).loc main_arg2)) hd ht
  have e2 := Kern.layer_eq (layerVal (m ((c : Thread nD τ).loc main_arg0)) (m ((c : Thread nD τ).loc main_arg3)) (m ((c : Thread nD τ).loc main_arg4)) (m ((c : Thread nD τ).loc main_arg5)) (m ((c : Thread nD τ).loc main_arg1)) (m ((c : Thread nD τ).loc main_arg2)))
    (m ((c : Thread nD τ).loc main_arg6)) (m ((c : Thread nD τ).loc main_arg7)) (m ((c : Thread nD τ).loc main_arg8)) (m ((c : Thread nD τ).loc main_arg1)) (m ((c : Thread nD τ).loc main_arg2)) hd ht
  have e3 := Kern.head_eq (layerVal (layerVal (m ((c : Thread nD τ).loc main_arg0)) (m ((c : Thread nD τ).loc main_arg3)) (m ((c : Thread nD τ).loc main_arg4)) (m ((c : Thread nD τ).loc main_arg5)) (m ((c : Thread nD τ).loc main_arg1)) (m ((c : Thread nD τ).loc main_arg2)))
    (m ((c : Thread nD τ).loc main_arg6)) (m ((c : Thread nD τ).loc main_arg7)) (m ((c : Thread nD τ).loc main_arg8)) (m ((c : Thread nD τ).loc main_arg1)) (m ((c : Thread nD τ).loc main_arg2))) (m ((c : Thread nD τ).loc main_arg9)) (m ((c : Thread nD τ).loc main_arg10))
  rw [W11_out, W10_v95, W9_x, W9_w, W6_v51, W5_x, W5_w, W2_v7, W1_x, W1_w]
  rw [e1, e2, e3]
  rfl

end Cert.KernelIdeal.Hand

end
-- ==== Proof.RefTerms.lean ====
/-
  The reference program's stages as functions of arrays, spelt with its own operations: the two rows of the edge
  array, a source word wrapped, one relation's masked mean, a layer (the root term, the bias and the eight relations
  added one after the other, then relu), the head, and the whole network.
-/
import proofs.«412059_j1726576853586_1_alg».proof.ReferenceIdeal

noncomputable section

namespace Cert.ReferenceIdeal.Terms

open Cert.ReferenceIdeal Idealize.ShloMosaic Idealize.ShloMosaic.TcCoe

variable {F : FTy → Type} [FloatOps F] [Facts]
open Facts₀ Facts

/-- Row 0 of the edge array: the source words. -/
def srcV (ei : IVec S2x500000 32) : IVec S500000 32 :=
  shapeCast _ (extractStridedSlice S1x500000 ![0, 0] ei slices_S2x500000_S1x500000_0_0) shapeCasts_S1x500000_S500000

/-- Row 1 of the edge array: the destination words. -/
def dstV (ei : IVec S2x500000 32) : IVec S500000 32 :=
  shapeCast _ (extractStridedSlice S1x500000 ![1, 0] ei slices_S2x500000_S1x500000_1_0) shapeCasts_S1x500000_S500000

/-- A negative source word wrapped once by the node count. -/
def wrapV (s : IVec S500000 32) : IVec S500000 32 :=
  select (cmpi .slt s (broadcastInDim S500000 ![] bcast_S_S500000 (constantI S_ 32 0#32)))
    (addi s (broadcastInDim S500000 ![] bcast_S_S500000 (constantI S_ 32 50000#32))) s

/-- The relation mask as floats: 1 where the relation word is r, else 0. -/
def maskV (et : IVec S500000 32) (r : BitVec 32) : FVec F S500000 .f32 :=
  uitofp .f32 (cmpi .eq et (broadcastInDim S500000 ![] bcast_S_S500000 (constantI S_ 32 r)))

/-- x · root + b. -/
def baseT (x : FVec F S50000x128 .f32) (root : FVec F S128x128 .f32) (b : FVec F S128 .f32) : FVec F S50000x128 .f32 :=
  addf (Host.dotGeneral dot_S50000x128_S128x128_S50000x128_1_0_0_1_n_n none x root)
    (broadcastInDim S50000x128 ![0, 1] bcast_S1x128_S50000x128_0_1 (broadcastInDim S1x128 ![1] bcast_S128_S1x128_1 b))

/-- One relation's term: the masked messages x[src]·Wr summed per destination, over the masked count (at least 1). -/
def relT (x : FVec F S50000x128 .f32) (Wr : FVec F S128x128 .f32) (s d et : IVec S500000 32) (r : BitVec 32) :
    FVec F S50000x128 .f32 :=
  Host.divf
    (Host.scatterAdd scatter_S50000x128_S500000x1_S500000x128_1_0_0_1
      (broadcastInDim S50000x128 ![] bcast_S_S50000x128 (constant S_ .f32 0x00000000#32))
      (broadcastInDim S500000x1 ![0] bcast_S500000_S500000x1_0 d)
      (mulf
        (Host.gather gather_S50000x128_S500000x1_S500000x128_1_0_n_n_0_1_1128
          (Host.dotGeneral dot_S50000x128_S128x128_S50000x128_1_0_0_1_n_n none x Wr)
          (broadcastInDim S500000x1 ![0] bcast_S500000_S500000x1_0 (wrapV s)))
        (broadcastInDim S500000x128 ![0, 1] bcast_S500000x1_S500000x128_0_1
          (broadcastInDim S500000x1 ![0] bcast_S500000_S500000x1_0 (maskV (F := F) et r)))))
    (broadcastInDim S50000x128 ![0, 1] bcast_S50000x1_S50000x128_0_1
      (broadcastInDim S50000x1 ![0] bcast_S50000_S50000x1_0
        (maximumf
          (Host.scatterAdd scatter_S50000_S500000x1_S500000_n_0_0_1
            (broadcastInDim S50000 ![] bcast_S_S50000 (constant S_ .f32 0x00000000#32))
            (broadcastInDim S500000x1 ![0] bcast_S500000_S500000x1_0 d)
            (maskV (F := F) et r))
          (broadcastInDim S50000 ![] bcast_S_S50000 (constant S_ .f32 0x3F800000#32)))))

/-- W[r] as a matrix. -/
def W0 (W : FVec F S8x128x128 .f32) : FVec F S128x128 .f32 :=
  (shapeCast _ (extractStridedSlice S1x128x128 ![0, 0, 0] W slices_S8x128x128_S1x128x128_0_0_0) shapeCasts_S1x128x128_S128x128)
def W1 (W : FVec F S8x128x128 .f32) : FVec F S128x128 .f32 :=
  (shapeCast _ (extractStridedSlice S1x128x128 ![1, 0, 0] W slices_S8x128x128_S1x128x128_1_0_0) shapeCasts_S1x128x128_S128x128)
def W2 (W : FVec F S8x128x128 .f32) : FVec F S128x128 .f32 :=
  (shapeCast _ (extractStridedSlice S1x128x128 ![2, 0, 0] W slices_S8x128x128_S1x128x128_2_0_0) shapeCasts_S1x128x128_S128x128)
def W3 (W : FVec F S8x128x128 .f32) : FVec F S128x128 .f32 :=
  (shapeCast _ (extractStridedSlice S1x128x128 ![3, 0, 0] W slices_S8x128x128_S1x128x128_3_0_0) shapeCasts_S1x128x128_S128x128)
def W4 (W : FVec F S8x128x128 .f32) : FVec F S128x128 .f32 :=
  (shapeCast _ (extractStridedSlice S1x128x128 ![4, 0, 0] W slices_S8x128x128_S1x128x128_4_0_0) shapeCasts_S1x128x128_S128x128)
def W5 (W : FVec F S8x128x128 .f32) : FVec F S128x128 .f32 :=
  (shapeCast _ (extractStridedSlice S1x128x128 ![5, 0, 0] W slices_S8x128x128_S1x128x128_5_0_0) shapeCasts_S1x128x128_S128x128)
def W6 (W : FVec F S8x128x128 .f32) : FVec F S128x128 .f32 :=
  (shapeCast _ (extractStridedSlice S1x128x128 ![6, 0, 0] W slices_S8x128x128_S1x128x128_6_0_0) shapeCasts_S1x128x128_S128x128)
def W7 (W : FVec F S8x128x128 .f32) : FVec F S128x128 .f32 :=
  (shapeCast _ (extractStridedSlice S1x128x128 ![7, 0, 0] W slices_S8x128x128_S1x128x128_7_0_0) shapeCasts_S1x128x128_S128x128)

/-- relu. -/
def reluT (y : FVec F S50000x128 .f32) : FVec F S50000x128 .f32 :=
  maximumf y (broadcastInDim S50000x128 ![] bcast_S_S50000x128 (constant S_ .f32 0x00000000#32))

/-- The layer before relu: the root term and bias, then relation 0, 1, …, 7 added in that order. -/
def preT (x : FVec F S50000x128 .f32) (W : FVec F S8x128x128 .f32) (root : FVec F S128x128 .f32) (b : FVec F S128 .f32)
    (s d et : IVec S500000 32) : FVec F S50000x128 .f32 :=
  addf (addf (addf (addf (addf (addf (addf (addf (baseT x root b)
    (relT x (W0 W) s d et 0#32)) (relT x (W1 W) s d et 1#32)) (relT x (W2 W) s d et 2#32)) (relT x (W3 W) s d et 3#32))
    (relT x (W4 W) s d et 4#32)) (relT x (W5 W) s d et 5#32)) (relT x (W6 W) s d et 6#32)) (relT x (W7 W) s d et 7#32)

/-- One layer. -/
def layerT (x : FVec F S50000x128 .f32) (W : FVec F S8x128x128 .f32) (root : FVec F S128x128 .f32) (b : FVec F S128 .f32)
    (ei : IVec S2x500000 32) (et : IVec S500000 32) : FVec F S50000x128 .f32 :=
  reluT (preT x W root b (srcV ei) (dstV ei) et)

/-- The head: h · Wc + bc, then the single column dropped. -/
def headT (h : FVec F S50000x128 .f32) (Wc : FVec F S128x1 .f32) (bc : FVec F S1 .f32) : FVec F S50000 .f32 :=
  shapeCast _ (addf (Host.dotGeneral dot_S50000x128_S128x1_S50000x1_1_0_0_1_n_n none h Wc)
    (broadcastInDim S50000x1 ![0, 1] bcast_S1x1_S50000x1_0_1 (broadcastInDim S1x1 ![1] bcast_S1_S1x1_1 bc)))
    shapeCasts_S50000x1_S50000

/-- The whole network. -/
def netT (x : FVec F S50000x128 .f32) (ei : IVec S2x500000 32) (et : IVec S500000 32)
    (Wa : FVec F S8x128x128 .f32) (roota : FVec F S128x128 .f32) (ba : FVec F S128 .f32)
    (Wb : FVec F S8x128x128 .f32) (rootb : FVec F S128x128 .f32) (bb : FVec F S128 .f32)
    (Wc : FVec F S128x1 .f32) (bc : FVec F S1 .f32) : FVec F S50000 .f32 :=
  headT (layerT (layerT x Wa roota ba ei et) Wb rootb bb ei et) Wc bc

end Cert.ReferenceIdeal.Terms

end
-- ==== Proof.RefRunVal.lean ====
/-
  The reference program's operations read back: from any contents of the buffers, after all 567 operations the result
  buffer holds the network's term (the reference's own operations composed: two layers, each the root term and bias and
  the eight relations' masked means added in order, then relu; then the head) of the argument arrays, and no operation
  writes an argument.

  The operations come in nineteen chunks. Each chunk is read back once, from any contents V: what its result buffer
  holds as a term of V's values, and that it writes none of the buffers a later chunk still reads. A layer's eight
  relation chunks in a row are then one sum; the whole list is the set-up, a layer, the middle, a layer and the tail,
  read from the last back to the first.
-/
import proofs.«412059_j1726576853586_1_alg».proof.Proof.RefChunks
import proofs.«412059_j1726576853586_1_alg».proof.Proof.RefTerms

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option quotPrecheck false in
/-- What the buffer of reference `r` holds in `V`. -/
local notation:max V "⟪" r "⟫" => V (Proc.devRef .tc r)

/-- A reference `r` of a list `K` (`hr : r ∈ K`) keeps its contents through the chunk `ops`: each operation of the
    chunk writes one buffer, and that buffer's reference is not in `K` (decided, one operation at a time). -/
local macro "chunk_keeps " ops:ident hr:ident : tactic => `(tactic| (
  refine after_of_forall_not_mem _ _ (List.forall_iff_forall_mem.mp ?_)
  simp only [$ops:ident, List.Forall, nullary_writes, unary_writes, binary_writes, ternary_writes, reshape_writes,
    Finset.mem_singleton]
  repeat' apply And.intro
  all_goals exact devRef_ne_of_ne (fun e => by subst e; exact absurd $hr (by decide))))

/-- Through the chunk, or the layer's eight chunks, whose keeping lemma is `lem`: every buffer of the kept list that the
    goal reads after it, it reads before it instead. -/
local macro "through " lem:ident : tactic => `(tactic| (
  try rw [$lem:ident _ (r := main_v232) (by decide)]
  try rw [$lem:ident _ (r := main_v1) (by decide)]
  try rw [$lem:ident _ (r := main_v3) (by decide)]
  try rw [$lem:ident _ (r := main_arg0) (by decide)]
  try rw [$lem:ident _ (r := main_arg2) (by decide)]
  try rw [$lem:ident _ (r := main_arg3) (by decide)]
  try rw [$lem:ident _ (r := main_arg6) (by decide)]
  try rw [$lem:ident _ (r := main_arg7) (by decide)]
  try rw [$lem:ident _ (r := main_arg8) (by decide)]
  try rw [$lem:ident _ (r := main_arg9) (by decide)]
  try rw [$lem:ident _ (r := main_arg10) (by decide)]))

namespace RunVal

open Cert.ReferenceIdeal.RunP

/-- Two lists of operations in a row: the second run from what the first leaves. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## What no chunk writes -/

/-- The eleven arguments. -/
abbrev args : List (Ref sig .tc) :=
  [main_arg0, main_arg1, main_arg2, main_arg3, main_arg4, main_arg5, main_arg6, main_arg7, main_arg8, main_arg9, main_arg10]

/-- What the chunks after the set-up read and do not write: the source and destination words, the arguments. -/
abbrev keptA : List (Ref sig .tc) := main_v1 :: main_v3 :: args

/-- The same with the second layer's input. -/
abbrev keptB : List (Ref sig .tc) := main_v232 :: keptA

/-! ## What each chunk leaves alone -/

theorem P_keep (V : Valuation τ sig (Elt F)) {r : Ref sig .tc} (hr : r ∈ args) :
    (after (opsP (F := F)) V)⟪r⟫ = V⟪r⟫ := by chunk_keeps opsP hr

theorem A0_keep (V : Valuation τ sig (Elt F)) {r : Ref sig .tc} (hr : r ∈ keptA) :
    (after (opsA0 (F := F)) V)⟪r⟫ = V⟪r⟫ := by chunk_keeps opsA0 hr
theorem A1_keep (V : Valuation τ sig (Elt F)) {r : Ref sig .tc} (hr : r ∈ keptA) :
    (after (opsA1 (F := F)) V)⟪r⟫ = V⟪r⟫ := by chunk_keeps opsA1 hr
theorem A2_keep (V : Valuation τ sig (Elt F)) {r : Ref sig .tc} (hr : r ∈ keptA) :
    (after (opsA2 (F := F)) V)⟪r⟫ = V⟪r⟫ := by chunk_keeps opsA2 hr
theorem A3_keep (V : Valuation τ sig (Elt F)) {r : Ref sig .tc} (hr : r ∈ keptA) :
    (after (opsA3 (F := F)) V)⟪r⟫ = V⟪r⟫ := by chunk_keeps opsA3 hr
theorem A4_keep (V : Valuation τ sig (Elt F)) {r : Ref sig .tc} (hr : r ∈ keptA) :
    (after (opsA4 (F := F)) V)⟪r⟫ = V⟪r⟫ := by chunk_keeps opsA4 hr
theorem A5_keep (V : Valuation τ sig (Elt F)) {r : Ref sig .tc} (hr : r ∈ keptA) :
    (after (opsA5 (F := F)) V)⟪r⟫ = V⟪r⟫ := by chunk_keeps opsA5 hr
theorem A6_keep (V : Valuation τ sig (Elt F)) {r : Ref sig .tc} (hr : r ∈ keptA) :
    (after (opsA6 (F := F)) V)⟪r⟫ = V⟪r⟫ := by chunk_keeps opsA6 hr
theorem A7_keep (V : Valuation τ sig (Elt F)) {r : Ref sig .tc} (hr : r ∈ keptA) :
    (after (opsA7 (F := F)) V)⟪r⟫ = V⟪r⟫ := by chunk_keeps opsA7 hr

theorem M_keep (V : Valuation τ sig (Elt F)) {r : Ref sig .tc} (hr : r ∈ keptA) :
    (after (opsM (F := F)) V)⟪r⟫ = V⟪r⟫ := by chunk_keeps opsM hr

theorem B0_keep (V : Valuation τ sig (Elt F)) {r : Ref sig .tc} (hr : r ∈ keptB) :
    (after (opsB0 (F := F)) V)⟪r⟫ = V⟪r⟫ := by chunk_keeps opsB0 hr
theorem B1_keep (V : Valuation τ sig (Elt F)) {r : Ref sig .tc} (hr : r ∈ keptB) :
    (after (opsB1 (F := F)) V)⟪r⟫ = V⟪r⟫ := by chunk_keeps opsB1 hr
theorem B2_keep (V : Valuation τ sig (Elt F)) {r : Ref sig .tc} (hr : r ∈ keptB) :
    (after (opsB2 (F := F)) V)⟪r⟫ = V⟪r⟫ := by chunk_keeps opsB2 hr
theorem B3_keep (V : Valuation τ sig (Elt F)) {r : Ref sig .tc} (hr : r ∈ keptB) :
    (after (opsB3 (F := F)) V)⟪r⟫ = V⟪r⟫ := by chunk_keeps opsB3 hr
theorem B4_keep (V : Valuation τ sig (Elt F)) {r : Ref sig .tc} (hr : r ∈ keptB) :
    (after (opsB4 (F := F)) V)⟪r⟫ = V⟪r⟫ := by chunk_keeps opsB4 hr
theorem B5_keep (V : Valuation τ sig (Elt F)) {r : Ref sig .tc} (hr : r ∈ keptB) :
    (after (opsB5 (F := F)) V)⟪r⟫ = V⟪r⟫ := by chunk_keeps opsB5 hr
theorem B6_keep (V : Valuation τ sig (Elt F)) {r : Ref sig .tc} (hr : r ∈ keptB) :
    (after (opsB6 (F := F)) V)⟪r⟫ = V⟪r⟫ := by chunk_keeps opsB6 hr
theorem B7_keep (V : Valuation τ sig (Elt F)) {r : Ref sig .tc} (hr : r ∈ keptB) :
    (after (opsB7 (F := F)) V)⟪r⟫ = V⟪r⟫ := by chunk_keeps opsB7 hr

theorem T_keep (V : Valuation τ sig (Elt F)) {r : Ref sig .tc} (hr : r ∈ keptB) :
    (after (opsT (F := F)) V)⟪r⟫ = V⟪r⟫ := by chunk_keeps opsT hr

/-! ## What each chunk computes -/

/-- The set-up: the source words. -/
theorem P_v1 (V : Valuation τ sig (Elt F)) :
    (after (opsP (F := F)) V)⟪main_v1⟫ = Terms.srcV V⟪main_arg1⟫ := by
  unfold opsP; after_results; rfl

/-- The set-up: the destination words. -/
theorem P_v3 (V : Valuation τ sig (Elt F)) :
    (after (opsP (F := F)) V)⟪main_v3⟫ = Terms.dstV V⟪main_arg1⟫ := by
  unfold opsP; after_results; rfl

/-- The set-up: the first layer's root term and bias. -/
theorem P_v7 (V : Valuation τ sig (Elt F)) :
    (after (opsP (F := F)) V)⟪main_v7⟫ = Terms.baseT (F := F) V⟪main_arg0⟫ V⟪main_arg4⟫ V⟪main_arg5⟫ := by
  unfold opsP; after_results; rfl

/-- The middle: relu of the first layer's sum. -/
theorem M_v232 (V : Valuation τ sig (Elt F)) :
    (after (opsM (F := F)) V)⟪main_v232⟫ = Terms.reluT (F := F) V⟪main_v231⟫ := by
  unfold opsM; after_results; rfl

/-- The middle: the second layer's root term and bias, over the first layer's result. -/
theorem M_v236 (V : Valuation τ sig (Elt F)) :
    (after (opsM (F := F)) V)⟪main_v236⟫
      = Terms.baseT (F := F) (Terms.reluT (F := F) V⟪main_v231⟫) V⟪main_arg7⟫ V⟪main_arg8⟫ := by
  unfold opsM; after_results; rfl

/-- The tail: relu of the second layer's sum, then the head. -/
theorem T_v466 (V : Valuation τ sig (Elt F)) :
    (after (opsT (F := F)) V)⟪main_v466⟫
      = Terms.headT (F := F) (Terms.reluT (F := F) V⟪main_v460⟫) V⟪main_arg9⟫ V⟪main_arg10⟫ := by
  unfold opsT; after_results; rfl

/-- Relation 0 of the first layer: its masked mean added to the running sum. -/
theorem A0_sum (V : Valuation τ sig (Elt F)) :
    (after (opsA0 (F := F)) V)⟪main_v35⟫
      = addf V⟪main_v7⟫ (Terms.relT (F := F) V⟪main_arg0⟫ (Terms.W0 V⟪main_arg3⟫) V⟪main_v1⟫ V⟪main_v3⟫ V⟪main_arg2⟫ 0#32) := by
  unfold opsA0; after_results_simp; rfl

/-- Relation 1 of the first layer. -/
theorem A1_sum (V : Valuation τ sig (Elt F)) :
    (after (opsA1 (F := F)) V)⟪main_v63⟫
      = addf V⟪main_v35⟫ (Terms.relT (F := F) V⟪main_arg0⟫ (Terms.W1 V⟪main_arg3⟫) V⟪main_v1⟫ V⟪main_v3⟫ V⟪main_arg2⟫ 1#32) := by
  unfold opsA1; after_results_simp; rfl

/-- Relation 2 of the first layer. -/
theorem A2_sum (V : Valuation τ sig (Elt F)) :
    (after (opsA2 (F := F)) V)⟪main_v91⟫
      = addf V⟪main_v63⟫ (Terms.relT (F := F) V⟪main_arg0⟫ (Terms.W2 V⟪main_arg3⟫) V⟪main_v1⟫ V⟪main_v3⟫ V⟪main_arg2⟫ 2#32) := by
  unfold opsA2; after_results_simp; rfl

/-- Relation 3 of the first layer. -/
theorem A3_sum (V : Valuation τ sig (Elt F)) :
    (after (opsA3 (F := F)) V)⟪main_v119⟫
      = addf V⟪main_v91⟫ (Terms.relT (F := F) V⟪main_arg0⟫ (Terms.W3 V⟪main_arg3⟫) V⟪main_v1⟫ V⟪main_v3⟫ V⟪main_arg2⟫ 3#32) := by
  unfold opsA3; after_results_simp; rfl

/-- Relation 4 of the first layer. -/
theorem A4_sum (V : Valuation τ sig (Elt F)) :
    (after (opsA4 (F := F)) V)⟪main_v147⟫
      = addf V⟪main_v119⟫ (Terms.relT (F := F) V⟪main_arg0⟫ (Terms.W4 V⟪main_arg3⟫) V⟪main_v1⟫ V⟪main_v3⟫ V⟪main_arg2⟫ 4#32) := by
  unfold opsA4; after_results_simp; rfl

/-- Relation 5 of the first layer. -/
theorem A5_sum (V : Valuation τ sig (Elt F)) :
    (after (opsA5 (F := F)) V)⟪main_v175⟫
      = addf V⟪main_v147⟫ (Terms.relT (F := F) V⟪main_arg0⟫ (Terms.W5 V⟪main_arg3⟫) V⟪main_v1⟫ V⟪main_v3⟫ V⟪main_arg2⟫ 5#32) := by
  unfold opsA5; after_results_simp; rfl

/-- Relation 6 of the first layer. -/
theorem A6_sum (V : Valuation τ sig (Elt F)) :
    (after (opsA6 (F := F)) V)⟪main_v203⟫
      = addf V⟪main_v175⟫ (Terms.relT (F := F) V⟪main_arg0⟫ (Terms.W6 V⟪main_arg3⟫) V⟪main_v1⟫ V⟪main_v3⟫ V⟪main_arg2⟫ 6#32) := by
  unfold opsA6; after_results_simp; rfl

/-- Relation 7 of the first layer. -/
theorem A7_sum (V : Valuation τ sig (Elt F)) :
    (after (opsA7 (F := F)) V)⟪main_v231⟫
      = addf V⟪main_v203⟫ (Terms.relT (F := F) V⟪main_arg0⟫ (Terms.W7 V⟪main_arg3⟫) V⟪main_v1⟫ V⟪main_v3⟫ V⟪main_arg2⟫ 7#32) := by
  unfold opsA7; after_results_simp; rfl

/-- Relation 0 of the second layer: its masked mean, over the first layer's result, added to the running sum. -/
theorem B0_sum (V : Valuation τ sig (Elt F)) :
    (after (opsB0 (F := F)) V)⟪main_v264⟫
      = addf V⟪main_v236⟫ (Terms.relT (F := F) V⟪main_v232⟫ (Terms.W0 V⟪main_arg6⟫) V⟪main_v1⟫ V⟪main_v3⟫ V⟪main_arg2⟫ 0#32) := by
  unfold opsB0; after_results_simp; rfl

/-- Relation 1 of the second layer. -/
theorem B1_sum (V : Valuation τ sig (Elt F)) :
    (after (opsB1 (F := F)) V)⟪main_v292⟫
      = addf V⟪main_v264⟫ (Terms.relT (F := F) V⟪main_v232⟫ (Terms.W1 V⟪main_arg6⟫) V⟪main_v1⟫ V⟪main_v3⟫ V⟪main_arg2⟫ 1#32) := by
  unfold opsB1; after_results_simp; rfl

/-- Relation 2 of the second layer. -/
theorem B2_sum (V : Valuation τ sig (Elt F)) :
    (after (opsB2 (F := F)) V)⟪main_v320⟫
      = addf V⟪main_v292⟫ (Terms.relT (F := F) V⟪main_v232⟫ (Terms.W2 V⟪main_arg6⟫) V⟪main_v1⟫ V⟪main_v3⟫ V⟪main_arg2⟫ 2#32) := by
  unfold opsB2; after_results_simp; rfl

/-- Relation 3 of the second layer. -/
theorem B3_sum (V : Valuation τ sig (Elt F)) :
    (after (opsB3 (F := F)) V)⟪main_v348⟫
      = addf V⟪main_v320⟫ (Terms.relT (F := F) V⟪main_v232⟫ (Terms.W3 V⟪main_arg6⟫) V⟪main_v1⟫ V⟪main_v3⟫ V⟪main_arg2⟫ 3#32) := by
  unfold opsB3; after_results_simp; rfl

/-- Relation 4 of the second layer. -/
theorem B4_sum (V : Valuation τ sig (Elt F)) :
    (after (opsB4 (F := F)) V)⟪main_v376⟫
      = addf V⟪main_v348⟫ (Terms.relT (F := F) V⟪main_v232⟫ (Terms.W4 V⟪main_arg6⟫) V⟪main_v1⟫ V⟪main_v3⟫ V⟪main_arg2⟫ 4#32) := by
  unfold opsB4; after_results_simp; rfl

/-- Relation 5 of the second layer. -/
theorem B5_sum (V : Valuation τ sig (Elt F)) :
    (after (opsB5 (F := F)) V)⟪main_v404⟫
      = addf V⟪main_v376⟫ (Terms.relT (F := F) V⟪main_v232⟫ (Terms.W5 V⟪main_arg6⟫) V⟪main_v1⟫ V⟪main_v3⟫ V⟪main_arg2⟫ 5#32) := by
  unfold opsB5; after_results_simp; rfl

/-- Relation 6 of the second layer. -/
theorem B6_sum (V : Valuation τ sig (Elt F)) :
    (after (opsB6 (F := F)) V)⟪main_v432⟫
      = addf V⟪main_v404⟫ (Terms.relT (F := F) V⟪main_v232⟫ (Terms.W6 V⟪main_arg6⟫) V⟪main_v1⟫ V⟪main_v3⟫ V⟪main_arg2⟫ 6#32) := by
  unfold opsB6; after_results_simp; rfl

/-- Relation 7 of the second layer. -/
theorem B7_sum (V : Valuation τ sig (Elt F)) :
    (after (opsB7 (F := F)) V)⟪main_v460⟫
      = addf V⟪main_v432⟫ (Terms.relT (F := F) V⟪main_v232⟫ (Terms.W7 V⟪main_arg6⟫) V⟪main_v1⟫ V⟪main_v3⟫ V⟪main_arg2⟫ 7#32) := by
  unfold opsB7; after_results_simp; rfl

/-! ## A layer's eight relations in a row -/

/-- The eight relations' masked means added, in order, to an array `acc`. -/
def sumT (acc x : FVec F S50000x128 .f32) (W : FVec F S8x128x128 .f32) (s d et : IVec S500000 32) : FVec F S50000x128 .f32 :=
  addf (addf (addf (addf (addf (addf (addf (addf acc
    (Terms.relT x (Terms.W0 W) s d et 0#32)) (Terms.relT x (Terms.W1 W) s d et 1#32)) (Terms.relT x (Terms.W2 W) s d et 2#32))
    (Terms.relT x (Terms.W3 W) s d et 3#32)) (Terms.relT x (Terms.W4 W) s d et 4#32)) (Terms.relT x (Terms.W5 W) s d et 5#32))
    (Terms.relT x (Terms.W6 W) s d et 6#32)) (Terms.relT x (Terms.W7 W) s d et 7#32)

/-- A layer before relu is the eight relations added to its root term and bias. -/
theorem preT_eq (x : FVec F S50000x128 .f32) (W : FVec F S8x128x128 .f32) (root : FVec F S128x128 .f32) (b : FVec F S128 .f32)
    (s d et : IVec S500000 32) : Terms.preT x W root b s d et = sumT (Terms.baseT x root b) x W s d et := rfl

/-- The first layer's eight chunks leave the kept buffers alone. -/
theorem layerA_keep (V : Valuation τ sig (Elt F)) {r : Ref sig .tc} (hr : r ∈ keptA) :
    (after (opsA7 (F := F)) (after opsA6 (after opsA5 (after opsA4 (after opsA3 (after opsA2 (after opsA1 (after opsA0 V))))))))⟪r⟫
      = V⟪r⟫ := by
  rw [A7_keep _ hr, A6_keep _ hr, A5_keep _ hr, A4_keep _ hr, A3_keep _ hr, A2_keep _ hr, A1_keep _ hr, A0_keep _ hr]

/-- The second layer's eight chunks leave the kept buffers alone. -/
theorem layerB_keep (V : Valuation τ sig (Elt F)) {r : Ref sig .tc} (hr : r ∈ keptB) :
    (after (opsB7 (F := F)) (after opsB6 (after opsB5 (after opsB4 (after opsB3 (after opsB2 (after opsB1 (after opsB0 V))))))))⟪r⟫
      = V⟪r⟫ := by
  rw [B7_keep _ hr, B6_keep _ hr, B5_keep _ hr, B4_keep _ hr, B3_keep _ hr, B2_keep _ hr, B1_keep _ hr, B0_keep _ hr]

/-- The first layer's eight chunks: the sum buffer after relation 7, from the root term's buffer. -/
theorem layerA_sum (V : Valuation τ sig (Elt F)) :
    (after (opsA7 (F := F)) (after opsA6 (after opsA5 (after opsA4 (after opsA3 (after opsA2 (after opsA1 (after opsA0 V))))))))⟪main_v231⟫
      = sumT V⟪main_v7⟫ V⟪main_arg0⟫ V⟪main_arg3⟫ V⟪main_v1⟫ V⟪main_v3⟫ V⟪main_arg2⟫ := by
  rw [A7_sum]; through A7_keep
  rw [A6_sum]; through A6_keep
  rw [A5_sum]; through A5_keep
  rw [A4_sum]; through A4_keep
  rw [A3_sum]; through A3_keep
  rw [A2_sum]; through A2_keep
  rw [A1_sum]; through A1_keep
  rw [A0_sum]
  rfl

/-- The second layer's eight chunks: the sum buffer after relation 7, from the root term's buffer. -/
theorem layerB_sum (V : Valuation τ sig (Elt F)) :
    (after (opsB7 (F := F)) (after opsB6 (after opsB5 (after opsB4 (after opsB3 (after opsB2 (after opsB1 (after opsB0 V))))))))⟪main_v460⟫
      = sumT V⟪main_v236⟫ V⟪main_v232⟫ V⟪main_arg6⟫ V⟪main_v1⟫ V⟪main_v3⟫ V⟪main_arg2⟫ := by
  rw [B7_sum]; through B7_keep
  rw [B6_sum]; through B6_keep
  rw [B5_sum]; through B5_keep
  rw [B4_sum]; through B4_keep
  rw [B3_sum]; through B3_keep
  rw [B2_sum]; through B2_keep
  rw [B1_sum]; through B1_keep
  rw [B0_sum]
  rfl

end RunVal

/-! ## The whole list -/

open RunVal Cert.ReferenceIdeal.RunP

/-- The result buffer after all operations, from any contents V of the buffers. -/
theorem after_result (V : Valuation τ sig (Elt F)) :
    after (RunP.ops (F := F)) V (Proc.devRef .tc main_v466)
      = Terms.netT (F := F) (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) := by
  rw [RunP.ops_eq]
  simp only [after_app]
  -- the tail, over the second layer's sum
  rw [T_v466]
  rw [layerB_sum]; through layerB_keep
  -- the middle, over the first layer's sum
  rw [M_v236, M_v232]; through M_keep
  rw [layerA_sum]; through layerA_keep
  -- the set-up
  rw [P_v7, P_v1, P_v3]; through P_keep
  rfl

/-- No operation writes an argument. -/
theorem after_arg (V : Valuation τ sig (Elt F)) (b : Ref sig .tc)
    (hb : b ∈ [main_arg0, main_arg1, main_arg2, main_arg3, main_arg4, main_arg5, main_arg6, main_arg7, main_arg8, main_arg9, main_arg10]) :
    after (RunP.ops (F := F)) V (Proc.devRef .tc b) = V (Proc.devRef .tc b) := by
  have hA : b ∈ keptA := List.mem_cons_of_mem _ (List.mem_cons_of_mem _ hb)
  have hB : b ∈ keptB := List.mem_cons_of_mem _ hA
  rw [RunP.ops_eq]
  simp only [after_app]
  rw [T_keep _ hB, layerB_keep _ hB, M_keep _ hA, layerA_keep _ hA, P_keep _ hb]

end Cert.ReferenceIdeal.Hand

end
-- ==== Proof.RefRun.lean ====
/-
  The reference program's run with its result read: every weakly fair execution of @main ends with the result buffer
  at the network's term of the argument arrays, the arguments unchanged.
-/
import proofs.«412059_j1726576853586_1_alg».proof.Proof.RefOps
import proofs.«412059_j1726576853586_1_alg».proof.Proof.RefRunVal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- On every device, from any memory with zero counters: every weakly fair execution of @main terminates with the
    result at the network's term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v466)
        = Terms.netT (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨(h c main_v466).trans (after_result (F := F) (launchContents m c)),
     (h c main_arg0).trans (after_arg (F := F) (launchContents m c) main_arg0 (by simp)),
     (h c main_arg1).trans (after_arg (F := F) (launchContents m c) main_arg1 (by simp)),
     (h c main_arg2).trans (after_arg (F := F) (launchContents m c) main_arg2 (by simp)),
     (h c main_arg3).trans (after_arg (F := F) (launchContents m c) main_arg3 (by simp)),
     (h c main_arg4).trans (after_arg (F := F) (launchContents m c) main_arg4 (by simp)),
     (h c main_arg5).trans (after_arg (F := F) (launchContents m c) main_arg5 (by simp)),
     (h c main_arg6).trans (after_arg (F := F) (launchContents m c) main_arg6 (by simp)),
     (h c main_arg7).trans (after_arg (F := F) (launchContents m c) main_arg7 (by simp)),
     (h c main_arg8).trans (after_arg (F := F) (launchContents m c) main_arg8 (by simp)),
     (h c main_arg9).trans (after_arg (F := F) (launchContents m c) main_arg9 (by simp)),
     (h c main_arg10).trans (after_arg (F := F) (launchContents m c) main_arg10 (by simp))⟩)
    (RunP.run_after m ρ)

end Cert.ReferenceIdeal.Hand

end
-- ==== Proof.RefVal.lean ====
/-
  The reference's terms are the network: read index by index over the extended reals, a layer of the reference's own
  operations is the layer function (the gather reads the wrapped source row, a masked message is the message or 0,
  the scatter sums over the edges into a node, so a relation's sum and count run over the edges of that node and
  relation), and the head is the head function.
-/
import proofs.«412059_j1726576853586_1_alg».proof.Proof.RefTerms
import proofs.«412059_j1726576853586_1_alg».proof.Proof.Spec
import proofs.«412059_j1726576853586_1_alg».proof.Proof.LibGather
import proofs.«412059_j1726576853586_1_alg».proof.Proof.LibScatter
import Idealize.ShloMosaic.Lib.ValueLayout

noncomputable section

namespace Cert.Rgcn.Ref

open Idealize.ShloMosaic Idealize.ShloMosaic.ValueIdx Cert.ReferenceIdeal Cert.ReferenceIdeal.Terms Cert.Rgcn

variable [Cert.ReferenceIdeal.Facts]
open Cert.ReferenceIdeal.Facts₀ Cert.ReferenceIdeal.Facts

/-! ## The edge words at an edge -/

/-- Row 0 of the edge array at edge e. -/
private theorem srcV_apply (ei : IVec S2x500000 32) (e : Fin 500000) : srcV ei (ix1 e) = ei (ix2 (0 : Fin 2) e) := by
  unfold srcV
  refine (shapeCast_1a_a_apply _ _ e).trans ?_
  exact slice2_axis0_apply 0 ei _ (0 : Fin 1) e (0 : Fin 2) rfl

/-- Row 1 of the edge array at edge e. -/
private theorem dstV_apply (ei : IVec S2x500000 32) (e : Fin 500000) : dstV ei (ix1 e) = ei (ix2 (1 : Fin 2) e) := by
  unfold dstV
  refine (shapeCast_1a_a_apply _ _ e).trans ?_
  exact slice2_axis0_apply 1 ei _ (0 : Fin 1) e (1 : Fin 2) rfl

/-- A negative source word wrapped, at edge e. -/
private theorem wrapV_apply (s : IVec S500000 32) (e : Fin 500000) : wrapV s (ix1 e) = wrapNeg 50000#32 (s (ix1 e)) := by
  unfold wrapV wrapNeg
  show Scalar.select (IntOp.cmpi .slt (s (ix1 e)) 0#32) (IntOp.addi (s (ix1 e)) 50000#32) (s (ix1 e)) = _
  unfold Scalar.select IntOp.cmpi IntOp.addi
  by_cases h : (s (ix1 e)).toInt < 0
  · have hs : (s (ix1 e)).slt 0#32 = true := by simp [BitVec.slt, h]
    simp [hs, h]
  · have hs : (s (ix1 e)).slt 0#32 = false := by simp [BitVec.slt, h]
    simp [hs, h]

/-- The relation mask at edge e: 1 where the relation word is r, else 0. -/
private theorem maskV_apply (et : IVec S500000 32) (r : BitVec 32) (e : Fin 500000) :
    maskV (F := Ideal) et r (ix1 e) = if et (ix1 e) = r then (1 : EReal) else 0 := by
  unfold maskV
  show (((IntOp.cmpi .eq (et (ix1 e)) r).toNat : ℝ) : EReal) = _
  unfold IntOp.cmpi
  by_cases h : et (ix1 e) = r
  · simp [h]
  · simp [h]

/-! ## The two products at an index -/

private theorem lhs_dotA_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch from List.not_mem_nil),
    dif_pos (show (0 : Fin S50000x128.rank) ∈ dot_S50000x128_S128x128_S50000x128_1_0_0_1_n_n.lhsNonContracting from List.mem_singleton.mpr rfl)]
  rfl
private theorem lhs_dotA_1 (i : S50000x128.Idx) (q : dot_S50000x128_S128x128_S50000x128_1_0_0_1_n_n.contr.Idx) :
    (dot_S50000x128_S128x128_S50000x128_1_0_0_1_n_n.lhsIdx i q 1).val = (q ⟨0, by rw [DotDims.rank_contr]; exact Nat.one_pos⟩).val :=
  dot_S50000x128_S128x128_S50000x128_1_0_0_1_n_n.lhsIdx_val_of_single rfl i q
private theorem rhs_dotA_0 (i : S50000x128.Idx) (q : dot_S50000x128_S128x128_S50000x128_1_0_0_1_n_n.contr.Idx) :
    (dot_S50000x128_S128x128_S50000x128_1_0_0_1_n_n.rhsIdx i q 0).val = (q ⟨0, by rw [DotDims.rank_contr]; exact Nat.one_pos⟩).val :=
  dot_S50000x128_S128x128_S50000x128_1_0_0_1_n_n.rhsIdx_val_of_single rfl i q
private theorem rhs_dotA_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch from List.not_mem_nil),
    dif_pos (show (1 : Fin S128x128.rank) ∈ dot_S50000x128_S128x128_S50000x128_1_0_0_1_n_n.rhsNonContracting from List.mem_singleton.mpr rfl)]
  rfl

/-- The host's product of a (50000, 128) array with a (128, 128) array at (n, j): the sum over k of x[n, k] · w[k, j]. -/
private theorem dotA_apply (x : FVec Ideal S50000x128 .f32) (w : FVec Ideal S128x128 .f32) (n : Fin 50000) (j : Fin 128) :
    Host.dotGeneral (F := Ideal) dot_S50000x128_S128x128_S50000x128_1_0_0_1_n_n none x w (ix2 n j) = ∑ k : Fin 128, x (ix2 n k) * w (ix2 k j) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 n j) ((ValueIdx.contrEquiv1 dot_S50000x128_S128x128_S50000x128_1_0_0_1_n_n 128 rfl rfl).symm k) = ix2 n k := funext fun a => Fin.ext (by
    match a with
    | ⟨0, _⟩ => exact lhs_dotA_0 _ _
    | ⟨1, _⟩ => exact (lhs_dotA_1 _ _).trans hk)
  have er : dot_S50000x128_S128x128_S50000x128_1_0_0_1_n_n.rhsIdx (ix2 n j) ((ValueIdx.contrEquiv1 dot_S50000x128_S128x128_S50000x128_1_0_0_1_n_n 128 rfl rfl).symm k) = ix2 k j := funext fun a => Fin.ext (by
    match a with
    | ⟨0, _⟩ => exact (rhs_dotA_0 _ _).trans hk
    | ⟨1, _⟩ => exact rhs_dotA_1 _ _)
  rw [el, er]

private theorem lhs_dotB_0 (i : S50000x1.Idx) (q : dot_S50000x128_S128x1_S50000x1_1_0_0_1_n_n.contr.Idx) :
    (dot_S50000x128_S128x1_S50000x1_1_0_0_1_n_n.lhsIdx i q 0).val = (i 0).val := by
  unfold DotDims.lhsIdx
  rw [dif_neg (show ¬(0 : Fin S50000x128.rank) ∈ dot_S50000x128_S128x1_S50000x1_1_0_0_1_n_n.lhsBatch from List.not_mem_nil),
    dif_pos (show (0 : Fin S50000x128.rank) ∈ dot_S50000x128_S128x1_S50000x1_1_0_0_1_n_n.lhsNonContracting from List.mem_singleton.mpr rfl)]
  rfl
private theorem lhs_dotB_1 (i : S50000x1.Idx) (q : dot_S50000x128_S128x1_S50000x1_1_0_0_1_n_n.contr.Idx) :
    (dot_S50000x128_S128x1_S50000x1_1_0_0_1_n_n.lhsIdx i q 1).val = (q ⟨0, by rw [DotDims.rank_contr]; exact Nat.one_pos⟩).val :=
  dot_S50000x128_S128x1_S50000x1_1_0_0_1_n_n.lhsIdx_val_of_single rfl i q
private theorem rhs_dotB_0 (i : S50000x1.Idx) (q : dot_S50000x128_S128x1_S50000x1_1_0_0_1_n_n.contr.Idx) :
    (dot_S50000x128_S128x1_S50000x1_1_0_0_1_n_n.rhsIdx i q 0).val = (q ⟨0, by rw [DotDims.rank_contr]; exact Nat.one_pos⟩).val :=
  dot_S50000x128_S128x1_S50000x1_1_0_0_1_n_n.rhsIdx_val_of_single rfl i q
private theorem rhs_dotB_1 (i : S50000x1.Idx) (q : dot_S50000x128_S128x1_S50000x1_1_0_0_1_n_n.contr.Idx) :
    (dot_S50000x128_S128x1_S50000x1_1_0_0_1_n_n.rhsIdx i q 1).val = (i 1).val := by
  unfold DotDims.rhsIdx
  rw [dif_neg (show ¬(1 : Fin S128x1.rank) ∈ dot_S50000x128_S128x1_S50000x1_1_0_0_1_n_n.rhsBatch from List.not_mem_nil),
    dif_pos (show (1 : Fin S128x1.rank) ∈ dot_S50000x128_S128x1_S50000x1_1_0_0_1_n_n.rhsNonContracting from List.mem_singleton.mpr rfl)]
  rfl

/-- The host's product of a (50000, 128) array with a (128, 1) array at (n, j): the sum over k of x[n, k] · w[k, j]. -/
private theorem dotB_apply (x : FVec Ideal S50000x128 .f32) (w : FVec Ideal S128x1 .f32) (n : Fin 50000) (j : Fin 1) :
    Host.dotGeneral (F := Ideal) dot_S50000x128_S128x1_S50000x1_1_0_0_1_n_n none x w (ix2 n j) = ∑ k : Fin 128, x (ix2 n k) * w (ix2 k j) := by
  simp only [Host.dotGeneral]
  rw [Ideal.dotGeneral_apply, ← Equiv.sum_comp (ValueIdx.contrEquiv1 dot_S50000x128_S128x1_S50000x1_1_0_0_1_n_n 128 rfl rfl).symm]
  refine Finset.sum_congr rfl fun k _ => ?_
  have hk := ValueIdx.contrEquiv1_symm_val dot_S50000x128_S128x1_S50000x1_1_0_0_1_n_n 128 rfl rfl k
  have el : dot_S50000x128_S128x1_S50000x1_1_0_0_1_n_n.lhsIdx (ix2 n j) ((ValueIdx.contrEquiv1 dot_S50000x128_S128x1_S50000x1_1_0_0_1_n_n 128 rfl rfl).symm k) = ix2 n k := funext fun a => Fin.ext (by
    match a with
    | ⟨0, _⟩ => exact lhs_dotB_0 _ _
    | ⟨1, _⟩ => exact (lhs_dotB_1 _ _).trans hk)
  have er : dot_S50000x128_S128x1_S50000x1_1_0_0_1_n_n.rhsIdx (ix2 n j) ((ValueIdx.contrEquiv1 dot_S50000x128_S128x1_S50000x1_1_0_0_1_n_n 128 rfl rfl).symm k) = ix2 k j := funext fun a => Fin.ext (by
    match a with
    | ⟨0, _⟩ => exact (rhs_dotB_0 _ _).trans hk
    | ⟨1, _⟩ => exact rhs_dotB_1 _ _)
  rw [el, er]

/-! ## The broadcasts, the slice of W and the dropped column at an index -/

/-- A vector of 500000 as a column, at (e, 0). -/
private theorem col_E_apply {α : Type} (v : S500000.Idx → α) (e : Fin 500000) (u : Fin 1) :
    broadcastInDim S500000x1 ![0] bcast_S500000_S500000x1_0 v (ix2 e u) = v (ix1 e) :=
  broadcastInDim_apply _ _ v _ (ix1 e) fun a => match a with | ⟨0, _⟩ => rfl

/-- A column of 500000 spread over 128 columns, at (e, c). -/
private theorem spread_E_apply {α : Type} (v : S500000x1.Idx → α) (e : Fin 500000) (c : Fin 128) :
    broadcastInDim S500000x128 ![0, 1] bcast_S500000x1_S500000x128_0_1 v (ix2 e c) = v (ix2 e (0 : Fin 1)) :=
  broadcastInDim_apply _ _ v _ (ix2 e (0 : Fin 1)) fun a => match a with | ⟨0, _⟩ => rfl | ⟨1, _⟩ => rfl

/-- A vector of 50000 as a column spread over 128 columns, at (n, h). -/
private theorem spread_N_apply {α : Type} (v : S50000.Idx → α) (n : Fin 50000) (h : Fin 128) :
    broadcastInDim S50000x128 ![0, 1] bcast_S50000x1_S50000x128_0_1
      (broadcastInDim S50000x1 ![0] bcast_S50000_S50000x1_0 v) (ix2 n h) = v (ix1 n) := by
  refine (broadcastInDim_apply _ _ _ _ (ix2 n (0 : Fin 1)) fun a => match a with | ⟨0, _⟩ => rfl | ⟨1, _⟩ => rfl).trans ?_
  exact broadcastInDim_apply _ _ v _ (ix1 n) fun a => match a with | ⟨0, _⟩ => rfl

/-- A bias of 128 as a row spread over 50000 rows, at (n, h). -/
private theorem bias_apply {α : Type} (b : S128.Idx → α) (n : Fin 50000) (h : Fin 128) :
    broadcastInDim S50000x128 ![0, 1] bcast_S1x128_S50000x128_0_1
      (broadcastInDim S1x128 ![1] bcast_S128_S1x128_1 b) (ix2 n h) = b (ix1 h) := by
  refine (broadcastInDim_apply _ _ _ _ (ix2 (0 : Fin 1) h) fun a => match a with | ⟨0, _⟩ => rfl | ⟨1, _⟩ => rfl).trans ?_
  exact broadcastInDim_apply _ _ b _ (ix1 h) fun a => match a with | ⟨0, _⟩ => rfl

/-- The head's bias of 1 spread over 50000 rows of one column, at (n, 0). -/
private theorem bias1_apply {α : Type} (b : S1.Idx → α) (n : Fin 50000) (u : Fin 1) :
    broadcastInDim S50000x1 ![0, 1] bcast_S1x1_S50000x1_0_1
      (broadcastInDim S1x1 ![1] bcast_S1_S1x1_1 b) (ix2 n u) = b (ix1 (0 : Fin 1)) := by
  refine (broadcastInDim_apply _ _ _ _ (ix2 (0 : Fin 1) (0 : Fin 1)) fun a => match a with | ⟨0, _⟩ => rfl | ⟨1, _⟩ => rfl).trans ?_
  exact broadcastInDim_apply _ _ b _ (ix1 (0 : Fin 1)) fun a => match a with | ⟨0, _⟩ => rfl

/-- Relation r's matrix cut out of the stack of eight, at (k, h). -/
private theorem Wslice_apply {α : Type} (o : Nat) (r : Fin 8) (hr : r.val = o) (W : S8x128x128.Idx → α)
    (hs : S8x128x128.Slices ![o, 0, 0] S1x128x128) (k h : Fin 128) :
    shapeCast S128x128 (extractStridedSlice S1x128x128 ![o, 0, 0] W hs) shapeCasts_S1x128x128_S128x128 (ix2 k h)
      = W (ix3 r k h) := by
  refine (shapeCast_1ab_ab_apply _ _ k h).trans ?_
  exact extractStridedSlice_apply _ W hs _ (ix3 r k h) fun a => match a with
    | ⟨0, _⟩ => hr.trans (Nat.add_zero _).symm
    | ⟨1, _⟩ => (Nat.zero_add _).symm
    | ⟨2, _⟩ => (Nat.zero_add _).symm

/-- A single column dropped by a reshape, at n. -/
private theorem dropcol_apply {α : Type} (x : S50000x1.Idx → α) (n : Fin 50000) :
    shapeCast S50000 x shapeCasts_S50000x1_S50000 (ix1 n) = x (ix2 n (0 : Fin 1)) :=
  shapeCast_apply x _ _ _ (by
    rw [Shape.rowMajor_val_two, Shape.rowMajor_val_one]
    show n.val * 1 + 0 = n.val
    omega)

/-! ## One relation's term at an index -/

/-- The host's quotient at an index. -/
private theorem hdivf_apply {s : Shape} (a b : FVec Ideal s .f32) (i : s.Idx) : Host.divf a b i = Ideal.div (a i) (b i) := rfl

/-- The host's accumulating scatter over the extended reals is the exact sum. -/
private theorem hscatter_eq {s si u : Shape} (d : ScatterDims s si u) (x : FVec Ideal s .f32) (idx : IVec si 32) (upd : FVec Ideal u .f32) :
    Host.scatterAdd d x idx upd = Ideal.hostScatterAdd d x idx upd := rfl

/-- A scalar constant spread over (50000, 128) reads its value everywhere. -/
private theorem splat2_apply (b : BitVec 32) (i : S50000x128.Idx) :
    broadcastInDim S50000x128 ![] bcast_S_S50000x128 (constant (F := Ideal) S_ .f32 b) i = Ideal.ofBits .f32 b := rfl

/-- A scalar constant spread over 50000 reads its value everywhere. -/
private theorem splat1_apply (b : BitVec 32) (i : S50000.Idx) :
    broadcastInDim S50000 ![] bcast_S_S50000 (constant (F := Ideal) S_ .f32 b) i = Ideal.ofBits .f32 b := rfl

/-- The word 0x3F800000 is 1. -/
private theorem ofBits_one_f32 : Ideal.ofBits .f32 0x3F800000#32 = 1 := IdealRules.sign_bit.ideal_onePat .f32

/-- Edge e's message at column h: the wrapped source row of x · Wr. -/
private theorem msg_apply (x : FVec Ideal S50000x128 .f32) (Wr : FVec Ideal S128x128 .f32) (s : IVec S500000 32)
    (e : Fin 500000) (h : Fin 128) :
    Host.gather gather_S50000x128_S500000x1_S500000x128_1_0_n_n_0_1_1128
        (Host.dotGeneral (F := Ideal) dot_S50000x128_S128x128_S50000x128_1_0_0_1_n_n none x Wr)
        (broadcastInDim S500000x1 ![0] bcast_S500000_S500000x1_0 (wrapV s)) (ix2 e h)
      = ∑ k : Fin 128, x (ix2 (nodeOf (wrapNeg 50000#32 (s (ix1 e)))) k) * Wr (ix2 k h) := by
  rw [Cert.Rgcn.Lib.gather_rows_apply (by decide) gather_S50000x128_S500000x1_S500000x128_1_0_n_n_0_1_1128
    rfl rfl rfl rfl rfl rfl rfl, dotA_apply]
  have hrow : ∀ p, (⟨min ((broadcastInDim S500000x1 ![0] bcast_S500000_S500000x1_0 (wrapV s)) (ix2 e (0 : Fin 1))).toInt.toNat
      (50000 - 1), p⟩ : Fin 50000) = nodeOf (wrapNeg 50000#32 (s (ix1 e))) := fun p => Fin.ext (by
    show min _ _ = min _ _
    rw [col_E_apply, wrapV_apply])
  rw [hrow]

/-- One relation's term at (n, h): the masked messages summed over the edges into n, over the masked count (at least 1). -/
private theorem relT_apply (x : FVec Ideal S50000x128 .f32) (Wr : FVec Ideal S128x128 .f32) (s d et : IVec S500000 32) (r : BitVec 32)
    (n : Fin 50000) (h : Fin 128) :
    relT (F := Ideal) x Wr s d et r (ix2 n h)
      = Ideal.div
          (∑ e ∈ Finset.univ.filter (fun e : Fin 500000 => (d (ix1 e)).toInt = (n.val : Int)),
            (∑ k : Fin 128, x (ix2 (nodeOf (wrapNeg 50000#32 (s (ix1 e)))) k) * Wr (ix2 k h))
              * (if et (ix1 e) = r then (1 : EReal) else 0))
          (max (∑ e ∈ Finset.univ.filter (fun e : Fin 500000 => (d (ix1 e)).toInt = (n.val : Int)),
            (if et (ix1 e) = r then (1 : EReal) else 0)) 1) := by
  unfold relT
  rw [hdivf_apply, spread_N_apply, maximumf_apply, hscatter_eq, hscatter_eq,
    Cert.Rgcn.Lib.scatterAdd_rows_apply _ rfl rfl rfl rfl, Cert.Rgcn.Lib.scatterAdd_vec_apply _ rfl rfl rfl rfl,
    splat2_apply, splat1_apply, splat1_apply, Ideal.ofBits_zero_f32, ofBits_one_f32, zero_add, zero_add]
  have hf : (Finset.univ.filter fun e : Fin 500000 =>
        ((broadcastInDim S500000x1 ![0] bcast_S500000_S500000x1_0 d) (ix2 e (0 : Fin 1))).toInt = (n.val : Int))
      = Finset.univ.filter (fun e : Fin 500000 => (d (ix1 e)).toInt = (n.val : Int)) :=
    Finset.filter_congr fun e _ => by rw [col_E_apply]
  rw [hf]
  refine congrArg₂ Ideal.div ?_ (congrArg (fun t => max t (1 : EReal)) ?_)
  · refine Finset.sum_congr rfl fun e _ => ?_
    rw [mulf_apply, msg_apply, spread_E_apply, col_E_apply, maskV_apply]
  · refine Finset.sum_congr rfl fun e _ => ?_
    rw [maskV_apply]

/-! ## The relation's term is its mean; the layer before relu -/

/-- A sum of terms each times 1 or 0 is the sum over the indices where the factor is 1: on the extended reals
    a · 1 = a and a · 0 = 0 for every a. -/
private theorem sum_mul_mask {ι : Type} (S : Finset ι) (p : ι → Prop) [DecidablePred p] (f : ι → EReal) :
    ∑ e ∈ S, f e * (if p e then (1 : EReal) else 0) = ∑ e ∈ S.filter p, f e := by
  rw [Finset.sum_filter]
  refine Finset.sum_congr rfl fun e _ => ?_
  by_cases hp : p e
  · rw [if_pos hp, if_pos hp, mul_one]
  · rw [if_neg hp, if_neg hp, mul_zero]

/-- One relation's term is that relation's mean, when the word is r and Wr is W[r]. -/
private theorem relT_eq_relMean (x : FVec Ideal S50000x128 .f32) (W : FVec Ideal S8x128x128 .f32) (ei : IVec S2x500000 32)
    (et : IVec S500000 32) (r : Fin 8) (w : BitVec 32) (hw : w = BitVec.ofNat 32 r.val) (Wr : FVec Ideal S128x128 .f32)
    (hW : ∀ k h : Fin 128, Wr (ix2 k h) = W (ix3 r k h)) (n : Fin 50000) (h : Fin 128) :
    relT (F := Ideal) x Wr (srcV ei) (dstV ei) et w (ix2 n h) = relMean x W ei et n r h := by
  subst hw
  rw [relT_apply]
  unfold relMean relProd srcWord edgesOf typWord
  have hd : (Finset.univ.filter fun e : Fin 500000 => (dstV ei (ix1 e)).toInt = (n.val : Int))
      = Finset.univ.filter (fun e : Fin 500000 => (dstWord ei e).toInt = (n.val : Int)) :=
    Finset.filter_congr fun e _ => by rw [dstV_apply]; rfl
  rw [hd, sum_mul_mask,
    ← Finset.sum_filter (fun e : Fin 500000 => et (ix1 e) = BitVec.ofNat 32 r.val) (fun _ => (1 : EReal)), Finset.filter_filter]
  refine congrArg₂ Ideal.div ?_ rfl
  refine Finset.sum_congr rfl fun e _ => ?_
  rw [srcV_apply]
  refine Finset.sum_congr rfl fun k _ => ?_
  rw [hW]
/-- The root term and bias at (n, h). -/
private theorem baseT_apply (x : FVec Ideal S50000x128 .f32) (root : FVec Ideal S128x128 .f32) (b : FVec Ideal S128 .f32)
    (n : Fin 50000) (h : Fin 128) :
    baseT (F := Ideal) x root b (ix2 n h) = (∑ k : Fin 128, x (ix2 n k) * root (ix2 k h)) + b (ix1 h) := by
  unfold baseT
  rw [addf_apply, dotA_apply, bias_apply]

/-- The layer before relu at (n, h): the root term, the bias and the eight relations' means. -/
private theorem preT_apply (x : FVec Ideal S50000x128 .f32) (W : FVec Ideal S8x128x128 .f32) (root : FVec Ideal S128x128 .f32)
    (b : FVec Ideal S128 .f32) (ei : IVec S2x500000 32) (et : IVec S500000 32) (n : Fin 50000) (h : Fin 128) :
    preT (F := Ideal) x W root b (srcV ei) (dstV ei) et (ix2 n h)
      = ((∑ k : Fin 128, x (ix2 n k) * root (ix2 k h)) + b (ix1 h)) + ∑ r : Fin 8, relMean x W ei et n r h := by
  unfold preT
  rw [addf_apply, addf_apply, addf_apply, addf_apply, addf_apply, addf_apply, addf_apply, addf_apply, baseT_apply,
    relT_eq_relMean x W ei et 0 0#32 rfl (W0 W) (fun k h => Wslice_apply 0 0 rfl W _ k h),
    relT_eq_relMean x W ei et 1 1#32 rfl (W1 W) (fun k h => Wslice_apply 1 1 rfl W _ k h),
    relT_eq_relMean x W ei et 2 2#32 rfl (W2 W) (fun k h => Wslice_apply 2 2 rfl W _ k h),
    relT_eq_relMean x W ei et 3 3#32 rfl (W3 W) (fun k h => Wslice_apply 3 3 rfl W _ k h),
    relT_eq_relMean x W ei et 4 4#32 rfl (W4 W) (fun k h => Wslice_apply 4 4 rfl W _ k h),
    relT_eq_relMean x W ei et 5 5#32 rfl (W5 W) (fun k h => Wslice_apply 5 5 rfl W _ k h),
    relT_eq_relMean x W ei et 6 6#32 rfl (W6 W) (fun k h => Wslice_apply 6 6 rfl W _ k h),
    relT_eq_relMean x W ei et 7 7#32 rfl (W7 W) (fun k h => Wslice_apply 7 7 rfl W _ k h),
    Fin.sum_univ_eight]
  simp only [add_assoc]

/-! ## The layer, the head, the network -/

/-- One layer of the reference is the layer function. -/
theorem layer_eq (x : FVec Ideal S50000x128 .f32) (W : FVec Ideal S8x128x128 .f32) (root : FVec Ideal S128x128 .f32)
    (b : FVec Ideal S128 .f32) (ei : IVec S2x500000 32) (et : IVec S500000 32) :
    layerT (F := Ideal) x W root b ei et = layerVal x W root b ei et := by
  funext i
  obtain ⟨n, h, rfl⟩ : ∃ (n : Fin 50000) (h : Fin 128), i = ix2 n h := ⟨i 0, i 1, eq_ix2 i⟩
  rw [layerVal_apply]
  unfold layerT reluT layerAt
  rw [maximumf_apply, splat2_apply, Ideal.ofBits_zero_f32, preT_apply]

/-- The reference's head is the head function. -/
theorem head_eq (h : FVec Ideal S50000x128 .f32) (Wc : FVec Ideal S128x1 .f32) (bc : FVec Ideal S1 .f32) :
    headT (F := Ideal) h Wc bc = headVal h Wc bc := by
  funext i
  obtain ⟨n, rfl⟩ : ∃ n : Fin 50000, i = ix1 n := ⟨i 0, eq_ix1 i⟩
  rw [headVal_apply]
  unfold headT headAt
  rw [dropcol_apply, addf_apply, dotB_apply, bias1_apply]

/-- The reference's network is the network function. -/
theorem net_eq (x : FVec Ideal S50000x128 .f32) (ei : IVec S2x500000 32) (et : IVec S500000 32)
    (Wa : FVec Ideal S8x128x128 .f32) (roota : FVec Ideal S128x128 .f32) (ba : FVec Ideal S128 .f32)
    (Wb : FVec Ideal S8x128x128 .f32) (rootb : FVec Ideal S128x128 .f32) (bb : FVec Ideal S128 .f32)
    (Wc : FVec Ideal S128x1 .f32) (bc : FVec Ideal S1 .f32) :
    netT (F := Ideal) x ei et Wa roota ba Wb rootb bb Wc bc = netVal x ei et Wa roota ba Wb rootb bb Wc bc := by
  unfold netT netVal
  rw [layer_eq, layer_eq, head_eq]

end Cert.Rgcn.Ref

end
-- ==== Proof.lean ====
/-
  A two-layer relational graph convolution with a linear head: the kernel program against its reference, equal over
  the extended reals.

  Both programs compute, per layer, relu( x·root + b + Σ_r mean over the edges into a node that carry relation r of
  x[src]·W[r] ), the mean of an empty set being 0, and then h·Wc + bc. The kernel program multiplies x by the
  concatenated weight [root | W[0] | … | W[7]] in one region (at the extended reals the matrix unit's pass is the plain
  sum of products and the narrowing of its operands the identity), gathers the message of an edge by (source,
  relation), and sums and counts per combined segment 8·dst + relation; the reference multiplies by each W[r], masks
  the messages by relation (a factor 1 or 0, and a·0 = 0 for every extended real a) and sums and counts per
  destination. For destinations in 0..49999 and relations in 0..7, which the precondition states, the combined segment
  names the pair (node, relation) exactly, so both are the one function `Cert.Rgcn.netVal` of the argument arrays
  (Proof/Spec.lean). The head's weight sits in column 0 of a zero matrix in the kernel program, and column 0 of that
  product is h·Wc.

  The three frames: the kernel programs' are the generated frame certificates; the reference's is its run (Proof/RefRun.lean)
  with the result dropped. The idealization's ledger is empty.
-/
import proofs.«412059_j1726576853586_1_alg».proof.Defs
import proofs.«412059_j1726576853586_1_alg».proof.Proof.Gen.Kernel
import proofs.«412059_j1726576853586_1_alg».proof.Proof.Gen.Kernel.Frame
import proofs.«412059_j1726576853586_1_alg».proof.Proof.Gen.KernelIdeal
import proofs.«412059_j1726576853586_1_alg».proof.Proof.Gen.KernelIdeal.Frame
import proofs.«412059_j1726576853586_1_alg».proof.Proof.Gen.ReferenceIdeal
import proofs.«412059_j1726576853586_1_alg».proof.Proof.Gen.Pre_finite_inputs
import proofs.«412059_j1726576853586_1_alg».proof.Proof.Spec
import proofs.«412059_j1726576853586_1_alg».proof.Proof.PreFacts
import proofs.«412059_j1726576853586_1_alg».proof.Proof.KernRun
import proofs.«412059_j1726576853586_1_alg».proof.Proof.KernNet
import proofs.«412059_j1726576853586_1_alg».proof.Proof.RefRun
import proofs.«412059_j1726576853586_1_alg».proof.Proof.RefVal
import Idealize.ShloMosaic.Adequacy
import Idealize.ShloMosaic.Init

noncomputable section

namespace Cert.Proof

open Idealize.ShloMosaic Idealize.SL.Sem Cert.Rgcn

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- Both runs end with the result at the network function of the argument arrays. -/
theorem algebraic : Cert.algebraic_KernelIdeal_ReferenceIdeal := by
  intro m ρ m' ρ' hpre hagree
  refine ⟨fun c => netVal (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · -- the kernel program: its run leaves the last boundary's contents, which are the network function
    refine (θ_run Cert.KernelIdeal.defs _ _).mono (fun r h c => ?_) (Cert.KernelIdeal.Hand.run_W11 (F := Ideal) m ρ)
    have hr := Cert.Rgcn.Pre.ranges_of_pre _ _ _ _ _ _ _ _ _ _ _ (hpre c)
    exact ⟨(h c).1.trans (Cert.KernelIdeal.Hand.W11_net m ρ c hr.1 hr.2), (h c).2⟩
  · -- the reference: its run leaves the network's term of its own arguments, which agree with the kernel program's
    refine (θ_run Cert.ReferenceIdeal.defs _ _).mono (fun r h c => ⟨(h c).1.trans ?_, (h c).2⟩) (Cert.ReferenceIdeal.Hand.run (F := Ideal) m' ρ')
    obtain ⟨a0, a1, a2, a3, a4, a5, a6, a7, a8, a9, a10⟩ := hagree c
    rw [Cert.Rgcn.Ref.net_eq, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
